-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S1x8192 : Shape := ⟨2, ![1, 8192]⟩
abbrev S1024x128 : Shape := ⟨2, ![1024, 128]⟩
abbrev S1x1024 : Shape := ⟨2, ![1, 1024]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .bf16⟩
  | .hbm, ⟨4, _⟩ => ⟨S8192x128, .bf16⟩
  | .hbm, ⟨5, _⟩ => ⟨S8192x128, .bf16⟩
  | .hbm, ⟨6, _⟩ => ⟨S1x8192, .f32⟩
  | .hbm, ⟨7, _⟩ => ⟨S8192x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S8192x128_S128x8192_1_0 : S8192x128.Transposes [1, 0] S128x8192
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.StatsRuns.lean ====
import proofs.«180234_j36386962931993_1_alg».proof.Proof.Gen.Kernel.Launch
import proofs.«180234_j36386962931993_1_alg».proof.Proof.Gen.Kernel.Skeleton
import proofs.«180234_j36386962931993_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of the core when the region is entered: the windows' blocks are read off it
variable (V : (c : Dev nD) → (b : Ref sig .tc) → Buf (Elt F) ((c : Thread nD τ).loc b))

/-! ## The two conditionals of the body, as functions of the grid point

The body branches twice on the second grid coordinate j (point t has j = t % 8): the first branch resets the
running maximum and the running sum (j = 0), the second writes the result row out (j = 7). -/

/-- The first conditional's test on the coordinates: j = 0. -/
abbrev cond0_0 (i : grid0.Coords) : Prop := (Scalar.cmpi .ne (Scalar.extui (Scalar.cmpi .eq (BitVec.ofNat 32 (i 1).val) 0#32)) 0#32) = 1#1
/-- It holds exactly at the points t with t % 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test on the coordinates: j = 7. -/
abbrev cond0_1 (i : grid0.Coords) : Prop := k0_cond2 i = 1#1
/-- It holds exactly at the points t with t % 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where each window is idle

The two input windows are live at every point. The output window receives a store only where j = 7; elsewhere it
is idle and its block is not written back. -/

theorem liveAt0_0 : ∀ t : Fin cfg0.N, cfg0.idle 0 (grid0.coords t) = false := by decide +kernel
theorem liveAt0_1 : ∀ t : Fin cfg0.N, cfg0.idle 1 (grid0.coords t) = false := by decide +kernel
/-- j = 0: no store into the output window, -/
theorem idleAt0_2_A : ∀ t : Fin cfg0.N, cond0_0 (grid0.coords t) → ¬cond0_1 (grid0.coords t) → cfg0.idle 2 (grid0.coords t) = true := by decide +kernel
/-- and no write-back of it. -/
theorem noFlush0_2_A : ∀ t : Fin cfg0.N, cond0_0 (grid0.coords t) → ¬cond0_1 (grid0.coords t) → (cfg0.win 2).flush t = false := by decide +kernel
/-- 0 < j < 7: no store into the output window, -/
theorem idleAt0_2_B : ∀ t : Fin cfg0.N, ¬cond0_0 (grid0.coords t) → ¬cond0_1 (grid0.coords t) → cfg0.idle 2 (grid0.coords t) = true := by decide +kernel
/-- and no write-back of it. -/
theorem noFlush0_2_B : ∀ t : Fin cfg0.N, ¬cond0_0 (grid0.coords t) → ¬cond0_1 (grid0.coords t) → (cfg0.win 2).flush t = false := by decide +kernel
/-- j = 7: the output window is stored into. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window: the view through which its contents are stated (any of its buffers
    gives the same function of the pieces). -/
abbrev VO0_2 : View sig .tc .vmem S1x1024 .f32 := (Memref.whole cc0_stg2_0 : Memref sig .tc .vmem S1x1024 .f32).view
/-- Each window's current staging memref at point t, and that it is a whole buffer. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The running maximum (one entry per key row of the block) and the running sum of exponentials: two whole
    buffers of the core that live from point to point. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The core's remaining private buffers (those of the second pass), each at some contents: the first pass never
    touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's resting invariant, with the running maximum and the running sum as memrefs owned at some
    contents, the second pass's buffers as one remainder, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key window's staging buffer holds the key block of the point at every point, fetched there or not (its
    block index moves only where it is fetched), for any proof data over these arrays whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the query window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body, case by case

In each case the body is run on whole memrefs: the two input blocks at given contents, the output buffer and the
two running buffers as the case needs them. What it leaves in a buffer it stores into is a list of pieces (the
last store first), found by running the body; the lists are the first components of the result. -/

set_option maxHeartbeats 1000000 in
/-- j = 0. The running buffers are reset (to minus infinity and to zero) before they are read, so they may hold
    anything on entry; the output buffer is handed back untouched. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) :
    Σ' (L2 : List (View.Piece (Elt F) S1x1024 .f32)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- 0 < j < 7. The running buffers hold what the point before left (xs0 the maximum, xs1 the sum) and are both
    updated; the output buffer is handed back untouched. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) :
    Σ' (L2 : List (View.Piece (Elt F) S1x1024 .f32)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- j = 7. The running buffers hold what the point before left and are both updated; then the result row (the
    maximum plus the logarithm of the sum, transposed) is stored over the whole output buffer, which may hold
    anything on entry. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) :
    Σ' (L2 : List (View.Piece (Elt F) S1x1024 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Stats

end
-- ==== Proof.K.StatsData.lean ====
import proofs.«180234_j36386962931993_1_alg».proof.Proof.Gen.Kernel.Launch
import proofs.«180234_j36386962931993_1_alg».proof.Proof.Gen.Kernel.Skeleton
import proofs.«180234_j36386962931993_1_alg».proof.Proof.Gen.Kernel.Points
import proofs.«180234_j36386962931993_1_alg».proof.Proof.K.StatsRuns
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement of this module is made at this parameter
variable (V : (c : Dev nD) → (b : Ref sig .tc) → Buf (Elt F) ((c : Thread nD τ).loc b))

/-! ## What each case leaves in the buffers it stores into -/

/-- j = 0: the output buffer's pieces read back over arbitrary contents (there are none: a placeholder, consulted nowhere, since the window is idle and not written back at these points). -/
def out0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1x1024 .f32 :=
  VO0_2.read (Elt F) (VO0_2.writes (Elt F) VO0_2.junk (kernelRun0_A c i arg2 harg2 arg3 harg3 arg4 harg4 arg5 harg5 arg6 harg6 hc0 hc1 x0 x1).1)

/-- j = 0: the stores into the running maximum cover all of it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) (y : S1024x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1.size (by sl_kernel_rfl) y

/-- j = 0: the running maximum afterwards. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1024x1 .f32 :=
  VS0_0.read (Elt F) (VS0_0.writes (Elt F) VS0_0.junk (kernelRun0_A c i arg2 harg2 arg3 harg3 arg4 harg4 arg5 harg5 arg6 harg6 hc0 hc1 x0 x1).2.1)

/-- j = 0: the stores into the running sum cover all of it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y

/-- j = 0: the running sum afterwards. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1024x1 .f32 :=
  VS0_1.read (Elt F) (VS0_1.writes (Elt F) VS0_1.junk (kernelRun0_A c i arg2 harg2 arg3 harg3 arg4 harg4 arg5 harg5 arg6 harg6 hc0 hc1 x0 x1).2.2.1)

/-- 0 < j < 7: the output buffer's pieces read back over arbitrary contents (there are none: a placeholder, consulted nowhere, since the window is idle and not written back at these points). -/
def out0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1x1024 .f32 :=
  VO0_2.read (Elt F) (VO0_2.writes (Elt F) VO0_2.junk (kernelRun0_B c i arg2 harg2 arg3 harg3 arg4 harg4 arg5 harg5 arg6 harg6 hc0 hc1 x0 x1 xs0 xs1).1)

/-- 0 < j < 7: the stores into the running maximum cover all of it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1024x1.size (by sl_kernel_rfl) y

/-- 0 < j < 7: the running maximum afterwards. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- 0 < j < 7: the stores into the running sum cover all of it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1024x1.size (by sl_kernel_rfl) y

/-- 0 < j < 7: the running sum afterwards. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- j = 7: the one store into the output buffer covers all of it. -/
theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1x1024.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1024.size (by sl_kernel_rfl) y

/-- j = 7: the output buffer's pieces read back over arbitrary contents (the result row). -/
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1x1024 .f32 :=
  VO0_2.read (Elt F) (VO0_2.writes (Elt F) VO0_2.junk (kernelRun0_C c i arg2 harg2 arg3 harg3 arg4 harg4 arg5 harg5 arg6 harg6 hc0 hc1 x0 x1 xs0 xs1).1)

/-- j = 7: the stores into the running maximum cover all of it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x1.size (by sl_kernel_rfl) y

/-- j = 7: the running maximum afterwards. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- j = 7: the stores into the running sum cover all of it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1024x1.size (by sl_kernel_rfl) y

/-- j = 7: the running sum afterwards. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## The three cases at a grid point

The triple (output buffer, running maximum, running sum) after the body at point t, in each case, from the
point's key and query blocks and, off the first column, from the running buffers xs0, xs1 the point before left. -/

def ptA (c : Dev nD) (t : Fin cfg0.N) (h0 : t.val % 8 = 0) (h1 : ¬t.val % 8 = 7) : Vec F S1x1024 .f32 × Vec F S1024x1 .f32 × Vec F S1024x1 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t))

def ptB (c : Dev nD) (t : Fin cfg0.N) (h0 : ¬t.val % 8 = 0) (h1 : ¬t.val % 8 = 7) (xs0 xs1 : Vec F S1024x1 .f32) : Vec F S1x1024 .f32 × Vec F S1024x1 .f32 × Vec F S1024x1 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1)

def ptC (c : Dev nD) (t : Fin cfg0.N) (h0 : ¬t.val % 8 = 0) (h1 : t.val % 8 = 7) (xs0 xs1 : Vec F S1024x1 .f32) : Vec F S1x1024 .f32 × Vec F S1024x1 .f32 × Vec F S1024x1 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1)

/-! ## The recurrence along the grid -/

/-- The triple (output buffer, running maximum, running sum) after the body at position n: at the first column
    of a row of the grid (n % 8 = 0) the running buffers start afresh; elsewhere they continue from position
    n - 1; at the last column (n % 8 = 7) the result row is produced as well. No position is in both the first and
    the last column. -/
def outsAt0 (c : Dev nD) : (n : ℕ) → n < cfg0.N → Vec F S1x1024 .f32 × Vec F S1024x1 .f32 × Vec F S1024x1 .f32
  | 0, hn => ptA V c ⟨0, hn⟩ (Nat.zero_mod _) (show ¬(0 % 8 = 7) from by decide)
  | n + 1, hn =>
    if h0 : (n + 1) % 8 = 0 then
      if h1 : (n + 1) % 8 = 7 then False.elim (by omega)
      else ptA V c ⟨n + 1, hn⟩ h0 h1
    else
      if h1 : (n + 1) % 8 = 7 then
        ptC V c ⟨n + 1, hn⟩ h0 h1 (outsAt0 c n (Nat.lt_of_succ_lt hn)).2.1 (outsAt0 c n (Nat.lt_of_succ_lt hn)).2.2
      else
        ptB V c ⟨n + 1, hn⟩ h0 h1 (outsAt0 c n (Nat.lt_of_succ_lt hn)).2.1 (outsAt0 c n (Nat.lt_of_succ_lt hn)).2.2

/-- At a point of the first column. -/
theorem outsAt0_A (c : Dev nD) (t : Fin cfg0.N) (h0 : t.val % 8 = 0) (h1 : ¬t.val % 8 = 7) :
    outsAt0 V c t.val t.isLt = ptA V c t h0 h1 := by
  obtain ⟨n, hn⟩ := t
  cases n with
  | zero => exact rfl
  | succ n => exact (dif_pos h0).trans ((dif_neg h1).trans rfl)

/-- At a point strictly between the first and the last column: over what the point before left. -/
theorem outsAt0_B (c : Dev nD) (t : Fin cfg0.N) (h0 : ¬t.val % 8 = 0) (h1 : ¬t.val % 8 = 7) :
    outsAt0 V c t.val t.isLt = ptB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- At a point of the last column: over what the point before left. -/
theorem outsAt0_C (c : Dev nD) (t : Fin cfg0.N) (h0 : ¬t.val % 8 = 0) (h1 : t.val % 8 = 7) :
    outsAt0 V c t.val t.isLt = ptC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position n: at n = 0 the region's resting invariant (the running buffers hold anything); afterwards the
    running maximum and the running sum are owned at what position n - 1 left, the second pass's buffers and the
    generator register as in the resting invariant. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ rest0 (F := F) c) ∗ (∃ r, prngReg c r)) := by
  cases n with
  | zero => exact absurd rfl hz
  | succ n => rfl

/-! ## The proof data -/

/-- The proof data of pipeline 0 on core c, at the region-entry contents V: the arrays as the region finds them;
    after the body each input buffer still at its block and the output buffer at the recurrence's first
    component; the invariant above; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current buffer holds the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point t: the invariant, the core's debts, and each window's current buffer at what
    it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold the point's blocks; the column of the point decides the case.
    In the first column the running buffers are taken at anything (at the very first point from the resting
    invariant, later from the invariant's named contents, forgotten) and given back at the case's contents; in the
    other columns they are taken at what the point before left. The output buffer is handed back untouched except
    in the last column, where the result row covers it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2_A t hc0 hc1) (noFlush0_2_A t hc0 hc1)]
    rw [outsAt0_A V c t h0 h1]
    unfold ptA sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2_C t hc0 hc1], after0_2]
      rw [outsAt0_C V c t h0 h1]
      unfold ptC out0_C_2 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hc1 : ¬cond0_1 (grid0.coords t) := fun h => h1 ((hcond0_1 t).mp h)
      rw [Dat.leavesExact_idle (dat0 V c) 2 t (idleAt0_2_B t hc0 hc1) (noFlush0_2_B t hc0 hc1)]
      rw [outsAt0_B V c t h0 h1]
      unfold ptB sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact HR
        iexact Hg
      isplitl [Ho]; · iexact Ho
      isplitl [H0]; · iexact H0
      isplitl [H1]; · iexact H1
      iexists _; iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the resting invariant back: the running buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- In particular after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Stats

end
-- ==== Proof.K.OutRuns.lean ====
import proofs.«180234_j36386962931993_1_alg».proof.Proof.Gen.Kernel.Launch
import proofs.«180234_j36386962931993_1_alg».proof.Proof.Gen.Kernel.Skeleton
import proofs.«180234_j36386962931993_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditionals, as conditions on the grid point

The kernel resets its accumulator where the second grid coordinate is 0 and writes the accumulator out where it is 7.
Over the 64 points (point t has coordinates (t / 8, t % 8)) these are t % 8 = 0 and t % 8 = 7. -/

/-- The first conditional's condition: the second coordinate is 0. -/
abbrev cond1_0 (i : grid1.Coords) : Prop := (Scalar.cmpi .ne (Scalar.extui (Scalar.cmpi .eq (BitVec.ofNat 32 (i 1).val) 0#32)) 0#32) = 1#1
/-- It holds exactly at the points t with t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the second coordinate is 7. -/
abbrev cond1_1 (i : grid1.Coords) : Prop := k1_cond2 i = 1#1
/-- It holds exactly at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the accumulator is reset (and not written out) the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- Where neither conditional is taken the output window is idle and not written back. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where the accumulator is written out the output window is live. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (any view of the same shape reads
    a covering list of pieces alike). -/
abbrev VO1_4 : View sig .tc .vmem S1024x128 .f32 := (Memref.whole cc1_stg4_0 : Memref sig .tc .vmem S1024x128 .f32).view
/-- Each window's current staging memref at point t, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x128 .f32 := Memref.whole cc1_scratch0
/-- The accumulator as a view: what it holds is stated through it. -/
abbrev VS1_0 : View sig .tc .vmem S1024x128 .f32 := scM1_0.view

/-! ## The region's invariant, opened on the accumulator -/

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers of the core that this region neither stages through nor uses as scratch (the other region's
    staging buffers and scratch), each held at some contents: they ride through the region untouched. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg1_1
    ∗ anyBuf (F := F) c cc0_stg2_0 ∗ anyBuf (F := F) c cc0_stg2_1 ∗ anyBuf (F := F) c cc0_scratch0 ∗ anyBuf (F := F) c cc0_scratch1)

/-- The invariant the launch hands the region gives the accumulator as an owned memref at some contents, beside the other
    scoped buffers and the generator register; -/
theorem PhiA1_open (c : Dev nD) :
    (Pipeline.ΦA spec1 c : sProp 𝕄) ⊢ iprop(others1 (F := F) c ∗ (∃ d, owns (c : Thread nD τ) scM1_0 fullShare d) ∗ (∃ r, prngReg c r)) := by
  unfold Pipeline.ΦA; rw [scopedRest1_eq]; unfold others1; simp only [scM1_0, owns_whole]
  iintro ⟨⟨R0, R1, R2, R3, R4, R5, R6, R7, HS⟩, Hg⟩
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [HS]; · iexact HS
  iexact Hg

/-- and takes them back. -/
theorem PhiA1_close (c : Dev nD) :
    iprop(others1 (F := F) c ∗ (∃ d, owns (c : Thread nD τ) scM1_0 fullShare d) ∗ (∃ r, prngReg c r)) ⊢ (Pipeline.ΦA spec1 c : sProp 𝕄) := by
  unfold Pipeline.ΦA; rw [scopedRest1_eq]; unfold others1; simp only [scM1_0, owns_whole]
  iintro ⟨⟨R0, R1, R2, R3, R4, R5, R6, R7⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

-- the TensorCore's buffer contents when the region is entered: every statement below is made at this parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved since the point before), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's run, case by case

In each case the body runs on whole memrefs: the four inputs at their blocks, the accumulator and the output block at
what the case says, to a continuation that holds the inputs as they were and each buffer the body stored into with its
stores written as a list of pieces (last store first). The lists are the witnesses the run finds. -/

set_option maxHeartbeats 4000000 in
/-- CASE A (second coordinate 0): the accumulator, at anything, is zeroed and then added to; the output block, at
    contents xi4, is handed back untouched. -/
noncomputable def kernelRun1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨[], ?_, fun xi4 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE B (second coordinate 1 … 6): the accumulator, at what the point before left (xs0), is added to; the output
    block, at contents xi4, is handed back untouched. -/
noncomputable def kernelRun1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨[], ?_, fun xi4 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE C (second coordinate 7): the accumulator, at what the point before left (xs0), is added to, read back, and
    the value read is stored over the whole output block, which the body finds at anything. -/
noncomputable def kernelRun1_C (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Out

end
-- ==== Proof.K.OutData.lean ====
import proofs.«180234_j36386962931993_1_alg».proof.Proof.Gen.Kernel.Launch
import proofs.«180234_j36386962931993_1_alg».proof.Proof.Gen.Kernel.Skeleton
import proofs.«180234_j36386962931993_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«180234_j36386962931993_1_alg».proof.Proof.K.OutRuns

set_option maxRecDepth 16384

noncomputable section

namespace Cert.Kernel.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in the accumulator and in the output block

A case's run hands each buffer back as a list of written pieces. Where the pieces cover the buffer, what the buffer
holds is the pieces read back over any contents at all; it is stated here over junk, through one fixed view. -/

/-- Case A stores nothing into the output block (the window is idle and not written back at its points): a
    placeholder that nothing consults. -/
def out1_A_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator (the zero fill, then the sum) cover it. -/
theorem scover1_A_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What case A leaves in the accumulator. -/
def sout1_A_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case B stores nothing into the output block either: a placeholder that nothing consults. -/
def out1_B_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's one store into the accumulator covers it. -/
theorem scover1_B_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What case B leaves in the accumulator. -/
def sout1_B_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case C's one store into the output block covers it. -/
theorem cover1_C_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What case C leaves in the output block. -/
def out1_C_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's one store into the accumulator covers it. -/
theorem scover1_C_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator. -/
def sout1_C_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

-- the TensorCore's buffer contents when the region is entered: every statement of this module is made at this parameter
variable (V : (c : Dev nD) → (b : Ref sig .tc) → Buf (Elt F) ((c : Thread nD τ).loc b))

/-! ## What the output block and the accumulator hold after each point -/

/-- The pair (output block, accumulator) after a point t of case A, run at the point's memrefs and input blocks. -/
def ptA (c : Dev nD) (t : Fin cfg1.N) (h0 : t.val % 8 = 0) (h1 : ¬t.val % 8 = 7) : Vec F S1024x128 .f32 × Vec F S1024x128 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t))

/-- The same after a point of case B, the accumulator found at xs. -/
def ptB (c : Dev nD) (t : Fin cfg1.N) (h0 : ¬t.val % 8 = 0) (h1 : ¬t.val % 8 = 7) (xs : Vec F S1024x128 .f32) : Vec F S1024x128 .f32 × Vec F S1024x128 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs)

/-- The same after a point of case C, the accumulator found at xs. -/
def ptC (c : Dev nD) (t : Fin cfg1.N) (h0 : ¬t.val % 8 = 0) (h1 : t.val % 8 = 7) (xs : Vec F S1024x128 .f32) : Vec F S1024x128 .f32 × Vec F S1024x128 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs)

/-- THE ACCUMULATION. The pair (output block's staging buffer, accumulator) after the body at position n: the case
    that n % 8 selects, the accumulator found at what position n - 1 left. No point has n % 8 both 0 and 7. -/
def outsAt1 (c : Dev nD) : (n : ℕ) → n < cfg1.N → Vec F S1024x128 .f32 × Vec F S1024x128 .f32
  | 0, hn => ptA V c ⟨0, hn⟩ (Nat.zero_mod _) (show ¬(0 % 8 = 7) by decide)
  | n + 1, hn =>
    if h0 : (n + 1) % 8 = 0 then
      if h1 : (n + 1) % 8 = 7 then
        False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

/-- outsAt1 at a point of case A. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- outsAt1 at a point of case B: over what the point before left in the accumulator. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- outsAt1 at a point of case C: over what the point before left in the accumulator. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before the first point: what the launch hands the region. Before any later point: the accumulator owned at what the
    point before left in it, the other scoped buffers and the generator register as the launch's invariant has them. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core c, at the region-entry contents V: the arrays as the region finds them; after
    the body at point t each input's buffer at its block and the output's at outsAt1's first component; the invariant
    PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; t % 8 says which case the point is in, so that case's
    run applies. The invariant hands the body the accumulator — at anything before the first point, afterwards at what
    the point before left — and takes it back at this point's contents, the case's pieces covering it. Where the output
    window is idle its buffer comes back as found; where the accumulator is written out the output's buffer comes back at
    the case's covering store. The other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold ptA sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HR, HS0, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold ptC out1_C_4 sout1_C_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold ptB sout1_B_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, Hg⟩
  iapply (PhiA1_close (F := F) c)
  isplitl [HR]; · iexact HR
  isplitl [HS0]; · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-- Full shares of every array, and nothing owed at any point. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

end Cert.Kernel.Out

end
-- ==== Proof.K.Whole.lean ====
import proofs.«180234_j36386962931993_1_alg».proof.Proof.K.StatsData
import proofs.«180234_j36386962931993_1_alg».proof.Proof.K.OutData
import Idealize.ShloMosaic.Lib.StableHlo.Run

set_option maxRecDepth 16384

/-!
  The whole program as a run of three items: the three format changes on the host, the statistics
  region, the output region.  Between items every unscoped buffer of the core is held whole at a known
  valuation: the launch memory, then the host operations applied to it, then the first region's arrays
  replaced by what its write-backs leave, then the second region's likewise.  Every weakly fair execution
  terminates, and the final memory is that last valuation at every unscoped buffer.
-/

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stats Cert.Kernel.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host's three format changes: the first region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second region's entry. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register at some state. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- The statistics region: entered with every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => (A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered with every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => (A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    rw [show (pdats m ρ 1 c).Φ 0 = (dat1 (V2 m ρ) c).Φ 0 from rfl]
    iintro ⟨Hp, -, Hr⟩
    iapply h
    isplitl [Hr]; · iexact Hr
    iexact Hp
  hout c := by
    have h := hout1 (V2 m ρ) c
    unfold Pipeline.ΦA at h
    rw [Pipeline.ownSems0_none, show (pdats m ρ 1 c).Φ (Fin.last _) = (dat1 (V2 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, and the final memory holds, at every unscoped buffer of
    every core, the last valuation W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the boundaries' contents back -/

theorem W1_of_not_written (c : Dev nD) (b : Ref sig .tc)
    (hb : (hostOps0 : List (HloOp τ sig (Elt F))).Forall fun op => Proc.devRef .tc b ∉ op.writes) :
    W1 m ρ c (Proc.devRef .tc b) = W0 m ρ c (Proc.devRef .tc b) :=
  StableHlo.after_of_forall_not_mem (b := Proc.devRef .tc b) _ _ (List.forall_iff_forall_mem.mp hb)

theorem hostOps0_keeps (b : Ref sig .tc) (h0 : b ≠ main_v0) (h1 : b ≠ main_v1) (h2 : b ≠ main_v2) :
    (hostOps0 : List (HloOp τ sig (Elt F))).Forall fun op => Proc.devRef .tc b ∉ op.writes := by
  simp only [hostOps0, List.Forall, StableHlo.unary_writes, Finset.mem_singleton]
  exact ⟨StableHlo.devRef_ne_of_ne h0, StableHlo.devRef_ne_of_ne h1, StableHlo.devRef_ne_of_ne h2⟩

/-- An argument array is written by no host operation and is no output of either region: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (hostOps0_keeps main_arg0 (by decide) (by decide) (by decide))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (hostOps0_keeps main_arg1 (by decide) (by decide) (by decide))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (hostOps0_keeps main_arg2 (by decide) (by decide) (by decide))
    _ = m ((c : Thread nD τ).loc main_arg2) := rfl

/-- The result array is the output region's fifth window's array at the end of that region. -/
theorem W3_main_v4 (c : Dev nD) : W3 m ρ c (Proc.devRef .tc main_v4) = (dat1 (V2 m ρ) c).arrAt 4 cfg1.N :=
  W3_arr m ρ c 4

/-- The output region enters with the statistics region's output array at what that region's write-backs left, -/
theorem V2_main_v3 (c : Dev nD) : V2 m ρ c main_v3 = (dat0 (V1 m ρ) c).arrAt 2 cfg0.N :=
  W2_arr m ρ c 2
/-- and with the three bf16 copies as the statistics region entered (it reads two of them and writes neither). -/
theorem V2_main_v0 (c : Dev nD) : V2 m ρ c main_v0 = V1 m ρ c main_v0 :=
  (W2_arr m ρ c 1).trans (((dat0 (V1 m ρ) c).arrAt_in 1 rfl _).trans (A_eq0 (V1 m ρ) c 1))
theorem V2_main_v1 (c : Dev nD) : V2 m ρ c main_v1 = V1 m ρ c main_v1 :=
  (W2_arr m ρ c 0).trans (((dat0 (V1 m ρ) c).arrAt_in 0 rfl _).trans (A_eq0 (V1 m ρ) c 0))
theorem V2_main_v2 (c : Dev nD) : V2 m ρ c main_v2 = V1 m ρ c main_v2 :=
  W2_of_ne m ρ c main_v2 (by decide)

/-- The three bf16 copies are the format change of the arguments. -/
theorem V1_main_v0 (c : Dev nD) : V1 m ρ c main_v0 = truncf .bf16 (m ((c : Thread nD τ).loc main_arg0)) bitsLt_bf16_f32 := by
  show StableHlo.after hostOps0 (W0 m ρ c) (Proc.devRef .tc main_v0) = _
  after_results
theorem V1_main_v1 (c : Dev nD) : V1 m ρ c main_v1 = truncf .bf16 (m ((c : Thread nD τ).loc main_arg1)) bitsLt_bf16_f32 := by
  show StableHlo.after hostOps0 (W0 m ρ c) (Proc.devRef .tc main_v1) = _
  after_results
theorem V1_main_v2 (c : Dev nD) : V1 m ρ c main_v2 = truncf .bf16 (m ((c : Thread nD τ).loc main_arg2)) bitsLt_bf16_f32 := by
  show StableHlo.after hostOps0 (W0 m ρ c) (Proc.devRef .tc main_v2) = _
  after_results

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result array read too: it ends at the output region's final array. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Whole

end
-- ==== Proof.KI.StatsRuns.lean ====
import proofs.«180234_j36386962931993_1_alg».proof.Proof.Gen.KernelIdeal.Launch
import proofs.«180234_j36386962931993_1_alg».proof.Proof.Gen.KernelIdeal.Skeleton
import proofs.«180234_j36386962931993_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered: the windows' blocks are read off it
variable (V : (c : Dev nD) → (b : Ref sig .tc) → Buf (Elt F) ((c : Thread nD τ).loc b))

/-! ## The two conditionals of the body, as functions of the grid point

The body branches twice on the second grid coordinate j (point t has j = t % 8): the first branch resets the
running maximum and the running sum (j = 0), the second writes the result row out (j = 7). -/

/-- The first conditional's test on the coordinates: j = 0. -/
abbrev cond0_0 (i : grid0.Coords) : Prop := (Scalar.cmpi .ne (Scalar.extui (Scalar.cmpi .eq (BitVec.ofNat 32 (i 1).val) 0#32)) 0#32) = 1#1
/-- It holds exactly at the points t with t % 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test on the coordinates: j = 7. -/
abbrev cond0_1 (i : grid0.Coords) : Prop := k0_cond2 i = 1#1
/-- It holds exactly at the points t with t % 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where each window is idle

The two input windows are live at every point. The output window receives a store only where j = 7; elsewhere it
is idle and its block is not written back. -/

theorem liveAt0_0 : ∀ t : Fin cfg0.N, cfg0.idle 0 (grid0.coords t) = false := by decide +kernel
theorem liveAt0_1 : ∀ t : Fin cfg0.N, cfg0.idle 1 (grid0.coords t) = false := by decide +kernel
/-- j = 0: no store into the output window, -/
theorem idleAt0_2_A : ∀ t : Fin cfg0.N, cond0_0 (grid0.coords t) → ¬cond0_1 (grid0.coords t) → cfg0.idle 2 (grid0.coords t) = true := by decide +kernel
/-- and no write-back of it. -/
theorem noFlush0_2_A : ∀ t : Fin cfg0.N, cond0_0 (grid0.coords t) → ¬cond0_1 (grid0.coords t) → (cfg0.win 2).flush t = false := by decide +kernel
/-- 0 < j < 7: no store into the output window, -/
theorem idleAt0_2_B : ∀ t : Fin cfg0.N, ¬cond0_0 (grid0.coords t) → ¬cond0_1 (grid0.coords t) → cfg0.idle 2 (grid0.coords t) = true := by decide +kernel
/-- and no write-back of it. -/
theorem noFlush0_2_B : ∀ t : Fin cfg0.N, ¬cond0_0 (grid0.coords t) → ¬cond0_1 (grid0.coords t) → (cfg0.win 2).flush t = false := by decide +kernel
/-- j = 7: the output window is stored into. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window: the view through which its contents are stated (any of its buffers
    gives the same function of the pieces). -/
abbrev VO0_2 : View sig .tc .vmem S1x1024 .f32 := (Memref.whole cc0_stg2_0 : Memref sig .tc .vmem S1x1024 .f32).view
/-- Each window's current staging memref at point t, and that it is a whole buffer. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The running maximum (one entry per key row of the block) and the running sum of exponentials: two whole
    buffers of the core that live from point to point. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The core's remaining private buffers (those of the second pass), each at some contents: the first pass never
    touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's resting invariant, with the running maximum and the running sum as memrefs owned at some
    contents, the second pass's buffers as one remainder, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key window's staging buffer holds the key block of the point at every point, fetched there or not (its
    block index moves only where it is fetched), for any proof data over these arrays whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the query window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body, case by case

In each case the body is run on whole memrefs: the two input blocks at given contents, the output buffer and the
two running buffers as the case needs them. What it leaves in a buffer it stores into is a list of pieces (the
last store first), found by running the body; the lists are the first components of the result. -/

set_option maxHeartbeats 1000000 in
/-- j = 0. The running buffers are reset (to minus infinity and to zero) before they are read, so they may hold
    anything on entry; the output buffer is handed back untouched. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) :
    Σ' (L2 : List (View.Piece (Elt F) S1x1024 .f32)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- 0 < j < 7. The running buffers hold what the point before left (xs0 the maximum, xs1 the sum) and are both
    updated; the output buffer is handed back untouched. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) :
    Σ' (L2 : List (View.Piece (Elt F) S1x1024 .f32)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨[], ?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 1000000 in
/-- j = 7. The running buffers hold what the point before left and are both updated; then the result row (the
    maximum plus the logarithm of the sum, transposed) is stored over the whole output buffer, which may hold
    anything on entry. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) :
    Σ' (L2 : List (View.Piece (Elt F) S1x1024 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Stats

end
-- ==== Proof.KI.StatsData.lean ====
import proofs.«180234_j36386962931993_1_alg».proof.Proof.Gen.KernelIdeal.Launch
import proofs.«180234_j36386962931993_1_alg».proof.Proof.Gen.KernelIdeal.Skeleton
import proofs.«180234_j36386962931993_1_alg».proof.Proof.Gen.KernelIdeal.Points
import proofs.«180234_j36386962931993_1_alg».proof.Proof.KI.StatsRuns
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement of this module is made at this parameter
variable (V : (c : Dev nD) → (b : Ref sig .tc) → Buf (Elt F) ((c : Thread nD τ).loc b))

/-! ## What each case leaves in the buffers it stores into -/

/-- j = 0: the output buffer's pieces read back over arbitrary contents (there are none: a placeholder, consulted nowhere, since the window is idle and not written back at these points). -/
def out0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1x1024 .f32 :=
  VO0_2.read (Elt F) (VO0_2.writes (Elt F) VO0_2.junk (kernelRun0_A c i arg2 harg2 arg3 harg3 arg4 harg4 arg5 harg5 arg6 harg6 hc0 hc1 x0 x1).1)

/-- j = 0: the stores into the running maximum cover all of it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) (y : S1024x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1.size (by sl_kernel_rfl) y

/-- j = 0: the running maximum afterwards. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1024x1 .f32 :=
  VS0_0.read (Elt F) (VS0_0.writes (Elt F) VS0_0.junk (kernelRun0_A c i arg2 harg2 arg3 harg3 arg4 harg4 arg5 harg5 arg6 harg6 hc0 hc1 x0 x1).2.1)

/-- j = 0: the stores into the running sum cover all of it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y

/-- j = 0: the running sum afterwards. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) : Vec F S1024x1 .f32 :=
  VS0_1.read (Elt F) (VS0_1.writes (Elt F) VS0_1.junk (kernelRun0_A c i arg2 harg2 arg3 harg3 arg4 harg4 arg5 harg5 arg6 harg6 hc0 hc1 x0 x1).2.2.1)

/-- 0 < j < 7: the output buffer's pieces read back over arbitrary contents (there are none: a placeholder, consulted nowhere, since the window is idle and not written back at these points). -/
def out0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1x1024 .f32 :=
  VO0_2.read (Elt F) (VO0_2.writes (Elt F) VO0_2.junk (kernelRun0_B c i arg2 harg2 arg3 harg3 arg4 harg4 arg5 harg5 arg6 harg6 hc0 hc1 x0 x1 xs0 xs1).1)

/-- 0 < j < 7: the stores into the running maximum cover all of it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1024x1.size (by sl_kernel_rfl) y

/-- 0 < j < 7: the running maximum afterwards. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- 0 < j < 7: the stores into the running sum cover all of it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1024x1.size (by sl_kernel_rfl) y

/-- 0 < j < 7: the running sum afterwards. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- j = 7: the one store into the output buffer covers all of it. -/
theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1x1024.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1024.size (by sl_kernel_rfl) y

/-- j = 7: the output buffer's pieces read back over arbitrary contents (the result row). -/
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1x1024 .f32 :=
  VO0_2.read (Elt F) (VO0_2.writes (Elt F) VO0_2.junk (kernelRun0_C c i arg2 harg2 arg3 harg3 arg4 harg4 arg5 harg5 arg6 harg6 hc0 hc1 x0 x1 xs0 xs1).1)

/-- j = 7: the stores into the running maximum cover all of it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x1.size (by sl_kernel_rfl) y

/-- j = 7: the running maximum afterwards. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- j = 7: the stores into the running sum cover all of it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1024x1.size (by sl_kernel_rfl) y

/-- j = 7: the running sum afterwards. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## The three cases at a grid point

The triple (output buffer, running maximum, running sum) after the body at point t, in each case, from the
point's key and query blocks and, off the first column, from the running buffers xs0, xs1 the point before left. -/

def ptA (c : Dev nD) (t : Fin cfg0.N) (h0 : t.val % 8 = 0) (h1 : ¬t.val % 8 = 7) : Vec F S1x1024 .f32 × Vec F S1024x1 .f32 × Vec F S1024x1 .f32 :=
  (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t),
   sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t))

def ptB (c : Dev nD) (t : Fin cfg0.N) (h0 : ¬t.val % 8 = 0) (h1 : ¬t.val % 8 = 7) (xs0 xs1 : Vec F S1024x1 .f32) : Vec F S1x1024 .f32 × Vec F S1024x1 .f32 × Vec F S1024x1 .f32 :=
  (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1,
   sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1)

def ptC (c : Dev nD) (t : Fin cfg0.N) (h0 : ¬t.val % 8 = 0) (h1 : t.val % 8 = 7) (xs0 xs1 : Vec F S1024x1 .f32) : Vec F S1x1024 .f32 × Vec F S1024x1 .f32 × Vec F S1024x1 .f32 :=
  (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1,
   sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1)

/-! ## The recurrence along the grid -/

/-- The triple (output buffer, running maximum, running sum) after the body at position n: at the first column
    of a row of the grid (n % 8 = 0) the running buffers start afresh; elsewhere they continue from position
    n - 1; at the last column (n % 8 = 7) the result row is produced as well. No position is in both the first and
    the last column. -/
def outsAt0 (c : Dev nD) : (n : ℕ) → n < cfg0.N → Vec F S1x1024 .f32 × Vec F S1024x1 .f32 × Vec F S1024x1 .f32
  | 0, hn => ptA V c ⟨0, hn⟩ (Nat.zero_mod _) (show ¬(0 % 8 = 7) from by decide)
  | n + 1, hn =>
    if h0 : (n + 1) % 8 = 0 then
      if h1 : (n + 1) % 8 = 7 then False.elim (by omega)
      else ptA V c ⟨n + 1, hn⟩ h0 h1
    else
      if h1 : (n + 1) % 8 = 7 then
        ptC V c ⟨n + 1, hn⟩ h0 h1 (outsAt0 c n (Nat.lt_of_succ_lt hn)).2.1 (outsAt0 c n (Nat.lt_of_succ_lt hn)).2.2
      else
        ptB V c ⟨n + 1, hn⟩ h0 h1 (outsAt0 c n (Nat.lt_of_succ_lt hn)).2.1 (outsAt0 c n (Nat.lt_of_succ_lt hn)).2.2

/-- At a point of the first column. -/
theorem outsAt0_A (c : Dev nD) (t : Fin cfg0.N) (h0 : t.val % 8 = 0) (h1 : ¬t.val % 8 = 7) :
    outsAt0 V c t.val t.isLt = ptA V c t h0 h1 := by
  obtain ⟨n, hn⟩ := t
  cases n with
  | zero => exact rfl
  | succ n => exact (dif_pos h0).trans ((dif_neg h1).trans rfl)

/-- At a point strictly between the first and the last column: over what the point before left. -/
theorem outsAt0_B (c : Dev nD) (t : Fin cfg0.N) (h0 : ¬t.val % 8 = 0) (h1 : ¬t.val % 8 = 7) :
    outsAt0 V c t.val t.isLt = ptB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- At a point of the last column: over what the point before left. -/
theorem outsAt0_C (c : Dev nD) (t : Fin cfg0.N) (h0 : ¬t.val % 8 = 0) (h1 : t.val % 8 = 7) :
    outsAt0 V c t.val t.isLt = ptC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position n: at n = 0 the region's resting invariant (the running buffers hold anything); afterwards the
    running maximum and the running sum are owned at what position n - 1 left, the second pass's buffers and the
    generator register as in the resting invariant. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ rest0 (F := F) c) ∗ (∃ r, prngReg c r)) := by
  cases n with
  | zero => exact absurd rfl hz
  | succ n => rfl

/-! ## The proof data -/

/-- The proof data of pipeline 0 on core c, at the region-entry contents V: the arrays as the region finds them;
    after the body each input buffer still at its block and the output buffer at the recurrence's first
    component; the invariant above; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current buffer holds the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point t: the invariant, the core's debts, and each window's current buffer at what
    it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold the point's blocks; the column of the point decides the case.
    In the first column the running buffers are taken at anything (at the very first point from the resting
    invariant, later from the invariant's named contents, forgotten) and given back at the case's contents; in the
    other columns they are taken at what the point before left. The output buffer is handed back untouched except
    in the last column, where the result row covers it. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2_A t hc0 hc1) (noFlush0_2_A t hc0 hc1)]
    rw [outsAt0_A V c t h0 h1]
    unfold ptA sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2_C t hc0 hc1], after0_2]
      rw [outsAt0_C V c t h0 h1]
      unfold ptC out0_C_2 sout0_C_0 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · have hc1 : ¬cond0_1 (grid0.coords t) := fun h => h1 ((hcond0_1 t).mp h)
      rw [Dat.leavesExact_idle (dat0 V c) 2 t (idleAt0_2_B t hc0 hc1) (noFlush0_2_B t hc0 hc1)]
      rw [outsAt0_B V c t h0 h1]
      unfold ptB sout0_B_0 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact HR
        iexact Hg
      isplitl [Ho]; · iexact Ho
      isplitl [H0]; · iexact H0
      isplitl [H1]; · iexact H1
      iexists _; iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the resting invariant back: the running buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- In particular after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Stats

end
-- ==== Proof.KI.OutRuns.lean ====
import proofs.«180234_j36386962931993_1_alg».proof.Proof.Gen.KernelIdeal.Launch
import proofs.«180234_j36386962931993_1_alg».proof.Proof.Gen.KernelIdeal.Skeleton
import proofs.«180234_j36386962931993_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditionals, as conditions on the grid point

The kernel resets its accumulator where the second grid coordinate is 0 and writes the accumulator out where it is 7.
Over the 64 points (point t has coordinates (t / 8, t % 8)) these are t % 8 = 0 and t % 8 = 7. -/

/-- The first conditional's condition: the second coordinate is 0. -/
abbrev cond1_0 (i : grid1.Coords) : Prop := (Scalar.cmpi .ne (Scalar.extui (Scalar.cmpi .eq (BitVec.ofNat 32 (i 1).val) 0#32)) 0#32) = 1#1
/-- It holds exactly at the points t with t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the second coordinate is 7. -/
abbrev cond1_1 (i : grid1.Coords) : Prop := k1_cond2 i = 1#1
/-- It holds exactly at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the accumulator is reset (and not written out) the output window is idle and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- Where neither conditional is taken the output window is idle and not written back. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- Where the accumulator is written out the output window is live. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (any view of the same shape reads
    a covering list of pieces alike). -/
abbrev VO1_4 : View sig .tc .vmem S1024x128 .f32 := (Memref.whole cc1_stg4_0 : Memref sig .tc .vmem S1024x128 .f32).view
/-- Each window's current staging memref at point t, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1_0 : Memref sig .tc .vmem S1024x128 .f32 := Memref.whole cc1_scratch0
/-- The accumulator as a view: what it holds is stated through it. -/
abbrev VS1_0 : View sig .tc .vmem S1024x128 .f32 := scM1_0.view

/-! ## The region's invariant, opened on the accumulator -/

/-- A scoped buffer held whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers of the core that this region neither stages through nor uses as scratch (the other region's
    staging buffers and scratch), each held at some contents: they ride through the region untouched. -/
def others1 (c : Dev nD) : sProp 𝕄 :=
  iprop(anyBuf (F := F) c cc0_stg0_0 ∗ anyBuf (F := F) c cc0_stg0_1 ∗ anyBuf (F := F) c cc0_stg1_0 ∗ anyBuf (F := F) c cc0_stg1_1
    ∗ anyBuf (F := F) c cc0_stg2_0 ∗ anyBuf (F := F) c cc0_stg2_1 ∗ anyBuf (F := F) c cc0_scratch0 ∗ anyBuf (F := F) c cc0_scratch1)

/-- The invariant the launch hands the region gives the accumulator as an owned memref at some contents, beside the other
    scoped buffers and the generator register; -/
theorem PhiA1_open (c : Dev nD) :
    (Pipeline.ΦA spec1 c : sProp 𝕄) ⊢ iprop(others1 (F := F) c ∗ (∃ d, owns (c : Thread nD τ) scM1_0 fullShare d) ∗ (∃ r, prngReg c r)) := by
  unfold Pipeline.ΦA; rw [scopedRest1_eq]; unfold others1; simp only [scM1_0, owns_whole]
  iintro ⟨⟨R0, R1, R2, R3, R4, R5, R6, R7, HS⟩, Hg⟩
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [HS]; · iexact HS
  iexact Hg

/-- and takes them back. -/
theorem PhiA1_close (c : Dev nD) :
    iprop(others1 (F := F) c ∗ (∃ d, owns (c : Thread nD τ) scM1_0 fullShare d) ∗ (∃ r, prngReg c r)) ⊢ (Pipeline.ΦA spec1 c : sProp 𝕄) := by
  unfold Pipeline.ΦA; rw [scopedRest1_eq]; unfold others1; simp only [scM1_0, owns_whole]
  iintro ⟨⟨R0, R1, R2, R3, R4, R5, R6, R7⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

-- the TensorCore's buffer contents when the region is entered: every statement below is made at this parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved since the point before), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's run, case by case

In each case the body runs on whole memrefs: the four inputs at their blocks, the accumulator and the output block at
what the case says, to a continuation that holds the inputs as they were and each buffer the body stored into with its
stores written as a list of pieces (last store first). The lists are the witnesses the run finds. -/

set_option maxHeartbeats 4000000 in
/-- CASE A (second coordinate 0): the accumulator, at anything, is zeroed and then added to; the output block, at
    contents xi4, is handed back untouched. -/
noncomputable def kernelRun1_A (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨[], ?_, fun xi4 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE B (second coordinate 1 … 6): the accumulator, at what the point before left (xs0), is added to; the output
    block, at contents xi4, is handed back untouched. -/
noncomputable def kernelRun1_B (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨[], ?_, fun xi4 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE C (second coordinate 7): the accumulator, at what the point before left (xs0), is added to, read back, and
    the value read is stored over the whole output block, which the body finds at anything. -/
noncomputable def kernelRun1_C (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg2 harg2 arg3 harg3 arg4 harg4 arg5 harg5 arg6 harg6 arg7 harg7) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Out

end
-- ==== Proof.KI.OutData.lean ====
import proofs.«180234_j36386962931993_1_alg».proof.Proof.Gen.KernelIdeal.Launch
import proofs.«180234_j36386962931993_1_alg».proof.Proof.Gen.KernelIdeal.Skeleton
import proofs.«180234_j36386962931993_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«180234_j36386962931993_1_alg».proof.Proof.KI.OutRuns

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in the accumulator and in the output block

A case's run hands each buffer back as a list of written pieces. Where the pieces cover the buffer, what the buffer
holds is the pieces read back over any contents at all; it is stated here over junk, through one fixed view. -/

/-- Case A stores nothing into the output block (the window is idle and not written back at its points): a
    placeholder that nothing consults. -/
def out1_A_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) : Vec F S1024x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator (the zero fill, then the sum) cover it. -/
theorem scover1_A_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) (y : S1024x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x128.size (by sl_kernel_rfl) y

/-- What case A leaves in the accumulator. -/
def sout1_A_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) : Vec F S1024x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case B stores nothing into the output block either: a placeholder that nothing consults. -/
def out1_B_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's one store into the accumulator covers it. -/
theorem scover1_B_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x128.size (by sl_kernel_rfl) y

/-- What case B leaves in the accumulator. -/
def sout1_B_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case C's one store into the output block covers it. -/
theorem cover1_C_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What case C leaves in the output block. -/
def out1_C_4 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's one store into the accumulator covers it. -/
theorem scover1_C_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- What case C leaves in the accumulator. -/
def sout1_C_0 (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

-- the TensorCore's buffer contents when the region is entered: every statement of this module is made at this parameter
variable (V : (c : Dev nD) → (b : Ref sig .tc) → Buf (Elt F) ((c : Thread nD τ).loc b))

/-! ## What the output block and the accumulator hold after each point -/

/-- The pair (output block, accumulator) after a point t of case A, run at the point's memrefs and input blocks. -/
def ptA (c : Dev nD) (t : Fin cfg1.N) (h0 : t.val % 8 = 0) (h1 : ¬t.val % 8 = 7) : Vec F S1024x128 .f32 × Vec F S1024x128 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t))

/-- The same after a point of case B, the accumulator found at xs. -/
def ptB (c : Dev nD) (t : Fin cfg1.N) (h0 : ¬t.val % 8 = 0) (h1 : ¬t.val % 8 = 7) (xs : Vec F S1024x128 .f32) : Vec F S1024x128 .f32 × Vec F S1024x128 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs)

/-- The same after a point of case C, the accumulator found at xs. -/
def ptC (c : Dev nD) (t : Fin cfg1.N) (h0 : ¬t.val % 8 = 0) (h1 : t.val % 8 = 7) (xs : Vec F S1024x128 .f32) : Vec F S1024x128 .f32 × Vec F S1024x128 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) xs)

/-- THE ACCUMULATION. The pair (output block's staging buffer, accumulator) after the body at position n: the case
    that n % 8 selects, the accumulator found at what position n - 1 left. No point has n % 8 both 0 and 7. -/
def outsAt1 (c : Dev nD) : (n : ℕ) → n < cfg1.N → Vec F S1024x128 .f32 × Vec F S1024x128 .f32
  | 0, hn => ptA V c ⟨0, hn⟩ (Nat.zero_mod _) (show ¬(0 % 8 = 7) by decide)
  | n + 1, hn =>
    if h0 : (n + 1) % 8 = 0 then
      if h1 : (n + 1) % 8 = 7 then
        False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

/-- outsAt1 at a point of case A. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- outsAt1 at a point of case B: over what the point before left in the accumulator. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- outsAt1 at a point of case C: over what the point before left in the accumulator. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- Before the first point: what the launch hands the region. Before any later point: the accumulator owned at what the
    point before left in it, the other scoped buffers and the generator register as the launch's invariant has them. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of pipeline 1 on core c, at the region-entry contents V: the arrays as the region finds them; after
    the body at point t each input's buffer at its block and the output's at outsAt1's first component; the invariant
    PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The inputs' memrefs hold their blocks; t % 8 says which case the point is in, so that case's
    run applies. The invariant hands the body the accumulator — at anything before the first point, afterwards at what
    the point before left — and takes it back at this point's contents, the case's pieces covering it. Where the output
    window is idle its buffer comes back as found; where the accumulator is written out the output's buffer comes back at
    the case's covering store. The other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold ptA sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HR, HS0, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold ptC out1_C_4 sout1_C_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold ptB sout1_B_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HR, HS0, Hg⟩
  iapply (PhiA1_close (F := F) c)
  isplitl [HR]; · iexact HR
  isplitl [HS0]; · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-- Full shares of every array, and nothing owed at any point. -/
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

end Cert.KernelIdeal.Out

end
-- ==== Proof.KI.Whole.lean ====
import proofs.«180234_j36386962931993_1_alg».proof.Proof.KI.StatsData
import proofs.«180234_j36386962931993_1_alg».proof.Proof.KI.OutData
import Idealize.ShloMosaic.Lib.StableHlo.Run

set_option maxRecDepth 16384

/-!
  The whole program as a run of three items: the three format changes on the host, the statistics
  region, the output region.  Between items every unscoped buffer of the core is held whole at a known
  valuation: the launch memory, then the host operations applied to it, then the first region's arrays
  replaced by what its write-backs leave, then the second region's likewise.  Every weakly fair execution
  terminates, and the final memory is that last valuation at every unscoped buffer.
-/

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host's three format changes: the first region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second region's entry. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register at some state. -/
abbrev Tₙ (c : Dev nD) : sProp 𝕄 := iprop(StableHlo.held (c : Thread nD τ) (Pipeline.ucRefs τ sig) (W3 m ρ c) ∗ ∃ r, prngReg c r)

/-! ## The regions as items -/

set_option backward.isDefEq.respectTransparency.types false in
/-- The statistics region: entered with every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => (A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered with every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => (A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    rw [show (pdats m ρ 1 c).Φ 0 = (dat1 (V2 m ρ) c).Φ 0 from rfl]
    iintro ⟨Hp, -, Hr⟩
    iapply h
    isplitl [Hr]; · iexact Hr
    iexact Hp
  hout c := by
    have h := hout1 (V2 m ρ) c
    unfold Pipeline.ΦA at h
    rw [Pipeline.ownSems0_none, show (pdats m ρ 1 c).Φ (Fin.last _) = (dat1 (V2 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, and the final memory holds, at every unscoped buffer of
    every core, the last valuation W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the boundaries' contents back -/

theorem W1_of_not_written (c : Dev nD) (b : Ref sig .tc)
    (hb : (hostOps0 : List (HloOp τ sig (Elt F))).Forall fun op => Proc.devRef .tc b ∉ op.writes) :
    W1 m ρ c (Proc.devRef .tc b) = W0 m ρ c (Proc.devRef .tc b) :=
  StableHlo.after_of_forall_not_mem (b := Proc.devRef .tc b) _ _ (List.forall_iff_forall_mem.mp hb)

theorem hostOps0_keeps (b : Ref sig .tc) (h0 : b ≠ main_v0) (h1 : b ≠ main_v1) (h2 : b ≠ main_v2) :
    (hostOps0 : List (HloOp τ sig (Elt F))).Forall fun op => Proc.devRef .tc b ∉ op.writes := by
  simp only [hostOps0, List.Forall, StableHlo.unary_writes, Finset.mem_singleton]
  exact ⟨StableHlo.devRef_ne_of_ne h0, StableHlo.devRef_ne_of_ne h1, StableHlo.devRef_ne_of_ne h2⟩

/-- An argument array is written by no host operation and is no output of either region: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (hostOps0_keeps main_arg0 (by decide) (by decide) (by decide))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (hostOps0_keeps main_arg1 (by decide) (by decide) (by decide))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (hostOps0_keeps main_arg2 (by decide) (by decide) (by decide))
    _ = m ((c : Thread nD τ).loc main_arg2) := rfl

/-- The result array is the output region's fifth window's array at the end of that region. -/
theorem W3_main_v4 (c : Dev nD) : W3 m ρ c (Proc.devRef .tc main_v4) = (dat1 (V2 m ρ) c).arrAt 4 cfg1.N :=
  W3_arr m ρ c 4

/-- The output region enters with the statistics region's output array at what that region's write-backs left, -/
theorem V2_main_v3 (c : Dev nD) : V2 m ρ c main_v3 = (dat0 (V1 m ρ) c).arrAt 2 cfg0.N :=
  W2_arr m ρ c 2
/-- and with the three bf16 copies as the statistics region entered (it reads two of them and writes neither). -/
theorem V2_main_v0 (c : Dev nD) : V2 m ρ c main_v0 = V1 m ρ c main_v0 :=
  (W2_arr m ρ c 1).trans (((dat0 (V1 m ρ) c).arrAt_in 1 rfl _).trans (A_eq0 (V1 m ρ) c 1))
theorem V2_main_v1 (c : Dev nD) : V2 m ρ c main_v1 = V1 m ρ c main_v1 :=
  (W2_arr m ρ c 0).trans (((dat0 (V1 m ρ) c).arrAt_in 0 rfl _).trans (A_eq0 (V1 m ρ) c 0))
theorem V2_main_v2 (c : Dev nD) : V2 m ρ c main_v2 = V1 m ρ c main_v2 :=
  W2_of_ne m ρ c main_v2 (by decide)

/-- The three bf16 copies are the format change of the arguments. -/
theorem V1_main_v0 (c : Dev nD) : V1 m ρ c main_v0 = truncf .bf16 (m ((c : Thread nD τ).loc main_arg0)) bitsLt_bf16_f32 := by
  show StableHlo.after hostOps0 (W0 m ρ c) (Proc.devRef .tc main_v0) = _
  after_results
theorem V1_main_v1 (c : Dev nD) : V1 m ρ c main_v1 = truncf .bf16 (m ((c : Thread nD τ).loc main_arg1)) bitsLt_bf16_f32 := by
  show StableHlo.after hostOps0 (W0 m ρ c) (Proc.devRef .tc main_v1) = _
  after_results
theorem V1_main_v2 (c : Dev nD) : V1 m ρ c main_v2 = truncf .bf16 (m ((c : Thread nD τ).loc main_arg2)) bitsLt_bf16_f32 := by
  show StableHlo.after hostOps0 (W0 m ρ c) (Proc.devRef .tc main_v2) = _
  after_results

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same run with the result array read too: it ends at the output region's final array. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Whole

end
-- ==== Proof.KI.StatsRead.lean ====
import proofs.«180234_j36386962931993_1_alg».proof.Proof.KI.StatsData
import Idealize.ShloMosaic.Lib.Pipeline.Value

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-- The zero offsets of a whole-buffer access, however spelt. -/
theorem offs_zero0 : (![0, 0] : Fin 2 → Nat) = fun _ => 0 := funext fun a => by fin_cases a <;> rfl

/-! ## What each case leaves, as the body's own arithmetic

With x0 the key block and x1 the query block of the point, and xs0, xs1 the running maximum and the running sum
the point before left. Every access of the body is to a whole buffer, so each buffer ends at the value of its last
store, and a buffer read back after a store reads that store's value.

* first column: the running buffers are reset (maximum to minus infinity, sum to zero) and then updated once;
* other columns: they are updated once from what the point before left;
* last column: moreover the result row is formed from the two updated buffers. -/

theorem sout0_A_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) :
    sout0_A_0 c i arg2 harg2 arg3 harg3 arg4 harg4 arg5 harg5 arg6 harg6 hc0 hc1 x0 x1 = k0_pay6 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) offs_zero0]
  simp only [View.readCov_unit_zero (S := S1024x1) _ offs_zero0, View.readAt_eq_ld, harg2.read_unread, harg3.read_unread, View.ld_unit_zero (S := S1024x128) offs_zero0]

theorem sout0_A_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x128 .bf16) (x1 : Vec F S1024x128 .bf16) :
    sout0_A_1 c i arg2 harg2 arg3 harg3 arg4 harg4 arg5 harg5 arg6 harg6 hc0 hc1 x0 x1 = k0_pay5 x0 x1 (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1024x1) offs_zero0]
  simp only [View.readCov_unit_zero (S := S1024x1) _ offs_zero0, View.readAt_eq_ld, harg2.read_unread, harg3.read_unread, View.ld_unit_zero (S := S1024x128) offs_zero0]

theorem sout0_B_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) :
    sout0_B_0 c i arg2 harg2 arg3 harg3 arg4 harg4 arg5 harg5 arg6 harg6 hc0 hc1 x0 x1 xs0 xs1 = k0_pay6 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero offs_zero0]
  simp only [View.readAt_eq_ld, harg2.read_unread, harg3.read_unread, harg5.read_unread, harg6.read_unread, View.ld_unit_zero (S := S1024x128) offs_zero0, View.ld_unit_zero (S := S1024x1) offs_zero0]

theorem sout0_B_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x128 .bf16) (x1 : Vec F S1024x128 .bf16) (xs0 : Vec F S1024x1 .f32) (xs1 : Vec F S1024x1 .f32) :
    sout0_B_1 c i arg2 harg2 arg3 harg3 arg4 harg4 arg5 harg5 arg6 harg6 hc0 hc1 x0 x1 xs0 xs1 = k0_pay5 x0 x1 xs0 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero offs_zero0]
  simp only [View.readAt_eq_ld, harg2.read_unread, harg3.read_unread, harg5.read_unread, harg6.read_unread, View.ld_unit_zero (S := S1024x128) offs_zero0, View.ld_unit_zero (S := S1024x1) offs_zero0]

theorem sout0_C_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) :
    sout0_C_0 c i arg2 harg2 arg3 harg3 arg4 harg4 arg5 harg5 arg6 harg6 hc0 hc1 x0 x1 xs0 xs1 = k0_pay6 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero offs_zero0]
  simp only [View.readAt_eq_ld, harg2.read_unread, harg3.read_unread, harg5.read_unread, harg6.read_unread, View.ld_unit_zero (S := S1024x128) offs_zero0, View.ld_unit_zero (S := S1024x1) offs_zero0]

theorem sout0_C_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) :
    sout0_C_1 c i arg2 harg2 arg3 harg3 arg4 harg4 arg5 harg5 arg6 harg6 hc0 hc1 x0 x1 xs0 xs1 = k0_pay5 x0 x1 xs0 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero offs_zero0]
  simp only [View.readAt_eq_ld, harg2.read_unread, harg3.read_unread, harg5.read_unread, harg6.read_unread, View.ld_unit_zero (S := S1024x128) offs_zero0, View.ld_unit_zero (S := S1024x1) offs_zero0]

theorem out0_C_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x128 .bf16) (x1 : Vec F S1024x128 .bf16) (xs0 : Vec F S1024x1 .f32) (xs1 : Vec F S1024x1 .f32) :
    out0_C_2 c i arg2 harg2 arg3 harg3 arg4 harg4 arg5 harg5 arg6 harg6 hc0 hc1 x0 x1 xs0 xs1 = k0_pay7 (k0_pay6 x0 x1 xs0) (k0_pay5 x0 x1 xs0 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero offs_zero0]
  simp only [View.readCov_unit_zero (S := S1024x1) _ offs_zero0, View.readAt_eq_ld, harg2.read_unread, harg3.read_unread, harg5.read_unread, harg6.read_unread, View.ld_unit_zero (S := S1024x128) offs_zero0, View.ld_unit_zero (S := S1024x1) offs_zero0]

/-! ## The recurrence along the grid, in the body's arithmetic -/

/-- The key block and the query block of point t, at their literal types. -/
abbrev kblk0 (c : Dev nD) (t : Fin cfg0.N) : Vec F S1024x128 .bf16 := iblk0 V c 0 t
abbrev qblk0 (c : Dev nD) (t : Fin cfg0.N) : Vec F S1024x128 .bf16 := iblk0 V c 1 t

/-- First column: the running maximum after the point is one update of minus infinity by the point's scores. -/
theorem outsAt0_A_max (c : Dev nD) (t : Fin cfg0.N) (h0 : t.val % 8 = 0) (h1 : ¬t.val % 8 = 7) :
    (outsAt0 V c t.val t.isLt).2.1 = k0_pay6 (kblk0 V c t) (qblk0 V c t) (k0_pay1 (F := F)) := by
  rw [outsAt0_A V c t h0 h1]; unfold ptA; dsimp only
  exact sout0_A_0_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)

/-- First column: the running sum after the point is one update of zero. -/
theorem outsAt0_A_sum (c : Dev nD) (t : Fin cfg0.N) (h0 : t.val % 8 = 0) (h1 : ¬t.val % 8 = 7) :
    (outsAt0 V c t.val t.isLt).2.2 = k0_pay5 (kblk0 V c t) (qblk0 V c t) (k0_pay1 (F := F)) (k0_pay1 (F := F)) (k0_pay2 (F := F)) := by
  rw [outsAt0_A V c t h0 h1]; unfold ptA; dsimp only
  exact sout0_A_1_eq c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)

/-- Strictly between the first and the last column: one update of what the point before left. -/
theorem outsAt0_B_max (c : Dev nD) (t : Fin cfg0.N) (h0 : ¬t.val % 8 = 0) (h1 : ¬t.val % 8 = 7) :
    (outsAt0 V c t.val t.isLt).2.1 = k0_pay6 (kblk0 V c t) (qblk0 V c t) (outsAt0 V c (t.val - 1) (Nat.lt_of_le_of_lt (Nat.sub_le _ _) t.isLt)).2.1 := by
  rw [outsAt0_B V c t h0 h1]; unfold ptB; dsimp only
  exact sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

theorem outsAt0_B_sum (c : Dev nD) (t : Fin cfg0.N) (h0 : ¬t.val % 8 = 0) (h1 : ¬t.val % 8 = 7) :
    (outsAt0 V c t.val t.isLt).2.2 = k0_pay5 (kblk0 V c t) (qblk0 V c t) (outsAt0 V c (t.val - 1) (Nat.lt_of_le_of_lt (Nat.sub_le _ _) t.isLt)).2.1 (outsAt0 V c (t.val - 1) (Nat.lt_of_le_of_lt (Nat.sub_le _ _) t.isLt)).2.1 (outsAt0 V c (t.val - 1) (Nat.lt_of_le_of_lt (Nat.sub_le _ _) t.isLt)).2.2 := by
  rw [outsAt0_B V c t h0 h1]; unfold ptB; dsimp only
  exact sout0_B_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

/-- Last column: the same update, -/
theorem outsAt0_C_max (c : Dev nD) (t : Fin cfg0.N) (h0 : ¬t.val % 8 = 0) (h1 : t.val % 8 = 7) :
    (outsAt0 V c t.val t.isLt).2.1 = k0_pay6 (kblk0 V c t) (qblk0 V c t) (outsAt0 V c (t.val - 1) (Nat.lt_of_le_of_lt (Nat.sub_le _ _) t.isLt)).2.1 := by
  rw [outsAt0_C V c t h0 h1]; unfold ptC; dsimp only
  exact sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

theorem outsAt0_C_sum (c : Dev nD) (t : Fin cfg0.N) (h0 : ¬t.val % 8 = 0) (h1 : t.val % 8 = 7) :
    (outsAt0 V c t.val t.isLt).2.2 = k0_pay5 (kblk0 V c t) (qblk0 V c t) (outsAt0 V c (t.val - 1) (Nat.lt_of_le_of_lt (Nat.sub_le _ _) t.isLt)).2.1 (outsAt0 V c (t.val - 1) (Nat.lt_of_le_of_lt (Nat.sub_le _ _) t.isLt)).2.1 (outsAt0 V c (t.val - 1) (Nat.lt_of_le_of_lt (Nat.sub_le _ _) t.isLt)).2.2 := by
  rw [outsAt0_C V c t h0 h1]; unfold ptC; dsimp only
  exact sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

/-- and the result row: the updated maximum plus the logarithm of the updated sum, transposed. -/
theorem outsAt0_C_out (c : Dev nD) (t : Fin cfg0.N) (h0 : ¬t.val % 8 = 0) (h1 : t.val % 8 = 7) :
    (outsAt0 V c t.val t.isLt).1 = k0_pay7 (k0_pay6 (kblk0 V c t) (qblk0 V c t) (outsAt0 V c (t.val - 1) (Nat.lt_of_le_of_lt (Nat.sub_le _ _) t.isLt)).2.1) (k0_pay5 (kblk0 V c t) (qblk0 V c t) (outsAt0 V c (t.val - 1) (Nat.lt_of_le_of_lt (Nat.sub_le _ _) t.isLt)).2.1 (outsAt0 V c (t.val - 1) (Nat.lt_of_le_of_lt (Nat.sub_le _ _) t.isLt)).2.1 (outsAt0 V c (t.val - 1) (Nat.lt_of_le_of_lt (Nat.sub_le _ _) t.isLt)).2.2) := by
  rw [outsAt0_C V c t h0 h1]; unfold ptC; dsimp only
  exact out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

end Cert.KernelIdeal.Stats

end
-- ==== Proof.Spec.lean ====
/-
  The mathematics both programs compute, over the reals.

  Scores are s(n, m) = Σ_d q(n, d) · k(m, d).  The softmax runs along the QUERY axis n: for a key m,
  mx(m) = max_n s(n, m), den(m) = Σ_n exp (s(n, m) − mx(m)), and the result is
  out(n, d) = Σ_m exp (s(n, m) − mx(m)) / den(m) · v(m, d).

  The same numbers are reached by a running maximum and a running rescaled sum over eight blocks of 1024
  queries (runMax, runSum), by the log-sum-exp lse(m) = mx(m) + log den(m), and by accumulating
  exp (s(n, m) − lse(m)) · v(m, d) over eight blocks of 1024 keys (accUpTo).  This module states those
  recurrences and that their last values are mx, den and out.
-/
import Mathlib.Analysis.SpecialFunctions.Log.Basic
import Mathlib.Analysis.SpecialFunctions.Exp
import Mathlib.Algebra.BigOperators.Fin
import Mathlib.Data.Fintype.BigOperators
import Mathlib.Logic.Equiv.Fin.Basic
import Mathlib.Order.Fin.Basic

noncomputable section

open scoped BigOperators

namespace Cert.Spec

/-- A real matrix with a rows and b columns. -/
abbrev Mat (a b : ℕ) : Type := Fin a → Fin b → ℝ

/-- Row r of block j of an axis of 8192 cut into blocks of 1024 (for j < 8 this is 1024 j + r). -/
def gidx (j : ℕ) (r : Fin 1024) : Fin 8192 := ⟨(1024 * j + r.val) % 8192, Nat.mod_lt _ (by norm_num)⟩

theorem gidx_val (j : ℕ) (hj : j < 8) (r : Fin 1024) : (gidx j r).val = 1024 * j + r.val := by
  have hr := r.isLt
  show (1024 * j + r.val) % 8192 = 1024 * j + r.val
  exact Nat.mod_eq_of_lt (by omega)

/-- The eight blocks of 1024 tile the axis of 8192: (j, c) ↦ 1024 j + c is a bijection. -/
def blkEquiv : Fin 8 × Fin 1024 ≃ Fin 8192 :=
  finProdFinEquiv.trans (finCongr (by norm_num))

theorem blkEquiv_eq (j : Fin 8) (c : Fin 1024) : blkEquiv (j, c) = gidx j.val c := by
  apply Fin.ext
  rw [gidx_val j.val j.isLt c]
  show c.val + 1024 * j.val = 1024 * j.val + c.val
  exact Nat.add_comm _ _

/-- Every index of the long axis lies in one of the eight blocks. -/
theorem exists_gidx (n : Fin 8192) : ∃ j : ℕ, j < 8 ∧ ∃ c : Fin 1024, gidx j c = n := by
  obtain ⟨⟨j, c⟩, rfl⟩ := blkEquiv.surjective n
  exact ⟨j.val, j.isLt, c, (blkEquiv_eq j c).symm⟩

/-- A sum over the long axis is the sum of the eight block sums. -/
theorem sum_blocks (f : Fin 8192 → ℝ) :
    ∑ n : Fin 8192, f n = ∑ j ∈ Finset.range 8, ∑ c : Fin 1024, f (gidx j c) := by
  rw [← Fin.sum_univ_eq_sum_range (fun j => ∑ c : Fin 1024, f (gidx j c)) 8]
  rw [← Fintype.sum_equiv blkEquiv (fun p => f (blkEquiv p)) f (fun _ => rfl)]
  rw [Fintype.sum_prod_type]
  simp only [blkEquiv_eq]

/-- The score of query n against key m. -/
def sc (q k : Mat 8192 128) (n m : Fin 8192) : ℝ := ∑ d : Fin 128, q n d * k m d

/-- The largest score of key m over all queries. -/
def mx (q k : Mat 8192 128) (m : Fin 8192) : ℝ :=
  Finset.univ.sup' Finset.univ_nonempty (fun n : Fin 8192 => sc q k n m)

/-- The softmax denominator of key m. -/
def den (q k : Mat 8192 128) (m : Fin 8192) : ℝ := ∑ n : Fin 8192, Real.exp (sc q k n m - mx q k m)

/-- The result: attention weights normalised along the query axis, applied to v. -/
def outR (q k v : Mat 8192 128) (n : Fin 8192) (d : Fin 128) : ℝ :=
  ∑ m : Fin 8192, Real.exp (sc q k n m - mx q k m) / den q k m * v m d

/-- The log-sum-exp of key m's scores over the queries. -/
def lse (q k : Mat 8192 128) (m : Fin 8192) : ℝ := mx q k m + Real.log (den q k m)

/-- The normalised weight of query n on key m, through the log-sum-exp. -/
def wt (q k : Mat 8192 128) (n m : Fin 8192) : ℝ := Real.exp (sc q k n m - lse q k m)

/-- The largest score of key m over query block j. -/
def blkMax (q k : Mat 8192 128) (m : Fin 8192) (j : ℕ) : ℝ :=
  Finset.univ.sup' Finset.univ_nonempty (fun c : Fin 1024 => sc q k (gidx j c) m)

/-- The running maximum over query blocks 0 … J. -/
def runMax (q k : Mat 8192 128) (m : Fin 8192) : ℕ → ℝ
  | 0 => blkMax q k m 0
  | J + 1 => max (runMax q k m J) (blkMax q k m (J + 1))

/-- The running sum of exponentials over query blocks 0 … J, each rescaled to the running maximum. -/
def runSum (q k : Mat 8192 128) (m : Fin 8192) : ℕ → ℝ
  | 0 => ∑ c : Fin 1024, Real.exp (sc q k (gidx 0 c) m - runMax q k m 0)
  | J + 1 => Real.exp (runMax q k m J - runMax q k m (J + 1)) * runSum q k m J
      + ∑ c : Fin 1024, Real.exp (sc q k (gidx (J + 1) c) m - runMax q k m (J + 1))

/-- The result accumulated over key blocks 0 … J. -/
def accUpTo (q k v : Mat 8192 128) (n : Fin 8192) (d : Fin 128) : ℕ → ℝ
  | 0 => ∑ r : Fin 1024, wt q k n (gidx 0 r) * v (gidx 0 r) d
  | J + 1 => accUpTo q k v n d J + ∑ r : Fin 1024, wt q k n (gidx (J + 1) r) * v (gidx (J + 1) r) d

variable (q k v : Mat 8192 128)

theorem blkMax_le_mx (m : Fin 8192) (j : ℕ) : blkMax q k m j ≤ mx q k m :=
  Finset.sup'_le _ _ fun c _ =>
    Finset.le_sup' (fun n : Fin 8192 => sc q k n m) (Finset.mem_univ (gidx j c))

theorem runMax_le_mx (m : Fin 8192) (J : ℕ) : runMax q k m J ≤ mx q k m := by
  induction J with
  | zero => exact blkMax_le_mx q k m 0
  | succ J ih => exact max_le ih (blkMax_le_mx q k m (J + 1))

theorem blkMax_le_runMax (m : Fin 8192) (j J : ℕ) (h : j ≤ J) :
    blkMax q k m j ≤ runMax q k m J := by
  induction J with
  | zero =>
    have : j = 0 := Nat.le_zero.mp h
    subst this
    exact le_refl _
  | succ J ih =>
    rcases Nat.lt_or_ge j (J + 1) with hlt | hge
    · exact le_trans (ih (Nat.lt_succ_iff.mp hlt)) (le_max_left _ _)
    · have : j = J + 1 := Nat.le_antisymm h hge
      subst this
      exact le_max_right _ _

theorem sc_le_blkMax (m : Fin 8192) (j : ℕ) (c : Fin 1024) :
    sc q k (gidx j c) m ≤ blkMax q k m j :=
  Finset.le_sup' (fun c : Fin 1024 => sc q k (gidx j c) m) (Finset.mem_univ c)

/-- After the eighth block the running maximum is the maximum over all queries. -/
theorem runMax_last (m : Fin 8192) : runMax q k m 7 = mx q k m := by
  apply le_antisymm (runMax_le_mx q k m 7)
  apply Finset.sup'_le
  intro n _
  obtain ⟨j, hj, c, rfl⟩ := exists_gidx n
  exact le_trans (sc_le_blkMax q k m j c) (blkMax_le_runMax q k m j 7 (by omega))

/-- The softmax denominator is positive (it contains exp 0). -/
theorem den_pos (m : Fin 8192) : 0 < den q k m :=
  Finset.sum_pos (fun _ _ => Real.exp_pos _) Finset.univ_nonempty

/-- The running sum in closed form: all blocks seen so far, rescaled to the current running maximum. -/
theorem runSum_closed (m : Fin 8192) (J : ℕ) :
    runSum q k m J
      = ∑ j ∈ Finset.range (J + 1), ∑ c : Fin 1024,
          Real.exp (sc q k (gidx j c) m - runMax q k m J) := by
  induction J with
  | zero => simp [runSum]
  | succ J ih =>
    rw [Finset.sum_range_succ _ (J + 1)]
    show Real.exp (runMax q k m J - runMax q k m (J + 1)) * runSum q k m J
        + ∑ c : Fin 1024, Real.exp (sc q k (gidx (J + 1) c) m - runMax q k m (J + 1)) = _
    rw [ih, Finset.mul_sum]
    congr 1
    refine Finset.sum_congr rfl fun j _ => ?_
    rw [Finset.mul_sum]
    refine Finset.sum_congr rfl fun c _ => ?_
    rw [← Real.exp_add]
    congr 1
    ring

/-- After the eighth block the running sum is the softmax denominator. -/
theorem runSum_last (m : Fin 8192) : runSum q k m 7 = den q k m := by
  rw [runSum_closed, runMax_last]
  exact (sum_blocks (fun n => Real.exp (sc q k n m - mx q k m))).symm

/-- The accumulated result in closed form: the sum over the key blocks seen so far. -/
theorem accUpTo_closed (n : Fin 8192) (d : Fin 128) (J : ℕ) :
    accUpTo q k v n d J
      = ∑ j ∈ Finset.range (J + 1), ∑ r : Fin 1024, wt q k n (gidx j r) * v (gidx j r) d := by
  induction J with
  | zero => simp [accUpTo]
  | succ J ih =>
    rw [Finset.sum_range_succ _ (J + 1), ← ih]
    rfl

/-- The weight through the log-sum-exp is the normalised exponential. -/
theorem wt_eq (n m : Fin 8192) :
    wt q k n m = Real.exp (sc q k n m - mx q k m) / den q k m := by
  unfold wt lse
  rw [← sub_sub, Real.exp_sub, Real.exp_log (den_pos q k m)]

/-- After the eighth key block the accumulated result is the softmax-weighted sum:
    exp (s − mx − log den) = exp (s − mx) / den because den > 0. -/
theorem accUpTo_last (n : Fin 8192) (d : Fin 128) : accUpTo q k v n d 7 = outR q k v n d := by
  rw [accUpTo_closed]
  rw [← sum_blocks (fun m => wt q k n m * v m d)]
  unfold outR
  refine Finset.sum_congr rfl fun m _ => ?_
  rw [wt_eq]

end Cert.Spec

end
-- ==== Proof.KI.StatsBlocks.lean ====
/-
  Pipeline 0 (the column statistics), from blocks to arrays: the parts that depend only on the windows and the grid.

  The grid has 64 points; point t has key-block coordinate t / 8 and query-block coordinate t % 8.  Each input block
  is a contiguous piece of its array: entry (r, d) of the key block at point t is entry (1024 (t / 8) + r, d) of the
  key array, and entry (r, d) of the query block is entry (1024 (t % 8) + r, d) of the query array.  The output block,
  a row of 1024 entries, is written back at the points with t % 8 = 7, to columns 1024 (t / 8) … 1024 (t / 8) + 1023
  of the row vector of 8192 entries; these eight blocks tile it, so a function G that every written-back block agrees
  with, entry by entry, is what the output array ends holding.
-/
import proofs.«180234_j36386962931993_1_alg».proof.Proof.KI.StatsData
import proofs.«180234_j36386962931993_1_alg».proof.Proof.Spec
import Idealize.ShloMosaic.Lib.Pipeline.Value
import Idealize.ShloMosaic.Lib.ValueIdx

noncomputable section

namespace Cert.KernelIdeal.Stats

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The block indices of the three windows at point t, decided over the 64 grid points: the key window sits at row
    block t / 8, the query window at row block t % 8, the output window at column block t / 8. -/
theorem idx_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val / 8 :=
  (by decide +kernel : ∀ t : Fin grid0.N, _)

variable (V : (c : Dev nD) → (b : Ref sig .tc) → Buf (Elt F) ((c : Thread nD τ).loc b))

/-- Entry (r, d) of the key block at point t is entry (1024 (t / 8) + r, d) of the key array. -/
theorem iblk0_0_apply (c : Dev nD) (t : Fin cfg0.N) (r : Fin 1024) (d : Fin 128) :
    (iblk0 V c 0 t : S1024x128.Idx → Elt F .bf16) (ix2 r d)
      = (V c main_v1 : S8192x128.Idx → Elt F .bf16) (ix2 (Cert.Spec.gidx (t.val / 8) r) d) := by
  obtain ⟨e00, e01, -⟩ := idx_facts0 t
  have hN : t.val < 64 := lt_of_lt_of_eq t.isLt (show cfg0.N = 64 from N_0)
  unfold iblk0
  rw [View.read_apply]
  show V c main_v1 _ = V c main_v1 _
  congr 1
  funext a
  apply Fin.ext
  match a with
  | ⟨0, _⟩ =>
    show win0_0.index t (0 : Fin 2) * 1024 + 1 * r.val = (Cert.Spec.gidx (t.val / 8) r).val
    rw [e00, Cert.Spec.gidx_val _ (by omega) r]; omega
  | ⟨1, _⟩ =>
    show win0_0.index t (1 : Fin 2) * 128 + 1 * d.val = d.val
    rw [e01]; omega

/-- Entry (r, d) of the query block at point t is entry (1024 (t % 8) + r, d) of the query array. -/
theorem iblk0_1_apply (c : Dev nD) (t : Fin cfg0.N) (r : Fin 1024) (d : Fin 128) :
    (iblk0 V c 1 t : S1024x128.Idx → Elt F .bf16) (ix2 r d)
      = (V c main_v0 : S8192x128.Idx → Elt F .bf16) (ix2 (Cert.Spec.gidx (t.val % 8) r) d) := by
  obtain ⟨-, -, e10, e11, -⟩ := idx_facts0 t
  unfold iblk0
  rw [View.read_apply]
  show V c main_v0 _ = V c main_v0 _
  congr 1
  funext a
  apply Fin.ext
  match a with
  | ⟨0, _⟩ =>
    show win0_1.index t (0 : Fin 2) * 1024 + 1 * r.val = (Cert.Spec.gidx (t.val % 8) r).val
    rw [e10, Cert.Spec.gidx_val _ (by omega) r]; omega
  | ⟨1, _⟩ =>
    show win0_1.index t (1 : Fin 2) * 128 + 1 * d.val = d.val
    rw [e11]; omega

/-- An index of the output row is in point t's block iff each coordinate is in the block's range on its axis. -/
theorem mem_blk2 (t : Fin cfg0.N) (i : S1x8192.Idx) :
    i ∈ ((cfg0.win 2).blk t).view.set ↔ ∀ a : Fin 2, win0_2.index t a * S1x1024.size a ≤ (i a).val
      ∧ (i a).val < win0_2.index t a * S1x1024.size a + S1x1024.size a := by
  show i ∈ ((View.whole main_v3).slice (win0_2.rect t)).set ↔ _
  rw [View.set_slice_whole, Rect.mem_set_unit]
  exact Iff.rfl

/-- THE OUTPUT ROW FROM ITS WRITTEN-BACK BLOCKS.  If at every point t with t % 8 = 7 the output block the body leaves
    agrees, entry (0, r), with G at (0, 1024 (t / 8) + r), then the output row ends holding G: the eight written-back
    blocks tile the columns (column x is in the block of point 8 (x / 1024) + 7). -/
theorem arr2_of_flushed (c : Dev nD) (G : S1x8192.Idx → Elt F .f32)
    (h : ∀ t : Fin cfg0.N, t.val % 8 = 7 → ∀ r : Fin 1024,
      ((dat0 V c).after 2 t : S1x1024.Idx → Elt F .f32) (ix2 (0 : Fin 1) r)
        = G (ix2 (0 : Fin 1) (Cert.Spec.gidx (t.val / 8) r))) :
    ∀ b : Fin 8192, ((dat0 V c).arrAt 2 cfg0.N : S1x8192.Idx → Elt F .f32) (ix2 (0 : Fin 1) b) = G (ix2 (0 : Fin 1) b) := by
  have hfl : ∀ t, (cfg0.win 2).flush t = true →
      (dat0 V c).flushed 2 t = ((cfg0.win 2).blk t).view.read (Elt F) G := by
    intro t hf
    have h7 : t.val % 8 = 7 := (flush0_2 t).mp hf
    have hN : t.val < 64 := lt_of_lt_of_eq t.isLt (show cfg0.N = 64 from N_0)
    obtain ⟨-, -, -, -, e20, e21⟩ := idx_facts0 t
    refine funext fun (j : S1x1024.Idx) => ?_
    obtain ⟨z, r, rfl⟩ : ∃ (z : Fin 1) (r : Fin 1024), j = ix2 z r := ⟨j 0, j 1, eq_ix2 j⟩
    obtain rfl : z = 0 := Subsingleton.elim _ _
    show ((dat0 V c).after 2 t : S1x1024.Idx → Elt F .f32) (ix2 (0 : Fin 1) r)
      = G (((cfg0.win 2).blk t).view.emb (ix2 (0 : Fin 1) r))
    rw [h t h7 r]
    congr 1
    funext a
    apply Fin.ext
    match a with
    | ⟨0, _⟩ =>
      show (0 : Fin 1).val = win0_2.index t (0 : Fin 2) * 1 + 1 * (0 : Fin 1).val
      rw [e20]; rfl
    | ⟨1, _⟩ =>
      show (Cert.Spec.gidx (t.val / 8) r).val = win0_2.index t (1 : Fin 2) * 1024 + 1 * r.val
      rw [e21, Cert.Spec.gidx_val _ (by omega) r]; omega
  have hcov : ∀ i : S1x8192.Idx, ∃ t : Fin cfg0.N, (cfg0.win 2).flush t = true ∧ i ∈ ((cfg0.win 2).blk t).view.set := by
    intro i
    have hi0 : (i 0).val < 1 := (i 0).isLt
    have hi1 : (i 1).val < 8192 := (i 1).isLt
    have hlt : 8 * ((i 1).val / 1024) + 7 < cfg0.N := by rw [show cfg0.N = 64 from N_0]; omega
    refine ⟨⟨8 * ((i 1).val / 1024) + 7, hlt⟩, (flush0_2 _).mpr (by show (8 * ((i 1).val / 1024) + 7) % 8 = 7; omega), ?_⟩
    obtain ⟨-, -, -, -, e20, e21⟩ := idx_facts0 ⟨8 * ((i 1).val / 1024) + 7, hlt⟩
    rw [mem_blk2]
    intro a
    match a with
    | ⟨0, _⟩ =>
      show win0_2.index ⟨8 * ((i 1).val / 1024) + 7, hlt⟩ (0 : Fin 2) * 1 ≤ (i 0).val
        ∧ (i 0).val < win0_2.index ⟨8 * ((i 1).val / 1024) + 7, hlt⟩ (0 : Fin 2) * 1 + 1
      rw [e20]; omega
    | ⟨1, _⟩ =>
      show win0_2.index ⟨8 * ((i 1).val / 1024) + 7, hlt⟩ (1 : Fin 2) * 1024 ≤ (i 1).val
        ∧ (i 1).val < win0_2.index ⟨8 * ((i 1).val / 1024) + 7, hlt⟩ (1 : Fin 2) * 1024 + 1024
      rw [e21]; show (8 * ((i 1).val / 1024) + 7) / 8 * 1024 ≤ (i 1).val ∧ (i 1).val < (8 * ((i 1).val / 1024) + 7) / 8 * 1024 + 1024
      omega
  have hfin := (dat0 V c).arrAt_eq_of_cover 2 G hfl hcov
  intro b
  rw [hfin]

end Cert.KernelIdeal.Stats

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.StatsPay.lean ====
/-
  The statistics pass, one grid point at a time, read entry by entry at the ideal values.

  At grid point (i, j) the body holds key block i (rows r, key 1024 i + r) and query block j (rows c, query
  1024 j + c). Its score tile has, at (r, c), the score of that query against that key: the sum over the 128
  features of the products. The running maximum of key row r becomes the larger of its old value and the tile's
  row maximum; the running sum becomes the old sum rescaled by exp (old maximum − new maximum) plus the row sum
  of exp (score − new maximum). At j = 0 both start from their reset values (−∞ and 0), at j = 7 the row
  maximum + log sum is stored, transposed, as the result row.

  Over blocks whose entries are real numbers these are the recurrences runMax and runSum of the specification:
  the first step gives their values at 0, a later step takes the values at J to those at J + 1, and the result
  row after the eighth step is the log-sum-exp of each key.
-/
import proofs.«180234_j36386962931993_1_alg».proof.Proof.Gen.KernelIdeal.Skeleton
import proofs.«180234_j36386962931993_1_alg».proof.Proof.Spec
import proofs.«180234_j36386962931993_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.StatsPay

open Idealize.ShloMosaic Idealize.ShloMosaic.ValueIdx Cert.KernelIdeal Cert.KernelIdeal.Gen
open Cert.Spec (Mat gidx sc blkMax runMax runSum lse)

/-- The coercion of the reals into the extended reals commutes with finite sums. -/
theorem coe_sum {ι : Type} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The word of minus infinity is the bottom of the extended reals. -/
theorem ofBits_neg_inf : Ideal.ofBits .f32 0xFF800000#32 = (⊥ : EReal) := by
  simp [Ideal.ofBits, Ideal.ieee]

/-- A fold of `max` from the bottom over real entries is the real maximum of the entries. -/
theorem fold_max_coe (g : Fin 1024 → ℝ) :
    (Finset.univ : Finset (Fin 1024)).fold max (⊥ : EReal) (fun c => (g c : EReal))
      = ((Finset.univ.sup' Finset.univ_nonempty g : ℝ) : EReal) := by
  rw [Finset.comp_sup'_eq_sup'_comp Finset.univ_nonempty (fun x : ℝ => (x : EReal))
    (fun x y => EReal.coe_strictMono.monotone.map_sup x y),
    Finset.sup'_eq_sup]
  rfl

/-! ## The score tile -/

theorem lhs_score_0 (i : S1024x1024.Idx) (p : dot_S1024x128_S128x1024_S1024x1024_1_0_0_1_n_n.contr.Idx) :
    (dot_S1024x128_S128x1024_S1024x1024_1_0_0_1_n_n.lhsIdx i p 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_score_1 (i : S1024x1024.Idx) (p : dot_S1024x128_S128x1024_S1024x1024_1_0_0_1_n_n.contr.Idx) :
    (dot_S1024x128_S128x1024_S1024x1024_1_0_0_1_n_n.lhsIdx i p 1).val = (p ⟨0, by decide⟩).val :=
  dot_S1024x128_S128x1024_S1024x1024_1_0_0_1_n_n.lhsIdx_val_of_single rfl i p
theorem rhs_score_0 (i : S1024x1024.Idx) (p : dot_S1024x128_S128x1024_S1024x1024_1_0_0_1_n_n.contr.Idx) :
    (dot_S1024x128_S128x1024_S1024x1024_1_0_0_1_n_n.rhsIdx i p 0).val = (p ⟨0, by decide⟩).val :=
  dot_S1024x128_S128x1024_S1024x1024_1_0_0_1_n_n.rhsIdx_val_of_single rfl i p
theorem rhs_score_1 (i : S1024x1024.Idx) (p : dot_S1024x128_S128x1024_S1024x1024_1_0_0_1_n_n.contr.Idx) :
    (dot_S1024x128_S128x1024_S1024x1024_1_0_0_1_n_n.rhsIdx i p 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The score tile at (r, c) is the sum over the feature axis of key row r times query row c. -/
theorem score_sum (xK xQ : Vec Ideal S1024x128 .bf16) (r c : Fin 1024) :
    k0_pay3 xK xQ (ix2 r c) = ∑ d : Fin 128, xK (ix2 r d) * xQ (ix2 c d) := by
  unfold k0_pay3
  simp only [matmul]
  rw [Ideal.matmul_constant_zero_apply, ← Equiv.sum_comp (contrEquiv1 dot_S1024x128_S128x1024_S1024x1024_1_0_0_1_n_n 128 rfl rfl).symm]
  refine Finset.sum_congr rfl fun d _ => ?_
  have hk := contrEquiv1_symm_val dot_S1024x128_S128x1024_S1024x1024_1_0_0_1_n_n 128 rfl rfl d
  have el : dot_S1024x128_S128x1024_S1024x1024_1_0_0_1_n_n.lhsIdx (ix2 r c) ((contrEquiv1 dot_S1024x128_S128x1024_S1024x1024_1_0_0_1_n_n 128 rfl rfl).symm d) = (ix2 r d : S1024x128.Idx) := funext fun a => Fin.ext (by
    match a with
    | ⟨0, _⟩ => exact lhs_score_0 _ _
    | ⟨1, _⟩ => exact (lhs_score_1 _ _).trans hk)
  have er : dot_S1024x128_S128x1024_S1024x1024_1_0_0_1_n_n.rhsIdx (ix2 r c) ((contrEquiv1 dot_S1024x128_S128x1024_S1024x1024_1_0_0_1_n_n 128 rfl rfl).symm d) = (ix2 d c : S128x1024.Idx) := funext fun a => Fin.ext (by
    match a with
    | ⟨0, _⟩ => exact (rhs_score_0 _ _).trans hk
    | ⟨1, _⟩ => exact rhs_score_1 _ _)
  rw [el, er, shapeCast_self, shapeCast_self, transpose_ix2_apply]

/-- The score tile over blocks of real entries: the real score of query c of block j against key r of block i. -/
theorem score_eq (q k : Mat 8192 128) (i j : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx j c) d : ℝ) : EReal))
    (r c : Fin 1024) :
    k0_pay3 xK xQ (ix2 r c) = ((sc q k (gidx j c) (gidx i r) : ℝ) : EReal) := by
  rw [score_sum]
  unfold sc
  rw [coe_sum]
  refine Finset.sum_congr rfl fun d _ => ?_
  rw [hK, hQ, ← EReal.coe_mul, mul_comm]

/-! ## The row maximum of the tile -/

/-- The index of the tile with the column coordinate put back. -/
theorem lift_eq (r c : Fin 1024) :
    reduces_S1024x1024_S1024.lift (ix1 r) c = (ix2 r c : S1024x1024.Idx) :=
  funext fun a => Fin.ext (by match a with | ⟨0, _⟩ => rfl | ⟨1, _⟩ => rfl)

/-- The maximum over the columns of a tile of real entries, as a column. -/
theorem rowmax_eq (s : FVec Ideal S1024x1024 .f32) (g : Fin 1024 → Fin 1024 → ℝ)
    (hs : ∀ r c : Fin 1024, s (ix2 r c) = ((g r c : ℝ) : EReal)) (r : Fin 1024) :
    multiReduction (F := Ideal) .maximumf [1] S1024 s 0xFF800000#32 reduces_S1024x1024_S1024 (.inl rfl) rfl (ix1 r)
      = ((Finset.univ.sup' Finset.univ_nonempty (g r) : ℝ) : EReal) := by
  refine (Ideal.multiReduction_maximumf_single s 0xFF800000#32 reduces_S1024x1024_S1024 (.inl rfl) rfl (ix1 r)).trans ?_
  refine Eq.trans ?_ (fold_max_coe (g r))
  show Finset.fold max (Ideal.ofBits .f32 0xFF800000#32) _ _ = _
  rw [ofBits_neg_inf]
  refine Finset.fold_congr fun c _ => ?_
  exact (congrArg s (lift_eq r c)).trans (hs r c)

/-! ## The running maximum and the running sum, one grid point on -/

/-- The new running maximum of key row r: the larger of the old one and the tile's row maximum. -/
theorem newmax_apply (xK xQ : Vec Ideal S1024x128 .bf16) (m0 : Vec Ideal S1024x1 .f32) (r : Fin 1024) :
    k0_pay4 xK xQ m0 (ix2 r (0 : Fin 1))
      = max (m0 (ix2 r (0 : Fin 1)))
          (multiReduction (F := Ideal) .maximumf [1] S1024 (k0_pay3 xK xQ) 0xFF800000#32 reduces_S1024x1024_S1024 (.inl rfl) rfl (ix1 r)) := by
  unfold k0_pay4
  exact congrArg (max (m0 (ix2 r (0 : Fin 1))))
    (Cert.LibColumn.shapeCast_a_a1_apply _ shapeCasts_S1024_S1024x1 r (0 : Fin 1))

/-- Over blocks of real entries the new running maximum is the larger of the old one and the block maximum. -/
theorem newmax_eq (q k : Mat 8192 128) (i j : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx j c) d : ℝ) : EReal))
    (m0 : Vec Ideal S1024x1 .f32) (r : Fin 1024) :
    k0_pay4 xK xQ m0 (ix2 r (0 : Fin 1))
      = max (m0 (ix2 r (0 : Fin 1))) ((blkMax q k (gidx i r) j : ℝ) : EReal) := by
  rw [newmax_apply]
  exact congrArg (max (m0 (ix2 r (0 : Fin 1))))
    (rowmax_eq (k0_pay3 xK xQ) (fun r c => sc q k (gidx j c) (gidx i r)) (score_eq q k i j xK xQ hK hQ) r)

/-- The stored running maximum is the new running maximum. -/
theorem pay6_apply (xK xQ : Vec Ideal S1024x128 .bf16) (m0 : Vec Ideal S1024x1 .f32) (r : Fin 1024) :
    k0_pay6 xK xQ m0 (ix2 r (0 : Fin 1)) = k0_pay4 xK xQ m0 (ix2 r (0 : Fin 1)) := by
  unfold k0_pay6
  exact congrFun (shapeCast_self _ shapeCasts_S1024x1_S1024x1) _

/-- The stored running sum of key row r: the old sum rescaled from the old maximum to the new one, plus the sum
    over the tile's columns of the exponentials of the scores less the new maximum. -/
theorem pay5_apply (xK xQ : Vec Ideal S1024x128 .bf16) (m0 m1 l0 : Vec Ideal S1024x1 .f32) (r : Fin 1024) :
    k0_pay5 xK xQ m0 m1 l0 (ix2 r (0 : Fin 1))
      = Ideal.exp (m1 (ix2 r (0 : Fin 1)) - k0_pay4 xK xQ m0 (ix2 r (0 : Fin 1))) * l0 (ix2 r (0 : Fin 1))
        + ∑ c : Fin 1024, Ideal.exp (k0_pay3 xK xQ (ix2 r c) - k0_pay4 xK xQ m0 (ix2 r (0 : Fin 1))) := by
  unfold k0_pay5
  refine (congrFun (shapeCast_self _ shapeCasts_S1024x1_S1024x1) _).trans ?_
  refine congrArg (Ideal.exp (m1 (ix2 r (0 : Fin 1)) - k0_pay4 xK xQ m0 (ix2 r (0 : Fin 1))) * l0 (ix2 r (0 : Fin 1)) + ·) ?_
  refine (Cert.LibColumn.shapeCast_a_a1_apply _ shapeCasts_S1024_S1024x1 r (0 : Fin 1)).trans ?_
  refine (Ideal.multiReduction_add_single _ 0x00000000#32 reduces_S1024x1024_S1024 (.inl rfl) rfl (ix1 r)).trans ?_
  refine Finset.sum_congr rfl fun c _ => ?_
  refine (congrArg _ (lift_eq r c)).trans ?_
  exact congrArg (fun z => Ideal.exp (k0_pay3 xK xQ (ix2 r c) - z))
    (Cert.LibColumn.broadcastTo_a1_ab_apply (k0_pay4 xK xQ m0) broadcasts_S1024x1_S1024x1024 r c)

/-! ## Over real blocks: the first step, the later steps, the result row -/

/-- The reset value of the running maximum is the bottom. -/
theorem pay1_apply (y : S1024x1.Idx) : (k0_pay1 (F := Ideal)) y = (⊥ : EReal) := by
  unfold k0_pay1
  refine (congrFun (shapeCast_self _ shapeCasts_S1024x1_S1024x1) y).trans ?_
  exact ofBits_neg_inf

/-- The reset value of the running sum is zero. -/
theorem pay2_apply (y : S1024x1.Idx) : (k0_pay2 (F := Ideal)) y = (0 : EReal) := by
  unfold k0_pay2
  refine (congrFun (shapeCast_self _ shapeCasts_S1024x1_S1024x1) y).trans ?_
  exact Ideal.ofBits_zero_f32

/-- The tile's column sum of exponentials, over real blocks and a real maximum. -/
theorem expsum_eq (q k : Mat 8192 128) (i j : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx j c) d : ℝ) : EReal))
    (r : Fin 1024) (M : ℝ) :
    ∑ c : Fin 1024, Ideal.exp (k0_pay3 xK xQ (ix2 r c) - (M : EReal))
      = ((∑ c : Fin 1024, Real.exp (sc q k (gidx j c) (gidx i r) - M) : ℝ) : EReal) := by
  rw [coe_sum]
  refine Finset.sum_congr rfl fun c _ => ?_
  rw [score_eq q k i j xK xQ hK hQ r c, ← EReal.coe_sub, Ideal.exp_coe]

/-- The first query block: from the reset values the running maximum becomes the block maximum. -/
theorem first_max (q k : Mat 8192 128) (i : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx 0 c) d : ℝ) : EReal))
    (r : Fin 1024) :
    k0_pay6 xK xQ (k0_pay1 (F := Ideal)) (ix2 r (0 : Fin 1)) = ((runMax q k (gidx i r) 0 : ℝ) : EReal) := by
  rw [pay6_apply, newmax_eq q k i 0 xK xQ hK hQ, pay1_apply, max_eq_right bot_le]
  rfl

/-- The first query block: from the reset values the running sum becomes the block's sum of exponentials
    (the rescaled old sum is a multiple of zero). -/
theorem first_sum (q k : Mat 8192 128) (i : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx 0 c) d : ℝ) : EReal))
    (r : Fin 1024) :
    k0_pay5 xK xQ (k0_pay1 (F := Ideal)) (k0_pay1 (F := Ideal)) (k0_pay2 (F := Ideal)) (ix2 r (0 : Fin 1))
      = ((runSum q k (gidx i r) 0 : ℝ) : EReal) := by
  have h4 : k0_pay4 xK xQ (k0_pay1 (F := Ideal)) (ix2 r (0 : Fin 1)) = ((runMax q k (gidx i r) 0 : ℝ) : EReal) :=
    (pay6_apply xK xQ _ r).symm.trans (first_max q k i xK xQ hK hQ r)
  rw [pay5_apply, h4, pay2_apply, mul_zero, zero_add, expsum_eq q k i 0 xK xQ hK hQ r]
  rfl

/-- A later query block: the running maximum after block J + 1 from the one after block J. -/
theorem step_max (q k : Mat 8192 128) (i J : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx (J + 1) c) d : ℝ) : EReal))
    (m0 : Vec Ideal S1024x1 .f32) (r : Fin 1024)
    (hm : m0 (ix2 r (0 : Fin 1)) = ((runMax q k (gidx i r) J : ℝ) : EReal)) :
    k0_pay6 xK xQ m0 (ix2 r (0 : Fin 1)) = ((runMax q k (gidx i r) (J + 1) : ℝ) : EReal) := by
  rw [pay6_apply, newmax_eq q k i (J + 1) xK xQ hK hQ, hm]
  exact (EReal.coe_strictMono.monotone.map_max).symm

/-- A later query block: the running sum after block J + 1 from the running maximum and sum after block J. -/
theorem step_sum (q k : Mat 8192 128) (i J : ℕ) (xK xQ : Vec Ideal S1024x128 .bf16)
    (hK : ∀ (r : Fin 1024) (d : Fin 128), xK (ix2 r d) = ((k (gidx i r) d : ℝ) : EReal))
    (hQ : ∀ (c : Fin 1024) (d : Fin 128), xQ (ix2 c d) = ((q (gidx (J + 1) c) d : ℝ) : EReal))
    (m0 l0 : Vec Ideal S1024x1 .f32) (r : Fin 1024)
    (hm : m0 (ix2 r (0 : Fin 1)) = ((runMax q k (gidx i r) J : ℝ) : EReal))
    (hl : l0 (ix2 r (0 : Fin 1)) = ((runSum q k (gidx i r) J : ℝ) : EReal)) :
    k0_pay5 xK xQ m0 m0 l0 (ix2 r (0 : Fin 1)) = ((runSum q k (gidx i r) (J + 1) : ℝ) : EReal) := by
  have h4 : k0_pay4 xK xQ m0 (ix2 r (0 : Fin 1)) = ((runMax q k (gidx i r) (J + 1) : ℝ) : EReal) :=
    (pay6_apply xK xQ m0 r).symm.trans (step_max q k i J xK xQ hK hQ m0 r hm)
  rw [pay5_apply, h4, hm, hl, expsum_eq q k i (J + 1) xK xQ hK hQ r, ← EReal.coe_sub, Ideal.exp_coe,
    ← EReal.coe_mul, ← EReal.coe_add]
  rfl

/-- The result row: after the eighth query block the stored row holds the log-sum-exp of each key of the block. -/
theorem out_eq (q k : Mat 8192 128) (i : ℕ) (m7 l7 : Vec Ideal S1024x1 .f32) (r : Fin 1024)
    (hm : m7 (ix2 r (0 : Fin 1)) = ((runMax q k (gidx i r) 7 : ℝ) : EReal))
    (hl : l7 (ix2 r (0 : Fin 1)) = ((runSum q k (gidx i r) 7 : ℝ) : EReal)) :
    k0_pay7 m7 l7 (ix2 (0 : Fin 1) r) = ((lse q k (gidx i r) : ℝ) : EReal) := by
  unfold k0_pay7
  refine (transpose_ix2_apply _ transposes_S1024x1_p1_0_S1x1024 (0 : Fin 1) r).trans ?_
  show m7 (ix2 r (0 : Fin 1)) + Ideal.log (l7 (ix2 r (0 : Fin 1))) = _
  rw [hm, hl, Cert.Spec.runMax_last, Cert.Spec.runSum_last, Ideal.log_coe,
    if_neg (not_le.mpr (Cert.Spec.den_pos q k (gidx i r))), ← EReal.coe_add]
  rfl

end Cert.KernelIdeal.StatsPay

end
-- ==== Proof.KI.StatsInduct.lean ====
/-
  The statistics pass along the grid, as a recurrence over sequences.

  The grid is walked row by row: position n is key block n / 8 against query block n % 8. The running maximum
  and the running sum of a key block are reset where a row starts and carried from position to position inside
  the row. This module proves, by induction on the position, that sequences which obey the body's payloads in
  this way hold the specification's running maximum and running sum.
-/
import proofs.«180234_j36386962931993_1_alg».proof.Proof.KI.StatsPay

noncomputable section

namespace Cert.KernelIdeal.StatsPay

open Idealize.ShloMosaic Idealize.ShloMosaic.ValueIdx Cert.KernelIdeal Cert.KernelIdeal.Gen
open Cert.Spec (Mat gidx sc blkMax runMax runSum lse)

/-- The recurrence along the grid. Position n of the grid is key block n / 8 against query block n % 8. If
    the running maximum and the running sum start afresh wherever n % 8 = 0 and elsewhere continue from position
    n − 1 through the body's payloads, then after position n they hold, for key row r of the block, the running
    maximum and the running sum of the specification after query block n % 8. -/
theorem runs_of_steps (q k : Mat 8192 128) (N : ℕ)
    (xK xQ : (n : ℕ) → n < N → Vec Ideal S1024x128 .bf16)
    (Mx Sm : (n : ℕ) → n < N → Vec Ideal S1024x1 .f32)
    (hK : ∀ (n : ℕ) (h : n < N) (r : Fin 1024) (d : Fin 128),
      xK n h (ix2 r d) = ((k (gidx (n / 8) r) d : ℝ) : EReal))
    (hQ : ∀ (n : ℕ) (h : n < N) (c : Fin 1024) (d : Fin 128),
      xQ n h (ix2 c d) = ((q (gidx (n % 8) c) d : ℝ) : EReal))
    (hA0 : ∀ (n : ℕ) (h : n < N), n % 8 = 0 → Mx n h = k0_pay6 (xK n h) (xQ n h) (k0_pay1 (F := Ideal)))
    (hA1 : ∀ (n : ℕ) (h : n < N), n % 8 = 0 →
      Sm n h = k0_pay5 (xK n h) (xQ n h) (k0_pay1 (F := Ideal)) (k0_pay1 (F := Ideal)) (k0_pay2 (F := Ideal)))
    (hB0 : ∀ (n : ℕ) (h : n + 1 < N), ¬(n + 1) % 8 = 0 →
      Mx (n + 1) h = k0_pay6 (xK (n + 1) h) (xQ (n + 1) h) (Mx n (Nat.lt_of_succ_lt h)))
    (hB1 : ∀ (n : ℕ) (h : n + 1 < N), ¬(n + 1) % 8 = 0 →
      Sm (n + 1) h = k0_pay5 (xK (n + 1) h) (xQ (n + 1) h) (Mx n (Nat.lt_of_succ_lt h)) (Mx n (Nat.lt_of_succ_lt h))
        (Sm n (Nat.lt_of_succ_lt h))) :
    ∀ (n : ℕ) (h : n < N) (r : Fin 1024),
      Mx n h (ix2 r (0 : Fin 1)) = ((runMax q k (gidx (n / 8) r) (n % 8) : ℝ) : EReal)
      ∧ Sm n h (ix2 r (0 : Fin 1)) = ((runSum q k (gidx (n / 8) r) (n % 8) : ℝ) : EReal) := by
  intro n
  induction n with
  | zero =>
    intro h r
    have hQ0 : ∀ (c : Fin 1024) (d : Fin 128), xQ 0 h (ix2 c d) = ((q (gidx 0 c) d : ℝ) : EReal) := hQ 0 h
    have hK0 : ∀ (r : Fin 1024) (d : Fin 128), xK 0 h (ix2 r d) = ((k (gidx 0 r) d : ℝ) : EReal) := hK 0 h
    constructor
    · rw [hA0 0 h rfl]
      exact first_max q k 0 (xK 0 h) (xQ 0 h) hK0 hQ0 r
    · rw [hA1 0 h rfl]
      exact first_sum q k 0 (xK 0 h) (xQ 0 h) hK0 hQ0 r
  | succ n ih =>
    intro h r
    by_cases h0 : (n + 1) % 8 = 0
    · have hQ0 : ∀ (c : Fin 1024) (d : Fin 128), xQ (n + 1) h (ix2 c d) = ((q (gidx 0 c) d : ℝ) : EReal) := by
        intro c d; rw [hQ (n + 1) h c d, h0]
      rw [h0]
      constructor
      · rw [hA0 (n + 1) h h0]
        exact first_max q k ((n + 1) / 8) (xK (n + 1) h) (xQ (n + 1) h) (hK (n + 1) h) hQ0 r
      · rw [hA1 (n + 1) h h0]
        exact first_sum q k ((n + 1) / 8) (xK (n + 1) h) (xQ (n + 1) h) (hK (n + 1) h) hQ0 r
    · have e1 : (n + 1) / 8 = n / 8 := by omega
      have e2 : (n + 1) % 8 = n % 8 + 1 := by omega
      have hK1 : ∀ (r : Fin 1024) (d : Fin 128), xK (n + 1) h (ix2 r d) = ((k (gidx (n / 8) r) d : ℝ) : EReal) := by
        intro r d; rw [hK (n + 1) h r d, e1]
      have hQ1 : ∀ (c : Fin 1024) (d : Fin 128),
          xQ (n + 1) h (ix2 c d) = ((q (gidx (n % 8 + 1) c) d : ℝ) : EReal) := by
        intro c d; rw [hQ (n + 1) h c d, e2]
      have hprev := ih (Nat.lt_of_succ_lt h) r
      rw [e1, e2]
      constructor
      · rw [hB0 n h h0]
        exact step_max q k (n / 8) (n % 8) (xK (n + 1) h) (xQ (n + 1) h) hK1 hQ1 (Mx n (Nat.lt_of_succ_lt h)) r hprev.1
      · rw [hB1 n h h0]
        exact step_sum q k (n / 8) (n % 8) (xK (n + 1) h) (xQ (n + 1) h) hK1 hQ1 (Mx n (Nat.lt_of_succ_lt h))
          (Sm n (Nat.lt_of_succ_lt h)) r hprev.1 hprev.2

end Cert.KernelIdeal.StatsPay

end
-- ==== Proof.KI.StatsValue.lean ====
/-
  The value of the statistics pass: after the region, the row of 8192 entries holds, at key b, the log-sum-exp
  of that key's scores over all queries.

  The grid is walked row by row; position n is key block n / 8 against query block n % 8. Over real input
  arrays the running maximum and the running sum kept between positions are the specification's recurrences
  (the induction over positions), so where a row of the grid ends the stored result row is the log-sum-exp of
  the keys of the row's block; the eight result rows tile the array.
-/
import proofs.«180234_j36386962931993_1_alg».proof.Proof.KI.StatsData
import proofs.«180234_j36386962931993_1_alg».proof.Proof.KI.StatsRead
import proofs.«180234_j36386962931993_1_alg».proof.Proof.KI.StatsBlocks
import proofs.«180234_j36386962931993_1_alg».proof.Proof.KI.StatsPay
import proofs.«180234_j36386962931993_1_alg».proof.Proof.KI.StatsInduct
import proofs.«180234_j36386962931993_1_alg».proof.Proof.Spec
import Idealize.ShloMosaic.Lib.ValueIdx

noncomputable section

namespace Cert.KernelIdeal.Stats

open Idealize.ShloMosaic Idealize.ShloMosaic.TcCoe Idealize.ShloMosaic.ValueIdx Idealize.SL.Sem
open Cert.KernelIdeal Cert.KernelIdeal.Gen

section AtIdeal
variable (V : (c : Dev nD) → (b : Ref sig .tc) → Buf (Elt Ideal) ((c : Thread nD τ).loc b))

open Cert.Spec (Mat gidx gidx_val runMax runSum lse)

/-- Over a real key array, the key block of position n holds the keys of block n / 8. -/
theorem kblk_real (c : Dev nD) (k : Mat 8192 128)
    (hK : ∀ (a : Fin 8192) (b : Fin 128), (V c main_v1 : S8192x128.Idx → EReal) (ix2 a b) = ((k a b : ℝ) : EReal))
    (n : ℕ) (hn : n < cfg0.N) (r : Fin 1024) (d : Fin 128) :
    (iblk0 V c 0 ⟨n, hn⟩ : Vec Ideal S1024x128 .bf16) (ix2 r d) = ((k (gidx (n / 8) r) d : ℝ) : EReal) := by
  exact (iblk0_0_apply V c ⟨n, hn⟩ r d).trans (hK (gidx (n / 8) r) d)

/-- Over a real query array, the query block of position n holds the queries of block n % 8. -/
theorem qblk_real (c : Dev nD) (q : Mat 8192 128)
    (hQ : ∀ (a : Fin 8192) (b : Fin 128), (V c main_v0 : S8192x128.Idx → EReal) (ix2 a b) = ((q a b : ℝ) : EReal))
    (n : ℕ) (hn : n < cfg0.N) (r : Fin 1024) (d : Fin 128) :
    (iblk0 V c 1 ⟨n, hn⟩ : Vec Ideal S1024x128 .bf16) (ix2 r d) = ((q (gidx (n % 8) r) d : ℝ) : EReal) := by
  exact (iblk0_1_apply V c ⟨n, hn⟩ r d).trans (hQ (gidx (n % 8) r) d)

/-- The running buffers after position n of the grid hold, for key row r of block n / 8, the specification's
    running maximum and running sum after query block n % 8. -/
theorem runs_eq (c : Dev nD) (q k : Mat 8192 128)
    (hQ : ∀ (a : Fin 8192) (b : Fin 128), (V c main_v0 : S8192x128.Idx → EReal) (ix2 a b) = ((q a b : ℝ) : EReal))
    (hK : ∀ (a : Fin 8192) (b : Fin 128), (V c main_v1 : S8192x128.Idx → EReal) (ix2 a b) = ((k a b : ℝ) : EReal))
    (n : ℕ) (hn : n < cfg0.N) (r : Fin 1024) :
    ((outsAt0 V c n hn).2.1 : Vec Ideal S1024x1 .f32) (ix2 r (0 : Fin 1)) = ((runMax q k (gidx (n / 8) r) (n % 8) : ℝ) : EReal)
    ∧ ((outsAt0 V c n hn).2.2 : Vec Ideal S1024x1 .f32) (ix2 r (0 : Fin 1)) = ((runSum q k (gidx (n / 8) r) (n % 8) : ℝ) : EReal) :=
  Cert.KernelIdeal.StatsPay.runs_of_steps q k cfg0.N
    (fun n hn => iblk0 V c 0 ⟨n, hn⟩) (fun n hn => iblk0 V c 1 ⟨n, hn⟩)
    (fun n hn => (outsAt0 V c n hn).2.1) (fun n hn => (outsAt0 V c n hn).2.2)
    (fun n hn r d => kblk_real V c k hK n hn r d)
    (fun n hn r d => qblk_real V c q hQ n hn r d)
    (fun n hn h0 => outsAt0_A_max V c ⟨n, hn⟩ h0 (show ¬n % 8 = 7 by omega))
    (fun n hn h0 => outsAt0_A_sum V c ⟨n, hn⟩ h0 (show ¬n % 8 = 7 by omega))
    (fun n hn h0 => by
      by_cases h1 : (n + 1) % 8 = 7
      · exact outsAt0_C_max V c ⟨n + 1, hn⟩ h0 h1
      · exact outsAt0_B_max V c ⟨n + 1, hn⟩ h0 h1)
    (fun n hn h0 => by
      by_cases h1 : (n + 1) % 8 = 7
      · exact outsAt0_C_sum V c ⟨n + 1, hn⟩ h0 h1
      · exact outsAt0_B_sum V c ⟨n + 1, hn⟩ h0 h1)
    n hn r

/-- Where a row of the grid ends, the output buffer holds the log-sum-exp of each key of the row's block. -/
theorem after2_row (c : Dev nD) (q k : Mat 8192 128)
    (hQ : ∀ (a : Fin 8192) (b : Fin 128), (V c main_v0 : S8192x128.Idx → EReal) (ix2 a b) = ((q a b : ℝ) : EReal))
    (hK : ∀ (a : Fin 8192) (b : Fin 128), (V c main_v1 : S8192x128.Idx → EReal) (ix2 a b) = ((k a b : ℝ) : EReal))
    (t : Fin cfg0.N) (h7 : t.val % 8 = 7) (r : Fin 1024) :
    ((dat0 V c).after 2 t : Vec Ideal S1x1024 .f32) (ix2 (0 : Fin 1) r) = ((lse q k (gidx (t.val / 8) r) : ℝ) : EReal) := by
  have h0 : ¬t.val % 8 = 0 := by omega
  rw [after0_2, outsAt0_C_out V c t h0 h7, ← outsAt0_C_max V c t h0 h7, ← outsAt0_C_sum V c t h0 h7]
  have hr := runs_eq V c q k hQ hK t.val t.isLt r
  rw [h7] at hr
  exact Cert.KernelIdeal.StatsPay.out_eq q k (t.val / 8) (outsAt0 V c t.val t.isLt).2.1 (outsAt0 V c t.val t.isLt).2.2 r hr.1 hr.2

end AtIdeal

/-- After the statistics region the array of log-sum-exps holds, at key b, the log-sum-exp of that key's scores. -/
theorem lse_array (V : (c : Dev nD) → (b : Ref sig .tc) → Buf (Elt Ideal) ((c : Thread nD τ).loc b)) (c : Dev nD) (q k : Cert.Spec.Mat 8192 128)
    (hQ : ∀ (a : Fin 8192) (b : Fin 128), (V c main_v0 : S8192x128.Idx → EReal) (ix2 a b) = ((q a b : ℝ) : EReal))
    (hK : ∀ (a : Fin 8192) (b : Fin 128), (V c main_v1 : S8192x128.Idx → EReal) (ix2 a b) = ((k a b : ℝ) : EReal)) :
    ∀ b : Fin 8192, ((dat0 (F := Ideal) V c).arrAt 2 cfg0.N : S1x8192.Idx → EReal) (ix2 (0 : Fin 1) b) = ((Cert.Spec.lse q k b : ℝ) : EReal) :=
  arr2_of_flushed V c (fun i => ((Cert.Spec.lse q k ⟨(i 1).val, idx2_lt1 i⟩ : ℝ) : EReal))
    (fun t h7 r => after2_row V c q k hQ hK t h7 r)

end Cert.KernelIdeal.Stats

end
-- ==== Proof.KI.OutRead.lean ====
import proofs.«180234_j36386962931993_1_alg».proof.Proof.Gen.KernelIdeal.Launch
import proofs.«180234_j36386962931993_1_alg».proof.Proof.Gen.KernelIdeal.Skeleton
import proofs.«180234_j36386962931993_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import proofs.«180234_j36386962931993_1_alg».proof.Proof.KI.OutData
import Idealize.ShloMosaic.Lib.Pipeline.Value
import Idealize.ShloMosaic.Lib.WholeRead

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the cases' stores leave, read back as the payloads

Every load and store of the body goes through the whole rectangle of its buffer, so a load reads the buffer's contents
and the last store leaves its payload. Read so, the accumulator after a point is the sum payload k1_pay2 of the point's
four input blocks and of what the accumulator held before — the zero fill k1_pay1 where the second coordinate is 0 —,
and where the second coordinate is 7 the output block is that same value. Nothing here depends on the float instance. -/

/-- The zero offsets, as the constant function. -/
theorem hz2 : (![0, 0] : Fin 2 → Nat) = fun _ => 0 := funext fun a => by
  match a with
  | 0 => rfl
  | 1 => rfl

/-- Case A: the accumulator is zeroed, read back, and the point's product added. -/
theorem sout1_A_0_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : cond1_0 i) (hc1 : ¬cond1_1 i)
    (x0 : Vec F S1024x128 .bf16) (x1 : Vec F S1024x128 .bf16) (x2 : Vec F S1024x128 .bf16) (x3 : Vec F S1x1024 .f32) :
    sout1_A_0 c i arg2 harg2 arg3 harg3 arg4 harg4 arg5 harg5 arg6 harg6 arg7 harg7 hc0 hc1 x0 x1 x2 x3 = k1_pay2 x0 x1 x3 (k1_pay1 (F := F)) x2 := by
  unfold sout1_A_0
  rw [View.read_writes_junk_eq_canon]
  unfold kernelRun1_A
  dsimp only
  sl_unfold_run_names
  rw [View.canon_cons_unit_zero (S := S1024x128) hz2, View.readCov_unit_zero (S := S1024x128) _ hz2]
  simp only [View.readAt_eq_ld, harg2.read_unread, harg3.read_unread, harg4.read_unread, harg5.read_unread, harg7.read_unread,
    View.ld_unit_zero (S := S1024x128) hz2, View.ld_unit_zero (S := S1x1024) hz2]

/-- Case B: the point's product is added to what the accumulator held. -/
theorem sout1_B_0_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : ¬cond1_1 i)
    (x0 : Vec F S1024x128 .bf16) (x1 : Vec F S1024x128 .bf16) (x2 : Vec F S1024x128 .bf16) (x3 : Vec F S1x1024 .f32) (xs0 : Vec F S1024x128 .f32) :
    sout1_B_0 c i arg2 harg2 arg3 harg3 arg4 harg4 arg5 harg5 arg6 harg6 arg7 harg7 hc0 hc1 x0 x1 x2 x3 xs0 = k1_pay2 x0 x1 x3 xs0 x2 := by
  unfold sout1_B_0
  rw [View.read_writes_junk_eq_canon]
  unfold kernelRun1_B
  dsimp only
  rw [View.canon_unit_zero (S := S1024x128) hz2]
  simp only [View.readAt_eq_ld, harg2.read_unread, harg3.read_unread, harg4.read_unread, harg5.read_unread, harg7.read_unread,
    View.ld_unit_zero (S := S1024x128) hz2, View.ld_unit_zero (S := S1x1024) hz2]

/-- Case C: the accumulator as in case B; -/
theorem sout1_C_0_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) :
    sout1_C_0 c i arg2 harg2 arg3 harg3 arg4 harg4 arg5 harg5 arg6 harg6 arg7 harg7 hc0 hc1 x0 x1 x2 x3 xs0 = k1_pay2 x0 x1 x3 xs0 x2 := by
  unfold sout1_C_0
  rw [View.read_writes_junk_eq_canon]
  unfold kernelRun1_C
  dsimp only
  sl_unfold_run_names
  rw [View.canon_unit_zero (S := S1024x128) hz2]
  simp only [View.readAt_eq_ld, harg2.read_unread, harg3.read_unread, harg4.read_unread, harg5.read_unread, harg7.read_unread,
    View.ld_unit_zero (S := S1024x128) hz2, View.ld_unit_zero (S := S1x1024) hz2]

/-- and the output block holds the accumulator's new value, loaded back after its store. -/
theorem out1_C_4_eq (c : Dev nD) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole) (hc0 : ¬cond1_0 i) (hc1 : cond1_1 i)
    (x0 : Vec F S1024x128 .bf16) (x1 : Vec F S1024x128 .bf16) (x2 : Vec F S1024x128 .bf16) (x3 : Vec F S1x1024 .f32) (xs0 : Vec F S1024x128 .f32) :
    out1_C_4 c i arg2 harg2 arg3 harg3 arg4 harg4 arg5 harg5 arg6 harg6 arg7 harg7 hc0 hc1 x0 x1 x2 x3 xs0 = k1_pay2 x0 x1 x3 xs0 x2 := by
  unfold out1_C_4
  rw [View.read_writes_junk_eq_canon]
  unfold kernelRun1_C
  dsimp only
  sl_unfold_run_names
  rw [View.canon_unit_zero (S := S1024x128) hz2, View.readCov_unit_zero (S := S1024x128) _ hz2]
  simp only [View.readAt_eq_ld, harg2.read_unread, harg3.read_unread, harg4.read_unread, harg5.read_unread, harg7.read_unread,
    View.ld_unit_zero (S := S1024x128) hz2, View.ld_unit_zero (S := S1x1024) hz2]

-- the TensorCore's buffer contents when the region is entered
variable (V : (c : Dev nD) → (b : Ref sig .tc) → Buf (Elt F) ((c : Thread nD τ).loc b))

/-! ## The accumulation, point by point, through the payloads -/

/-- After a point with second coordinate 0 the accumulator is the zero fill plus the point's product. -/
theorem outsAt1_A_snd (c : Dev nD) (t : Fin cfg1.N) (h0 : t.val % 8 = 0) (h1 : ¬t.val % 8 = 7) :
    (outsAt1 V c t.val t.isLt).2
      = k1_pay2 (iblk1 V c 0 t) (iblk1 V c 1 t) (iblk1 V c 3 t) (k1_pay1 (F := F)) (iblk1 V c 2 t) := by
  rw [outsAt1_A V c t h0 h1]; unfold ptA; dsimp only
  exact sout1_A_0_eq c _ _ _ _ _ _ _ _ _ _ _ _ _ _ _ _ _ _ _

/-- After a point with second coordinate 1 … 6 it is what the point before left plus the point's product. -/
theorem outsAt1_B_snd (c : Dev nD) (t : Fin cfg1.N) (h0 : ¬t.val % 8 = 0) (h1 : ¬t.val % 8 = 7) :
    (outsAt1 V c t.val t.isLt).2
      = k1_pay2 (iblk1 V c 0 t) (iblk1 V c 1 t) (iblk1 V c 3 t)
          (outsAt1 V c (t.val - 1) (Nat.lt_of_le_of_lt (Nat.sub_le _ _) t.isLt)).2 (iblk1 V c 2 t) := by
  rw [outsAt1_B V c t h0 h1]; unfold ptB; dsimp only
  exact sout1_B_0_eq c _ _ _ _ _ _ _ _ _ _ _ _ _ _ _ _ _ _ _ _

/-- After a point with second coordinate 7 likewise, -/
theorem outsAt1_C_snd (c : Dev nD) (t : Fin cfg1.N) (h0 : ¬t.val % 8 = 0) (h1 : t.val % 8 = 7) :
    (outsAt1 V c t.val t.isLt).2
      = k1_pay2 (iblk1 V c 0 t) (iblk1 V c 1 t) (iblk1 V c 3 t)
          (outsAt1 V c (t.val - 1) (Nat.lt_of_le_of_lt (Nat.sub_le _ _) t.isLt)).2 (iblk1 V c 2 t) := by
  rw [outsAt1_C V c t h0 h1]; unfold ptC; dsimp only
  exact sout1_C_0_eq c _ _ _ _ _ _ _ _ _ _ _ _ _ _ _ _ _ _ _ _

/-- and the output block's staging buffer holds the same value. -/
theorem outsAt1_C_fst (c : Dev nD) (t : Fin cfg1.N) (h0 : ¬t.val % 8 = 0) (h1 : t.val % 8 = 7) :
    (outsAt1 V c t.val t.isLt).1
      = k1_pay2 (iblk1 V c 0 t) (iblk1 V c 1 t) (iblk1 V c 3 t)
          (outsAt1 V c (t.val - 1) (Nat.lt_of_le_of_lt (Nat.sub_le _ _) t.isLt)).2 (iblk1 V c 2 t) := by
  rw [outsAt1_C V c t h0 h1]; unfold ptC; dsimp only
  exact out1_C_4_eq c _ _ _ _ _ _ _ _ _ _ _ _ _ _ _ _ _ _ _ _

end Cert.KernelIdeal.Out

end
-- ==== Proof.KI.OutBlocks.lean ====
/-
  Pipeline 1 (the weighted sum), from blocks to arrays: the parts that depend only on the windows and the grid.

  The grid has 64 points; point t has row-block coordinate t / 8 and column-block coordinate t % 8.  Each input block
  is a contiguous piece of its array: entry (r, d) of the query block at point t is entry (1024 (t / 8) + r, d) of the
  query array, entry (r, d) of the key and value blocks is entry (1024 (t % 8) + r, d) of theirs, and entry (0, r) of
  the log-sum-exp block is entry (0, 1024 (t % 8) + r) of that row vector.  The output block is written back at the
  points with t % 8 = 7, to rows 1024 (t / 8) … 1024 (t / 8) + 1023; these eight blocks tile the output array, so an
  array function G that every written-back block agrees with, entry by entry, is what the output array ends holding.
-/
import proofs.«180234_j36386962931993_1_alg».proof.Proof.KI.OutData
import proofs.«180234_j36386962931993_1_alg».proof.Proof.Spec
import Idealize.ShloMosaic.Lib.Pipeline.Value
import Idealize.ShloMosaic.Lib.ValueIdx

noncomputable section

namespace Cert.KernelIdeal.Out

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The block indices of the five windows at point t, decided over the 64 grid points: the query and output windows
    sit at row block t / 8, the key, value and log-sum-exp windows at block t % 8. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

variable (V : (c : Dev nD) → (b : Ref sig .tc) → Buf (Elt F) ((c : Thread nD τ).loc b))

/-- Entry (r, d) of the query block at point t is entry (1024 (t / 8) + r, d) of the query array. -/
theorem iblk1_0_apply (c : Dev nD) (t : Fin cfg1.N) (r : Fin 1024) (d : Fin 128) :
    (iblk1 V c 0 t : S1024x128.Idx → Elt F .bf16) (ix2 r d)
      = (V c main_v0 : S8192x128.Idx → Elt F .bf16) (ix2 (Cert.Spec.gidx (t.val / 8) r) d) := by
  obtain ⟨e00, e01, -⟩ := idx_facts1 t
  have hN : t.val < 64 := lt_of_lt_of_eq t.isLt (show cfg1.N = 64 from N_1)
  unfold iblk1
  rw [View.read_apply]
  show V c main_v0 _ = V c main_v0 _
  congr 1
  funext a
  apply Fin.ext
  match a with
  | ⟨0, _⟩ =>
    show win1_0.index t (0 : Fin 2) * 1024 + 1 * r.val = (Cert.Spec.gidx (t.val / 8) r).val
    rw [e00, Cert.Spec.gidx_val _ (by omega) r]; omega
  | ⟨1, _⟩ =>
    show win1_0.index t (1 : Fin 2) * 128 + 1 * d.val = d.val
    rw [e01]; omega

/-- Entry (r, d) of the key block at point t is entry (1024 (t % 8) + r, d) of the key array. -/
theorem iblk1_1_apply (c : Dev nD) (t : Fin cfg1.N) (r : Fin 1024) (d : Fin 128) :
    (iblk1 V c 1 t : S1024x128.Idx → Elt F .bf16) (ix2 r d)
      = (V c main_v1 : S8192x128.Idx → Elt F .bf16) (ix2 (Cert.Spec.gidx (t.val % 8) r) d) := by
  obtain ⟨-, -, e10, e11, -⟩ := idx_facts1 t
  unfold iblk1
  rw [View.read_apply]
  show V c main_v1 _ = V c main_v1 _
  congr 1
  funext a
  apply Fin.ext
  match a with
  | ⟨0, _⟩ =>
    show win1_1.index t (0 : Fin 2) * 1024 + 1 * r.val = (Cert.Spec.gidx (t.val % 8) r).val
    rw [e10, Cert.Spec.gidx_val _ (by omega) r]; omega
  | ⟨1, _⟩ =>
    show win1_1.index t (1 : Fin 2) * 128 + 1 * d.val = d.val
    rw [e11]; omega

/-- Entry (r, d) of the value block at point t is entry (1024 (t % 8) + r, d) of the value array. -/
theorem iblk1_2_apply (c : Dev nD) (t : Fin cfg1.N) (r : Fin 1024) (d : Fin 128) :
    (iblk1 V c 2 t : S1024x128.Idx → Elt F .bf16) (ix2 r d)
      = (V c main_v2 : S8192x128.Idx → Elt F .bf16) (ix2 (Cert.Spec.gidx (t.val % 8) r) d) := by
  obtain ⟨-, -, -, -, e20, e21, -⟩ := idx_facts1 t
  unfold iblk1
  rw [View.read_apply]
  show V c main_v2 _ = V c main_v2 _
  congr 1
  funext a
  apply Fin.ext
  match a with
  | ⟨0, _⟩ =>
    show win1_2.index t (0 : Fin 2) * 1024 + 1 * r.val = (Cert.Spec.gidx (t.val % 8) r).val
    rw [e20, Cert.Spec.gidx_val _ (by omega) r]; omega
  | ⟨1, _⟩ =>
    show win1_2.index t (1 : Fin 2) * 128 + 1 * d.val = d.val
    rw [e21]; omega

/-- Entry (0, r) of the log-sum-exp block at point t is entry (0, 1024 (t % 8) + r) of the log-sum-exp row. -/
theorem iblk1_3_apply (c : Dev nD) (t : Fin cfg1.N) (r : Fin 1024) :
    (iblk1 V c 3 t : S1x1024.Idx → Elt F .f32) (ix2 (0 : Fin 1) r)
      = (V c main_v3 : S1x8192.Idx → Elt F .f32) (ix2 (0 : Fin 1) (Cert.Spec.gidx (t.val % 8) r)) := by
  obtain ⟨-, -, -, -, -, -, e30, e31, -⟩ := idx_facts1 t
  unfold iblk1
  rw [View.read_apply]
  show V c main_v3 _ = V c main_v3 _
  congr 1
  funext a
  apply Fin.ext
  match a with
  | ⟨0, _⟩ =>
    show win1_3.index t (0 : Fin 2) * 1 + 1 * (0 : Fin 1).val = (0 : Fin 1).val
    rw [e30]; rfl
  | ⟨1, _⟩ =>
    show win1_3.index t (1 : Fin 2) * 1024 + 1 * r.val = (Cert.Spec.gidx (t.val % 8) r).val
    rw [e31, Cert.Spec.gidx_val _ (by omega) r]; omega

/-- An index of the output array is in point t's block iff each coordinate is in the block's range on its axis. -/
theorem mem_blk4 (t : Fin cfg1.N) (i : S8192x128.Idx) :
    i ∈ ((cfg1.win 4).blk t).view.set ↔ ∀ a : Fin 2, win1_4.index t a * S1024x128.size a ≤ (i a).val
      ∧ (i a).val < win1_4.index t a * S1024x128.size a + S1024x128.size a := by
  show i ∈ ((View.whole main_v4).slice (win1_4.rect t)).set ↔ _
  rw [View.set_slice_whole, Rect.mem_set_unit]
  exact Iff.rfl

/-- THE OUTPUT ARRAY FROM ITS WRITTEN-BACK BLOCKS.  If at every point t with t % 8 = 7 the output block the body leaves
    agrees, entry (r, d), with G at (1024 (t / 8) + r, d), then the output array ends holding G: the eight written-back
    blocks tile the rows (row x is in the block of point 8 (x / 1024) + 7). -/
theorem arr4_of_flushed (c : Dev nD) (G : S8192x128.Idx → Elt F .f32)
    (h : ∀ t : Fin cfg1.N, t.val % 8 = 7 → ∀ (r : Fin 1024) (d : Fin 128),
      ((dat1 V c).after 4 t : S1024x128.Idx → Elt F .f32) (ix2 r d) = G (ix2 (Cert.Spec.gidx (t.val / 8) r) d)) :
    ∀ (a : Fin 8192) (b : Fin 128), ((dat1 V c).arrAt 4 cfg1.N : S8192x128.Idx → Elt F .f32) (ix2 a b) = G (ix2 a b) := by
  have hfl : ∀ t, (cfg1.win 4).flush t = true →
      (dat1 V c).flushed 4 t = ((cfg1.win 4).blk t).view.read (Elt F) G := by
    intro t hf
    have h7 : t.val % 8 = 7 := (flush1_4 t).mp hf
    have hN : t.val < 64 := lt_of_lt_of_eq t.isLt (show cfg1.N = 64 from N_1)
    obtain ⟨-, -, -, -, -, -, -, -, e40, e41⟩ := idx_facts1 t
    refine funext fun (j : S1024x128.Idx) => ?_
    obtain ⟨r, d, rfl⟩ : ∃ (r : Fin 1024) (d : Fin 128), j = ix2 r d := ⟨j 0, j 1, eq_ix2 j⟩
    show ((dat1 V c).after 4 t : S1024x128.Idx → Elt F .f32) (ix2 r d) = G (((cfg1.win 4).blk t).view.emb (ix2 r d))
    rw [h t h7 r d]
    congr 1
    funext a
    apply Fin.ext
    match a with
    | ⟨0, _⟩ =>
      show (Cert.Spec.gidx (t.val / 8) r).val = win1_4.index t (0 : Fin 2) * 1024 + 1 * r.val
      rw [e40, Cert.Spec.gidx_val _ (by omega) r]; omega
    | ⟨1, _⟩ =>
      show d.val = win1_4.index t (1 : Fin 2) * 128 + 1 * d.val
      rw [e41]; omega
  have hcov : ∀ i : S8192x128.Idx, ∃ t : Fin cfg1.N, (cfg1.win 4).flush t = true ∧ i ∈ ((cfg1.win 4).blk t).view.set := by
    intro i
    have hi0 : (i 0).val < 8192 := (i 0).isLt
    have hi1 : (i 1).val < 128 := (i 1).isLt
    have hlt : 8 * ((i 0).val / 1024) + 7 < cfg1.N := by rw [show cfg1.N = 64 from N_1]; omega
    refine ⟨⟨8 * ((i 0).val / 1024) + 7, hlt⟩, (flush1_4 _).mpr (by show (8 * ((i 0).val / 1024) + 7) % 8 = 7; omega), ?_⟩
    obtain ⟨-, -, -, -, -, -, -, -, e40, e41⟩ := idx_facts1 ⟨8 * ((i 0).val / 1024) + 7, hlt⟩
    rw [mem_blk4]
    intro a
    match a with
    | ⟨0, _⟩ =>
      show win1_4.index ⟨8 * ((i 0).val / 1024) + 7, hlt⟩ (0 : Fin 2) * 1024 ≤ (i 0).val
        ∧ (i 0).val < win1_4.index ⟨8 * ((i 0).val / 1024) + 7, hlt⟩ (0 : Fin 2) * 1024 + 1024
      rw [e40]; show (8 * ((i 0).val / 1024) + 7) / 8 * 1024 ≤ (i 0).val ∧ (i 0).val < (8 * ((i 0).val / 1024) + 7) / 8 * 1024 + 1024
      omega
    | ⟨1, _⟩ =>
      show win1_4.index ⟨8 * ((i 0).val / 1024) + 7, hlt⟩ (1 : Fin 2) * 128 ≤ (i 1).val
        ∧ (i 1).val < win1_4.index ⟨8 * ((i 0).val / 1024) + 7, hlt⟩ (1 : Fin 2) * 128 + 128
      rw [e41]; omega
  have hfin := (dat1 V c).arrAt_eq_of_cover 4 G hfl hcov
  intro a b
  rw [hfin]

end Cert.KernelIdeal.Out

end
-- ==== Proof.KI.OutPay.lean ====
/-
  The payloads of the output kernel read at an index, at the ideal instance.

  With the query block i and the key block j, the kernel forms the score tile s(r, c) = Σ_d' Q(r, d') · K(c, d'),
  the weights w(r, c) = exp (s(r, c) − lse(c)), and adds Σ_c w(r, c) · V(c, d) to the accumulator. When the blocks
  hold rows 1024 i + r of q and rows 1024 j + c of k and v, and the lse block holds the log-sum-exp of keys
  1024 j + c, the stored value at (r, d) is the accumulator there plus Σ_c wt(n, m_c) · v(m_c, d) with
  n = 1024 i + r and m_c = 1024 j + c: one more term of the recurrence accUpTo.
-/
import proofs.«180234_j36386962931993_1_alg».proof.Proof.Gen.KernelIdeal.Skeleton
import proofs.«180234_j36386962931993_1_alg».proof.Proof.Spec
import proofs.«180234_j36386962931993_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Mathlib.Data.EReal.Operations

noncomputable section

namespace Cert.KernelIdeal.OutPay

open Idealize.ShloMosaic Idealize.ShloMosaic.ValueIdx Cert.KernelIdeal Cert.KernelIdeal.Gen
open scoped BigOperators

/-- The coercion of a finite real sum is the sum of the coercions. -/
theorem coe_sum {ι : Type} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-! ## The first product: queries against keys, contracted along the feature axis -/

theorem lhs_qk_0 (i : S1024x1024.Idx) (p : dot_S1024x128_S128x1024_S1024x1024_1_0_0_1_n_n.contr.Idx) :
    (dot_S1024x128_S128x1024_S1024x1024_1_0_0_1_n_n.lhsIdx i p 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_qk_1 (i : S1024x1024.Idx) (p : dot_S1024x128_S128x1024_S1024x1024_1_0_0_1_n_n.contr.Idx) :
    (dot_S1024x128_S128x1024_S1024x1024_1_0_0_1_n_n.lhsIdx i p 1).val = (p ⟨0, by decide⟩).val :=
  dot_S1024x128_S128x1024_S1024x1024_1_0_0_1_n_n.lhsIdx_val_of_single rfl i p
theorem rhs_qk_0 (i : S1024x1024.Idx) (p : dot_S1024x128_S128x1024_S1024x1024_1_0_0_1_n_n.contr.Idx) :
    (dot_S1024x128_S128x1024_S1024x1024_1_0_0_1_n_n.rhsIdx i p 0).val = (p ⟨0, by decide⟩).val :=
  dot_S1024x128_S128x1024_S1024x1024_1_0_0_1_n_n.rhsIdx_val_of_single rfl i p
theorem rhs_qk_1 (i : S1024x1024.Idx) (p : dot_S1024x128_S128x1024_S1024x1024_1_0_0_1_n_n.contr.Idx) :
    (dot_S1024x128_S128x1024_S1024x1024_1_0_0_1_n_n.rhsIdx i p 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a [1024, 128] block with a [128, 1024] block into the zero accumulator, at (r, c). -/
theorem matmul_qk_apply (l : FVec Ideal S1024x128 .bf16) (rt : FVec Ideal S128x1024 .bf16) (r c : Fin 1024) :
    matmul dot_S1024x128_S128x1024_S1024x1024_1_0_0_1_n_n none l rt (constant (F := Ideal) S1024x1024 .f32 0x00000000#32) (ix2 r c)
      = ∑ e : Fin 128, l (ix2 r e) * rt (ix2 e c) := by
  simp only [matmul]
  rw [Ideal.matmul_constant_zero_apply, ← Equiv.sum_comp (contrEquiv1 dot_S1024x128_S128x1024_S1024x1024_1_0_0_1_n_n 128 rfl rfl).symm]
  refine Finset.sum_congr rfl fun e _ => ?_
  have he := contrEquiv1_symm_val dot_S1024x128_S128x1024_S1024x1024_1_0_0_1_n_n 128 rfl rfl e
  have el : dot_S1024x128_S128x1024_S1024x1024_1_0_0_1_n_n.lhsIdx (ix2 r c) ((contrEquiv1 dot_S1024x128_S128x1024_S1024x1024_1_0_0_1_n_n 128 rfl rfl).symm e) = ix2 r e := funext fun a => Fin.ext (by
    match a with
    | ⟨0, _⟩ => exact lhs_qk_0 _ _
    | ⟨1, _⟩ => exact (lhs_qk_1 _ _).trans he)
  have er : dot_S1024x128_S128x1024_S1024x1024_1_0_0_1_n_n.rhsIdx (ix2 r c) ((contrEquiv1 dot_S1024x128_S128x1024_S1024x1024_1_0_0_1_n_n 128 rfl rfl).symm e) = ix2 e c := funext fun a => Fin.ext (by
    match a with
    | ⟨0, _⟩ => exact (rhs_qk_0 _ _).trans he
    | ⟨1, _⟩ => exact rhs_qk_1 _ _)
  rw [el, er]

/-! ## The second product: weights against values, contracted along the key axis -/

theorem lhs_wv_0 (i : S1024x128.Idx) (p : dot_S1024x1024_S1024x128_S1024x128_1_0_0_1_n_n.contr.Idx) :
    (dot_S1024x1024_S1024x128_S1024x128_1_0_0_1_n_n.lhsIdx i p 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_wv_1 (i : S1024x128.Idx) (p : dot_S1024x1024_S1024x128_S1024x128_1_0_0_1_n_n.contr.Idx) :
    (dot_S1024x1024_S1024x128_S1024x128_1_0_0_1_n_n.lhsIdx i p 1).val = (p ⟨0, by decide⟩).val :=
  dot_S1024x1024_S1024x128_S1024x128_1_0_0_1_n_n.lhsIdx_val_of_single rfl i p
theorem rhs_wv_0 (i : S1024x128.Idx) (p : dot_S1024x1024_S1024x128_S1024x128_1_0_0_1_n_n.contr.Idx) :
    (dot_S1024x1024_S1024x128_S1024x128_1_0_0_1_n_n.rhsIdx i p 0).val = (p ⟨0, by decide⟩).val :=
  dot_S1024x1024_S1024x128_S1024x128_1_0_0_1_n_n.rhsIdx_val_of_single rfl i p
theorem rhs_wv_1 (i : S1024x128.Idx) (p : dot_S1024x1024_S1024x128_S1024x128_1_0_0_1_n_n.contr.Idx) :
    (dot_S1024x1024_S1024x128_S1024x128_1_0_0_1_n_n.rhsIdx i p 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a [1024, 1024] tile with a [1024, 128] block into the zero accumulator, at (r, d). -/
theorem matmul_wv_apply (l : FVec Ideal S1024x1024 .bf16) (rt : FVec Ideal S1024x128 .bf16) (r : Fin 1024) (d : Fin 128) :
    matmul dot_S1024x1024_S1024x128_S1024x128_1_0_0_1_n_n none l rt (constant (F := Ideal) S1024x128 .f32 0x00000000#32) (ix2 r d)
      = ∑ c : Fin 1024, l (ix2 r c) * rt (ix2 c d) := by
  simp only [matmul]
  rw [Ideal.matmul_constant_zero_apply, ← Equiv.sum_comp (contrEquiv1 dot_S1024x1024_S1024x128_S1024x128_1_0_0_1_n_n 1024 rfl rfl).symm]
  refine Finset.sum_congr rfl fun e _ => ?_
  have he := contrEquiv1_symm_val dot_S1024x1024_S1024x128_S1024x128_1_0_0_1_n_n 1024 rfl rfl e
  have el : dot_S1024x1024_S1024x128_S1024x128_1_0_0_1_n_n.lhsIdx (ix2 r d) ((contrEquiv1 dot_S1024x1024_S1024x128_S1024x128_1_0_0_1_n_n 1024 rfl rfl).symm e) = ix2 r e := funext fun a => Fin.ext (by
    match a with
    | ⟨0, _⟩ => exact lhs_wv_0 _ _
    | ⟨1, _⟩ => exact (lhs_wv_1 _ _).trans he)
  have er : dot_S1024x1024_S1024x128_S1024x128_1_0_0_1_n_n.rhsIdx (ix2 r d) ((contrEquiv1 dot_S1024x1024_S1024x128_S1024x128_1_0_0_1_n_n 1024 rfl rfl).symm e) = ix2 e d := funext fun a => Fin.ext (by
    match a with
    | ⟨0, _⟩ => exact (rhs_wv_0 _ _).trans he
    | ⟨1, _⟩ => exact rhs_wv_1 _ _)
  rw [el, er]

/-! ## The score tile, the weights and the stored value -/

/-- The score tile: the query block against the transposed key block. -/
def scoreTile (xQ xK : Vec Ideal S1024x128 .bf16) : FVec Ideal S1024x1024 .f32 :=
  matmul dot_S1024x128_S128x1024_S1024x1024_1_0_0_1_n_n none
    (shapeCast S1024x128 xQ shapeCasts_S1024x128_S1024x128 : FVec Ideal S1024x128 .bf16)
    (transpose S128x1024 [1, 0] (shapeCast S1024x128 xK shapeCasts_S1024x128_S1024x128 : FVec Ideal S1024x128 .bf16)
      transposes_S1024x128_p1_0_S128x1024 : FVec Ideal S128x1024 .bf16)
    (constant (F := Ideal) S1024x1024 .f32 0x00000000#32)

/-- The score tile at (r, c) is the sum over the feature axis of the query row r against the key row c. -/
theorem scoreTile_apply (xQ xK : Vec Ideal S1024x128 .bf16) (r c : Fin 1024) :
    scoreTile xQ xK (ix2 r c) = ∑ e : Fin 128, xQ (ix2 r e) * xK (ix2 c e) := by
  unfold scoreTile
  rw [matmul_qk_apply]
  refine Finset.sum_congr rfl fun e _ => ?_
  rw [shapeCast_self, shapeCast_self]
  refine congrArg (xQ (ix2 r e) * ·) ?_
  exact transpose_apply [1, 0] xK transposes_S1024x128_p1_0_S128x1024 (ix2 e c) (ix2 c e) (fun b => match b with
    | ⟨0, _⟩ => rfl
    | ⟨1, _⟩ => rfl)

/-- With the blocks holding rows of q and k, the score tile holds the scores. -/
theorem scoreTile_eq (q k : Cert.Spec.Mat 8192 128) (i j : ℕ) (xQ xK : Vec Ideal S1024x128 .bf16)
    (hQ : ∀ (r : Fin 1024) (d : Fin 128), xQ (ix2 r d) = ((q (Cert.Spec.gidx i r) d : ℝ) : EReal))
    (hK : ∀ (c : Fin 1024) (d : Fin 128), xK (ix2 c d) = ((k (Cert.Spec.gidx j c) d : ℝ) : EReal))
    (r c : Fin 1024) :
    scoreTile xQ xK (ix2 r c) = ((Cert.Spec.sc q k (Cert.Spec.gidx i r) (Cert.Spec.gidx j c) : ℝ) : EReal) := by
  rw [scoreTile_apply]
  unfold Cert.Spec.sc
  rw [coe_sum]
  refine Finset.sum_congr rfl fun e _ => ?_
  rw [hQ r e, hK c e, EReal.coe_mul]

/-- The weight tile: the exponential of the scores less the log-sum-exp row, in the narrow format. -/
def weightTile (xQ xK : Vec Ideal S1024x128 .bf16) (xL : Vec Ideal S1x1024 .f32) : FVec Ideal S1024x1024 .bf16 :=
  truncf .bf16
    (exp (subf (scoreTile xQ xK)
      (broadcastTo S1024x1024 (shapeCast S1x1024 xL shapeCasts_S1x1024_S1x1024 : FVec Ideal S1x1024 .f32)
        broadcasts_S1x1024_S1024x1024 : FVec Ideal S1024x1024 .f32)))
    bitsLt_bf16_f32

/-- The weight tile at (r, c) is exp (score(r, c) − lse(c)). -/
theorem weightTile_apply (xQ xK : Vec Ideal S1024x128 .bf16) (xL : Vec Ideal S1x1024 .f32) (r c : Fin 1024) :
    weightTile xQ xK xL (ix2 r c) = Ideal.exp (scoreTile xQ xK (ix2 r c) - xL (ix2 (0 : Fin 1) c)) := by
  unfold weightTile
  rw [shapeCast_self]
  show Ideal.exp (scoreTile xQ xK (ix2 r c) - broadcastTo S1024x1024 xL broadcasts_S1x1024_S1024x1024 (ix2 r c)) = _
  rw [broadcastTo_1b_ab_apply]

/-- With the blocks holding rows of q and k and the log-sum-exp of the keys, the weight tile holds the weights. -/
theorem weightTile_eq (q k : Cert.Spec.Mat 8192 128) (i j : ℕ) (xQ xK : Vec Ideal S1024x128 .bf16) (xL : Vec Ideal S1x1024 .f32)
    (hQ : ∀ (r : Fin 1024) (d : Fin 128), xQ (ix2 r d) = ((q (Cert.Spec.gidx i r) d : ℝ) : EReal))
    (hK : ∀ (c : Fin 1024) (d : Fin 128), xK (ix2 c d) = ((k (Cert.Spec.gidx j c) d : ℝ) : EReal))
    (hL : ∀ c : Fin 1024, xL (ix2 (0 : Fin 1) c) = ((Cert.Spec.lse q k (Cert.Spec.gidx j c) : ℝ) : EReal))
    (r c : Fin 1024) :
    weightTile xQ xK xL (ix2 r c) = ((Cert.Spec.wt q k (Cert.Spec.gidx i r) (Cert.Spec.gidx j c) : ℝ) : EReal) := by
  rw [weightTile_apply, scoreTile_eq q k i j xQ xK hQ hK r c, hL c, ← EReal.coe_sub]
  rfl

/-- The stored value is the accumulator plus the weight tile times the value block. -/
theorem k1_pay2_eq (xQ xK : Vec Ideal S1024x128 .bf16) (xL : Vec Ideal S1x1024 .f32) (acc : Vec Ideal S1024x128 .f32)
    (xV : Vec Ideal S1024x128 .bf16) :
    k1_pay2 xQ xK xL acc xV
      = shapeCast S1024x128
          (addf (acc : FVec Ideal S1024x128 .f32) (matmul dot_S1024x1024_S1024x128_S1024x128_1_0_0_1_n_n none (weightTile xQ xK xL)
            (shapeCast S1024x128 xV shapeCasts_S1024x128_S1024x128 : FVec Ideal S1024x128 .bf16)
            (constant (F := Ideal) S1024x128 .f32 0x00000000#32)) : FVec Ideal S1024x128 .f32)
          shapeCasts_S1024x128_S1024x128 := rfl

/-- The stored value at (r, d): the accumulator there plus one key block's contribution. -/
theorem k1_pay2_apply (q k v : Cert.Spec.Mat 8192 128) (i j : ℕ) (xQ xK : Vec Ideal S1024x128 .bf16) (xL : Vec Ideal S1x1024 .f32)
    (acc : Vec Ideal S1024x128 .f32) (xV : Vec Ideal S1024x128 .bf16)
    (hQ : ∀ (r : Fin 1024) (d : Fin 128), xQ (ix2 r d) = ((q (Cert.Spec.gidx i r) d : ℝ) : EReal))
    (hK : ∀ (c : Fin 1024) (d : Fin 128), xK (ix2 c d) = ((k (Cert.Spec.gidx j c) d : ℝ) : EReal))
    (hV : ∀ (c : Fin 1024) (d : Fin 128), xV (ix2 c d) = ((v (Cert.Spec.gidx j c) d : ℝ) : EReal))
    (hL : ∀ c : Fin 1024, xL (ix2 (0 : Fin 1) c) = ((Cert.Spec.lse q k (Cert.Spec.gidx j c) : ℝ) : EReal))
    (r : Fin 1024) (d : Fin 128) :
    k1_pay2 xQ xK xL acc xV (ix2 r d)
      = acc (ix2 r d)
        + ((∑ c : Fin 1024, Cert.Spec.wt q k (Cert.Spec.gidx i r) (Cert.Spec.gidx j c) * v (Cert.Spec.gidx j c) d : ℝ) : EReal) := by
  rw [k1_pay2_eq, shapeCast_self]
  show acc (ix2 r d) + _ = _
  refine congrArg (acc (ix2 r d) + ·) ?_
  rw [matmul_wv_apply, coe_sum]
  refine Finset.sum_congr rfl fun c _ => ?_
  rw [weightTile_eq q k i j xQ xK xL hQ hK hL r c, shapeCast_self, hV c d, EReal.coe_mul]

/-- The first key block: from the zero accumulator the stored value is the first partial result. -/
theorem k1_pay2_first (q k v : Cert.Spec.Mat 8192 128) (i : ℕ) (xQ xK : Vec Ideal S1024x128 .bf16) (xL : Vec Ideal S1x1024 .f32)
    (xV : Vec Ideal S1024x128 .bf16)
    (hQ : ∀ (r : Fin 1024) (d : Fin 128), xQ (ix2 r d) = ((q (Cert.Spec.gidx i r) d : ℝ) : EReal))
    (hK : ∀ (c : Fin 1024) (d : Fin 128), xK (ix2 c d) = ((k (Cert.Spec.gidx 0 c) d : ℝ) : EReal))
    (hV : ∀ (c : Fin 1024) (d : Fin 128), xV (ix2 c d) = ((v (Cert.Spec.gidx 0 c) d : ℝ) : EReal))
    (hL : ∀ c : Fin 1024, xL (ix2 (0 : Fin 1) c) = ((Cert.Spec.lse q k (Cert.Spec.gidx 0 c) : ℝ) : EReal))
    (r : Fin 1024) (d : Fin 128) :
    k1_pay2 xQ xK xL (k1_pay1 (F := Ideal)) xV (ix2 r d)
      = ((Cert.Spec.accUpTo q k v (Cert.Spec.gidx i r) d 0 : ℝ) : EReal) := by
  rw [k1_pay2_apply q k v i 0 xQ xK xL (k1_pay1 (F := Ideal)) xV hQ hK hV hL r d]
  have hz : (k1_pay1 (F := Ideal)) (ix2 r d) = 0 := by
    unfold k1_pay1
    rw [shapeCast_self]
    exact Ideal.ofBits_zero_f32
  rw [hz, zero_add]
  rfl

/-- A later key block: the stored value continues the recurrence. -/
theorem k1_pay2_step (q k v : Cert.Spec.Mat 8192 128) (i J : ℕ) (xQ xK : Vec Ideal S1024x128 .bf16) (xL : Vec Ideal S1x1024 .f32)
    (acc : Vec Ideal S1024x128 .f32) (xV : Vec Ideal S1024x128 .bf16)
    (hQ : ∀ (r : Fin 1024) (d : Fin 128), xQ (ix2 r d) = ((q (Cert.Spec.gidx i r) d : ℝ) : EReal))
    (hK : ∀ (c : Fin 1024) (d : Fin 128), xK (ix2 c d) = ((k (Cert.Spec.gidx (J + 1) c) d : ℝ) : EReal))
    (hV : ∀ (c : Fin 1024) (d : Fin 128), xV (ix2 c d) = ((v (Cert.Spec.gidx (J + 1) c) d : ℝ) : EReal))
    (hL : ∀ c : Fin 1024, xL (ix2 (0 : Fin 1) c) = ((Cert.Spec.lse q k (Cert.Spec.gidx (J + 1) c) : ℝ) : EReal))
    (hacc : ∀ (r : Fin 1024) (d : Fin 128), acc (ix2 r d) = ((Cert.Spec.accUpTo q k v (Cert.Spec.gidx i r) d J : ℝ) : EReal))
    (r : Fin 1024) (d : Fin 128) :
    k1_pay2 xQ xK xL acc xV (ix2 r d)
      = ((Cert.Spec.accUpTo q k v (Cert.Spec.gidx i r) d (J + 1) : ℝ) : EReal) := by
  rw [k1_pay2_apply q k v i (J + 1) xQ xK xL acc xV hQ hK hV hL r d, hacc r d, ← EReal.coe_add]
  rfl

end Cert.KernelIdeal.OutPay

end
-- ==== Proof.KI.OutValue.lean ====
/-
  The value of the output region at the ideal instance.

  Point t = 8 i + j of the grid works on query block i and key block j. The accumulator starts, at j = 0, from
  zero, and every point adds Σ_c wt(n, m_c) · v(m_c, d) over the 1024 keys m_c of its key block, for the query rows
  n = 1024 i + r: after point t it holds accUpTo of those rows at J = j (induction on the point). At j = 7 the
  accumulator is stored to the output block, which is written back to rows 1024 i … 1024 i + 1023 of the result;
  accUpTo at J = 7 is the softmax-weighted sum, and the eight written blocks tile the result.
-/
import proofs.«180234_j36386962931993_1_alg».proof.Proof.KI.OutData
import proofs.«180234_j36386962931993_1_alg».proof.Proof.KI.OutRead
import proofs.«180234_j36386962931993_1_alg».proof.Proof.KI.OutBlocks
import proofs.«180234_j36386962931993_1_alg».proof.Proof.KI.OutPay
import proofs.«180234_j36386962931993_1_alg».proof.Proof.Spec
import Idealize.ShloMosaic.Lib.ValueIdx

noncomputable section

namespace Cert.KernelIdeal.Out

open Idealize.ShloMosaic Idealize.ShloMosaic.TcCoe Idealize.ShloMosaic.ValueIdx Idealize.SL.Sem
open Cert.KernelIdeal Cert.KernelIdeal.Gen

section Value

variable (V : (c : Dev nD) → (b : Ref sig .tc) → Buf (Elt Ideal) ((c : Thread nD τ).loc b)) (c : Dev nD)
variable (q k v : Cert.Spec.Mat 8192 128)
variable (hQ : ∀ (a : Fin 8192) (b : Fin 128), (V c main_v0 : S8192x128.Idx → EReal) (ix2 a b) = ((q a b : ℝ) : EReal))
variable (hK : ∀ (a : Fin 8192) (b : Fin 128), (V c main_v1 : S8192x128.Idx → EReal) (ix2 a b) = ((k a b : ℝ) : EReal))
variable (hV : ∀ (a : Fin 8192) (b : Fin 128), (V c main_v2 : S8192x128.Idx → EReal) (ix2 a b) = ((v a b : ℝ) : EReal))
variable (hL : ∀ b : Fin 8192, (V c main_v3 : S1x8192.Idx → EReal) (ix2 (0 : Fin 1) b) = ((Cert.Spec.lse q k b : ℝ) : EReal))

/-! ## The input blocks at a point -/

/-- The query, key, value and log-sum-exp blocks at point t, by their literal types. -/
abbrev qblk (t : Fin cfg1.N) : Vec Ideal S1024x128 .bf16 := iblk1 V c 0 t
abbrev kblk (t : Fin cfg1.N) : Vec Ideal S1024x128 .bf16 := iblk1 V c 1 t
abbrev vblk (t : Fin cfg1.N) : Vec Ideal S1024x128 .bf16 := iblk1 V c 2 t
abbrev lblk (t : Fin cfg1.N) : Vec Ideal S1x1024 .f32 := iblk1 V c 3 t

include hQ in
/-- The query block holds rows 1024 i + r of q, i the first grid coordinate. -/
theorem qblk_eq (t : Fin cfg1.N) (i : ℕ) (hi : t.val / 8 = i) (r : Fin 1024) (d : Fin 128) :
    qblk V c t (ix2 r d) = ((q (Cert.Spec.gidx i r) d : ℝ) : EReal) := by
  subst hi
  exact (iblk1_0_apply (F := Ideal) V c t r d).trans (hQ (Cert.Spec.gidx (t.val / 8) r) d)

include hK in
/-- The key block holds rows 1024 j + r of k, j the second grid coordinate. -/
theorem kblk_eq (t : Fin cfg1.N) (j : ℕ) (hj : t.val % 8 = j) (r : Fin 1024) (d : Fin 128) :
    kblk V c t (ix2 r d) = ((k (Cert.Spec.gidx j r) d : ℝ) : EReal) := by
  subst hj
  exact (iblk1_1_apply (F := Ideal) V c t r d).trans (hK (Cert.Spec.gidx (t.val % 8) r) d)

include hV in
/-- The value block holds rows 1024 j + r of v. -/
theorem vblk_eq (t : Fin cfg1.N) (j : ℕ) (hj : t.val % 8 = j) (r : Fin 1024) (d : Fin 128) :
    vblk V c t (ix2 r d) = ((v (Cert.Spec.gidx j r) d : ℝ) : EReal) := by
  subst hj
  exact (iblk1_2_apply (F := Ideal) V c t r d).trans (hV (Cert.Spec.gidx (t.val % 8) r) d)

include hL in
/-- The log-sum-exp block holds the log-sum-exp of keys 1024 j + r. -/
theorem lblk_eq (t : Fin cfg1.N) (j : ℕ) (hj : t.val % 8 = j) (r : Fin 1024) :
    lblk V c t (ix2 (0 : Fin 1) r) = ((Cert.Spec.lse q k (Cert.Spec.gidx j r) : ℝ) : EReal) := by
  subst hj
  exact (iblk1_3_apply (F := Ideal) V c t r).trans (hL (Cert.Spec.gidx (t.val % 8) r))

/-! ## The accumulator over the grid -/

include hQ hK hV hL in
/-- After point n the accumulator holds, at (r, d), accUpTo of query row 1024 (n / 8) + r at J = n % 8: a point with
    n % 8 = 0 starts the recurrence from the zero fill, every other point continues it from what the point before
    left (which has the same n / 8 and J one less). -/
theorem acc_inv : ∀ (n : ℕ) (hn : n < cfg1.N) (r : Fin 1024) (d : Fin 128),
    ((outsAt1 V c n hn).2 : Vec Ideal S1024x128 .f32) (ix2 r d)
      = ((Cert.Spec.accUpTo q k v (Cert.Spec.gidx (n / 8) r) d (n % 8) : ℝ) : EReal) := by
  intro n
  induction n with
  | zero =>
    intro hn r d
    refine (congrFun (outsAt1_A_snd (F := Ideal) V c ⟨0, hn⟩ (Nat.zero_mod 8) (show ¬((0 : ℕ) % 8 = 7) by decide)) (ix2 r d)).trans ?_
    exact OutPay.k1_pay2_first q k v (0 / 8) (qblk V c ⟨0, hn⟩) (kblk V c ⟨0, hn⟩) (lblk V c ⟨0, hn⟩) (vblk V c ⟨0, hn⟩)
      (qblk_eq V c q hQ ⟨0, hn⟩ (0 / 8) rfl) (kblk_eq V c k hK ⟨0, hn⟩ 0 rfl) (vblk_eq V c v hV ⟨0, hn⟩ 0 rfl)
      (lblk_eq V c q k hL ⟨0, hn⟩ 0 rfl) r d
  | succ n ih =>
    intro hn r d
    have hN : n + 1 < 64 := lt_of_lt_of_eq hn (show cfg1.N = 64 from N_1)
    by_cases h0 : (n + 1) % 8 = 0
    · have h1 : ¬(n + 1) % 8 = 7 := by omega
      refine (congrFun (outsAt1_A_snd (F := Ideal) V c ⟨n + 1, hn⟩ h0 h1) (ix2 r d)).trans ?_
      rw [h0]
      exact OutPay.k1_pay2_first q k v ((n + 1) / 8) (qblk V c ⟨n + 1, hn⟩) (kblk V c ⟨n + 1, hn⟩) (lblk V c ⟨n + 1, hn⟩) (vblk V c ⟨n + 1, hn⟩)
        (qblk_eq V c q hQ ⟨n + 1, hn⟩ ((n + 1) / 8) rfl) (kblk_eq V c k hK ⟨n + 1, hn⟩ 0 h0) (vblk_eq V c v hV ⟨n + 1, hn⟩ 0 h0)
        (lblk_eq V c q k hL ⟨n + 1, hn⟩ 0 h0) r d
    · have hJ : (n + 1) % 8 = n % 8 + 1 := by omega
      have hI : n / 8 = (n + 1) / 8 := by omega
      have hacc : ∀ (r : Fin 1024) (d : Fin 128),
          ((outsAt1 V c ((⟨n + 1, hn⟩ : Fin cfg1.N).val - 1) (Nat.lt_of_le_of_lt (Nat.sub_le _ _) (⟨n + 1, hn⟩ : Fin cfg1.N).isLt)).2 : Vec Ideal S1024x128 .f32) (ix2 r d)
            = ((Cert.Spec.accUpTo q k v (Cert.Spec.gidx ((n + 1) / 8) r) d (n % 8) : ℝ) : EReal) := by
        intro r d
        rw [← hI]
        exact ih (Nat.lt_of_succ_lt hn) r d
      have step := OutPay.k1_pay2_step q k v ((n + 1) / 8) (n % 8) (qblk V c ⟨n + 1, hn⟩) (kblk V c ⟨n + 1, hn⟩) (lblk V c ⟨n + 1, hn⟩)
        ((outsAt1 V c ((⟨n + 1, hn⟩ : Fin cfg1.N).val - 1) (Nat.lt_of_le_of_lt (Nat.sub_le _ _) (⟨n + 1, hn⟩ : Fin cfg1.N).isLt)).2)
        (vblk V c ⟨n + 1, hn⟩)
        (qblk_eq V c q hQ ⟨n + 1, hn⟩ ((n + 1) / 8) rfl) (kblk_eq V c k hK ⟨n + 1, hn⟩ (n % 8 + 1) hJ) (vblk_eq V c v hV ⟨n + 1, hn⟩ (n % 8 + 1) hJ)
        (lblk_eq V c q k hL ⟨n + 1, hn⟩ (n % 8 + 1) hJ) hacc r d
      rw [hJ]
      by_cases h1 : (n + 1) % 8 = 7
      · exact (congrFun (outsAt1_C_snd (F := Ideal) V c ⟨n + 1, hn⟩ h0 h1) (ix2 r d)).trans step
      · exact (congrFun (outsAt1_B_snd (F := Ideal) V c ⟨n + 1, hn⟩ h0 h1) (ix2 r d)).trans step

/-! ## The output block where it is written back -/

include hQ hK hV hL in
/-- Where the accumulator is stored to the output block (second coordinate 7) the block holds what the accumulator
    holds, accUpTo at J = 7: the finished rows 1024 (t / 8) + r of the result. -/
theorem out_blk (t : Fin cfg1.N) (h7 : t.val % 8 = 7) (r : Fin 1024) (d : Fin 128) :
    ((dat1 V c).after 4 t : Vec Ideal S1024x128 .f32) (ix2 r d)
      = ((Cert.Spec.outR q k v (Cert.Spec.gidx (t.val / 8) r) d : ℝ) : EReal) := by
  have h0 : ¬t.val % 8 = 0 := by omega
  rw [after1_4]
  refine (congrFun (outsAt1_C_fst (F := Ideal) V c t h0 h7) (ix2 r d)).trans ?_
  refine ((congrFun (outsAt1_C_snd (F := Ideal) V c t h0 h7) (ix2 r d)).symm.trans (acc_inv V c q k v hQ hK hV hL t.val t.isLt r d)).trans ?_
  rw [h7, Cert.Spec.accUpTo_last]

/-- The result as contents of the output array. -/
abbrev outG : S8192x128.Idx → Elt Ideal .f32 :=
  fun i => ((Cert.Spec.outR q k v ⟨(i 0).val, (i 0).isLt⟩ ⟨(i 1).val, (i 1).isLt⟩ : ℝ) : EReal)

end Value

/-- After the output region the result array holds, at (a, b), the softmax-weighted sum. -/
theorem out_array (V : (c : Dev nD) → (b : Ref sig .tc) → Buf (Elt Ideal) ((c : Thread nD τ).loc b)) (c : Dev nD) (q k v : Cert.Spec.Mat 8192 128)
    (hQ : ∀ (a : Fin 8192) (b : Fin 128), (V c main_v0 : S8192x128.Idx → EReal) (ix2 a b) = ((q a b : ℝ) : EReal))
    (hK : ∀ (a : Fin 8192) (b : Fin 128), (V c main_v1 : S8192x128.Idx → EReal) (ix2 a b) = ((k a b : ℝ) : EReal))
    (hV : ∀ (a : Fin 8192) (b : Fin 128), (V c main_v2 : S8192x128.Idx → EReal) (ix2 a b) = ((v a b : ℝ) : EReal))
    (hL : ∀ b : Fin 8192, (V c main_v3 : S1x8192.Idx → EReal) (ix2 (0 : Fin 1) b) = ((Cert.Spec.lse q k b : ℝ) : EReal)) :
    ∀ (a : Fin 8192) (b : Fin 128), ((dat1 (F := Ideal) V c).arrAt 4 cfg1.N : S8192x128.Idx → EReal) (ix2 a b) = ((Cert.Spec.outR q k v a b : ℝ) : EReal) :=
  arr4_of_flushed (F := Ideal) V c (outG q k v) (fun t h7 r d => out_blk V c q k v hQ hK hV hL t h7 r d)

end Cert.KernelIdeal.Out

end
-- ==== Proof.OutArr.lean ====
/-
  The result as an array of extended reals: at index (a, b) the real number out(a, b) of the specification.
-/
import proofs.«180234_j36386962931993_1_alg».proof.Proof.Spec
import Idealize.ShloMosaic.Lib.ValueIdx

noncomputable section

namespace Cert.Spec

open Idealize.ShloMosaic Idealize.ShloMosaic.ValueIdx

/-- The specification's result laid out over the index set of an f32[8192, 128] array. -/
def outArr (q k v : Mat 8192 128) : (⟨2, ![8192, 128]⟩ : Shape).Idx → EReal :=
  fun i => ((outR q k v ⟨(i 0).val, idx2_lt0 i⟩ ⟨(i 1).val, idx2_lt1 i⟩ : ℝ) : EReal)

theorem outArr_ix2 (q k v : Mat 8192 128) (a : Fin 8192) (b : Fin 128) :
    outArr q k v (ix2 a b) = ((outR q k v a b : ℝ) : EReal) := rfl

/-- An array that agrees with the specification at every pair of coordinates is the specification's array. -/
theorem eq_outArr (q k v : Mat 8192 128) (x : (⟨2, ![8192, 128]⟩ : Shape).Idx → EReal)
    (h : ∀ (a : Fin 8192) (b : Fin 128), x (ix2 a b) = ((outR q k v a b : ℝ) : EReal)) : x = outArr q k v := by
  funext i
  rw [eq_ix2 i]
  exact h _ _

end Cert.Spec

end
-- ==== Proof.KI.KernelValue.lean ====
/-
  The kernel's run with its result named, over the extended reals.

  Suppose the three argument arrays hold, entrywise, the real matrices q, k, v.  The host's format changes
  are the identity on extended reals, so the statistics region is entered with q and k in its two input
  arrays and leaves the log-sum-exp lse(m) = mx(m) + log den(m) of every key m in its output array.  The
  output region is entered with q, k, v and that array, and leaves out(n, d) = Σ_m exp (s(n, m) − lse(m)) · v(m, d)
  at every (n, d) of the result.  Every weakly fair execution terminates with the result array equal to the
  specification's array and the three arguments as launched.
-/
import proofs.«180234_j36386962931993_1_alg».proof.Proof.KI.Whole
import proofs.«180234_j36386962931993_1_alg».proof.Proof.KI.StatsValue
import proofs.«180234_j36386962931993_1_alg».proof.Proof.KI.OutValue
import proofs.«180234_j36386962931993_1_alg».proof.Proof.OutArr
import Idealize.ShloMosaic.Lib.ValueIdx

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stats Cert.KernelIdeal.Out
open Idealize.ShloMosaic.ValueIdx

variable (m : (ℓ : Loc nD τ sig) → Buf (Elt Ideal) ℓ) (ρ : Dev nD → PrngReg)

/-! ## The bf16 copies hold the arguments' entries

A narrowing format change is the identity on extended reals, so each copy read at an index is the argument read there. -/

theorem V1_v0_entry (c : Dev nD) (i : S8192x128.Idx) :
    (V1 m ρ c main_v0 : S8192x128.Idx → EReal) i = (m ((c.tc : Thread nD τ).loc main_arg0) : S8192x128.Idx → EReal) i := by
  rw [V1_main_v0]; rfl
theorem V1_v1_entry (c : Dev nD) (i : S8192x128.Idx) :
    (V1 m ρ c main_v1 : S8192x128.Idx → EReal) i = (m ((c.tc : Thread nD τ).loc main_arg1) : S8192x128.Idx → EReal) i := by
  rw [V1_main_v1]; rfl
theorem V1_v2_entry (c : Dev nD) (i : S8192x128.Idx) :
    (V1 m ρ c main_v2 : S8192x128.Idx → EReal) i = (m ((c.tc : Thread nD τ).loc main_arg2) : S8192x128.Idx → EReal) i := by
  rw [V1_main_v2]; rfl

/-! ## What each region is entered with -/

section
variable (q k v : Dev nD → Cert.Spec.Mat 8192 128)

/-- The output region is entered with the same three copies: the statistics region wrote none of them. -/
theorem V2_v0_entry (c : Dev nD) (i : S8192x128.Idx) :
    (V2 m ρ c main_v0 : S8192x128.Idx → EReal) i = (m ((c.tc : Thread nD τ).loc main_arg0) : S8192x128.Idx → EReal) i := by
  rw [V2_main_v0]; exact V1_v0_entry m ρ c i
theorem V2_v1_entry (c : Dev nD) (i : S8192x128.Idx) :
    (V2 m ρ c main_v1 : S8192x128.Idx → EReal) i = (m ((c.tc : Thread nD τ).loc main_arg1) : S8192x128.Idx → EReal) i := by
  rw [V2_main_v1]; exact V1_v1_entry m ρ c i
theorem V2_v2_entry (c : Dev nD) (i : S8192x128.Idx) :
    (V2 m ρ c main_v2 : S8192x128.Idx → EReal) i = (m ((c.tc : Thread nD τ).loc main_arg2) : S8192x128.Idx → EReal) i := by
  rw [V2_main_v2]; exact V1_v2_entry m ρ c i

/-- The output region's fourth input is the statistics region's output: the log-sum-exp of every key. -/
theorem V2_v3_entry
    (h0 : ∀ (c : Dev nD) (a : Fin 8192) (b : Fin 128), (m ((c.tc : Thread nD τ).loc main_arg0) : S8192x128.Idx → EReal) (ix2 a b) = ((q c a b : ℝ) : EReal))
    (h1 : ∀ (c : Dev nD) (a : Fin 8192) (b : Fin 128), (m ((c.tc : Thread nD τ).loc main_arg1) : S8192x128.Idx → EReal) (ix2 a b) = ((k c a b : ℝ) : EReal))
    (c : Dev nD) (b : Fin 8192) :
    (V2 m ρ c main_v3 : S1x8192.Idx → EReal) (ix2 (0 : Fin 1) b) = ((Cert.Spec.lse (q c) (k c) b : ℝ) : EReal) := by
  have e := Cert.KernelIdeal.Stats.lse_array (V1 m ρ) c (q c) (k c)
    (fun a b => (V1_v0_entry m ρ c (ix2 a b)).trans (h0 c a b))
    (fun a b => (V1_v1_entry m ρ c (ix2 a b)).trans (h1 c a b)) b
  rw [V2_main_v3]
  exact e

/-- The output region's final array is the specification's array: they agree at every pair of coordinates. -/
theorem result_eq
    (h0 : ∀ (c : Dev nD) (a : Fin 8192) (b : Fin 128), (m ((c.tc : Thread nD τ).loc main_arg0) : S8192x128.Idx → EReal) (ix2 a b) = ((q c a b : ℝ) : EReal))
    (h1 : ∀ (c : Dev nD) (a : Fin 8192) (b : Fin 128), (m ((c.tc : Thread nD τ).loc main_arg1) : S8192x128.Idx → EReal) (ix2 a b) = ((k c a b : ℝ) : EReal))
    (h2 : ∀ (c : Dev nD) (a : Fin 8192) (b : Fin 128), (m ((c.tc : Thread nD τ).loc main_arg2) : S8192x128.Idx → EReal) (ix2 a b) = ((v c a b : ℝ) : EReal))
    (c : Dev nD) :
    ((dat1 (F := Ideal) (V2 m ρ) c).arrAt 4 cfg1.N : S8192x128.Idx → EReal) = Cert.Spec.outArr (q c) (k c) (v c) := by
  have e := Cert.KernelIdeal.Out.out_array (V2 m ρ) c (q c) (k c) (v c)
    (fun a b => (V2_v0_entry m ρ c (ix2 a b)).trans (h0 c a b))
    (fun a b => (V2_v1_entry m ρ c (ix2 a b)).trans (h1 c a b))
    (fun a b => (V2_v2_entry m ρ c (ix2 a b)).trans (h2 c a b))
    (V2_v3_entry m ρ q k h0 h1 c)
  exact Cert.Spec.eq_outArr (q c) (k c) (v c) _ e

/-! ## The run -/

/-- With real inputs q, k, v the program terminates with the result array at the specification's out(q, k, v),
    and the three argument arrays unchanged. -/
theorem kernel_run
    (h0 : ∀ (c : Dev nD) (a : Fin 8192) (b : Fin 128), (m ((c.tc : Thread nD τ).loc main_arg0) : S8192x128.Idx → EReal) (ix2 a b) = ((q c a b : ℝ) : EReal))
    (h1 : ∀ (c : Dev nD) (a : Fin 8192) (b : Fin 128), (m ((c.tc : Thread nD τ).loc main_arg1) : S8192x128.Idx → EReal) (ix2 a b) = ((k c a b : ℝ) : EReal))
    (h2 : ∀ (c : Dev nD) (a : Fin 8192) (b : Fin 128), (m ((c.tc : Thread nD τ).loc main_arg2) : S8192x128.Idx → EReal) (ix2 a b) = ((v c a b : ℝ) : EReal)) :
    θ_run (defs (F := Ideal)) (onTc (τ := τ) (main (F := Ideal))) ⟨m, fun _ => 0, ρ⟩ (fun r => ∀ c : Dev nD,
        r.2.mem ((c.tc : Thread nD τ).loc main_v4) = Cert.Spec.outArr (q c) (k c) (v c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (defs (F := Ideal)) _ _).mono
    (fun r h c => ⟨(h c).1.trans (result_eq m ρ q k v h0 h1 h2 c), (h c).2⟩) (run_result (F := Ideal) m ρ)

end

end Cert.KernelIdeal.Whole

end
-- ==== Proof.RefIsSpec.lean ====
/-
  The reference computes the specification.

  The reference forms the scores s(n, m) = Σ_d Q(n, d) · K(m, d), takes for every key m the maximum of s(·, m) over
  the queries (a maximum-reduction from −∞), subtracts it, exponentiates, sums the exponentials over the queries,
  divides, and multiplies the normalised weights into V.  On inputs that are real numbers every stage is the real
  one: the maximum over the queries of real scores from −∞ is their real maximum, the exponential of a real is the
  real exponential, the sum of the exponentials is a positive real, so the quotient is the real quotient, and the
  last product-sum is the real one.  Each stage is read at an index with symbolic coordinates; the result at (a, b)
  is the softmax along the query axis applied to V, the specification's outR.
-/
import proofs.«180234_j36386962931993_1_alg».proof.Proof.Gen.ReferenceIdeal.Read
import proofs.«180234_j36386962931993_1_alg».proof.Proof.Spec
import Mathlib.Data.EReal.Operations
import Mathlib.Data.EReal.Inv
import Mathlib.Order.Monotone.Basic
import Mathlib.Data.Finset.Lattice.Fold

noncomputable section

namespace Cert.RefSide

open Idealize.ShloMosaic Idealize.ShloMosaic.ValueIdx Cert.ReferenceIdeal Cert.ReferenceIdeal.Gen Cert.ReferenceIdeal.Read
open scoped BigOperators

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- Folding the maximum from −∞ over real values gives the real maximum of the family. -/
theorem fold_max_bot_coe {ι : Type} [Fintype ι] [Nonempty ι] (f : ι → ℝ) :
    (Finset.univ : Finset ι).fold max (⊥ : EReal) (fun i => (f i : EReal))
      = ((Finset.univ.sup' Finset.univ_nonempty f : ℝ) : EReal) := by
  have h1 : (Finset.univ : Finset ι).fold max (⊥ : EReal) (fun i => (f i : EReal))
      = Finset.univ.sup (fun i => (f i : EReal)) := rfl
  rw [h1, ← Finset.sup'_eq_sup Finset.univ_nonempty]
  exact (Finset.comp_sup'_eq_sup'_comp Finset.univ_nonempty (fun r : ℝ => (r : EReal)) coe_max).symm

section Stages

variable (x0 x1 x2 : (⟨S8192x128, .f32⟩ : BufTy).Contents (Elt Ideal)) (q k v : Cert.Spec.Mat 8192 128)

/-- The score matrix: entry (n, m) of Q · Kᵀ is the real score of query n against key m. -/
theorem v1_at (h0 : ∀ (a : Fin 8192) (b : Fin 128), x0 (ix2 a b) = ((q a b : ℝ) : EReal))
    (h1 : ∀ (a : Fin 8192) (b : Fin 128), x1 (ix2 a b) = ((k a b : ℝ) : EReal)) (n m : Fin 8192) :
    val_main_v1 (F := Ideal) x0 x1 (ix2 n m) = ((Cert.Spec.sc q k n m : ℝ) : EReal) := by
  rw [val_main_v1_apply]
  unfold Cert.Spec.sc
  rw [coe_sum]
  refine Finset.sum_congr rfl fun d _ => ?_
  rw [val_main_v0_apply]
  have e1 : lidx_main_v1 (ix2 n m) d = ix2 n d := funext fun a => match a with | ⟨0, _⟩ => rfl | ⟨1, _⟩ => rfl
  have e2 : idx_main_v0 (ridx_main_v1 (ix2 n m) d) = ix2 m d := funext fun a => match a with | ⟨0, _⟩ => rfl | ⟨1, _⟩ => rfl
  rw [e1, e2, h0, h1]
  exact (EReal.coe_mul _ _).symm

/-- The pattern of −∞ denotes the bottom element. -/
theorem ofBits_neg_inf : Ideal.ofBits .f32 0xFF800000#32 = (⊥ : EReal) := by
  simp [Ideal.ofBits, Ideal.ieee]

/-- The reduced index m with the row coordinate n put back is (n, m). -/
theorem lift_rows (h : S8192x8192.Reduces [0] S8192) (m : Fin 8192) (n : Fin (S8192x8192.size 0)) :
    h.lift (ix1 m) n = ix2 (⟨n.val, n.isLt⟩ : Fin 8192) m := by
  funext c; apply Fin.ext
  match c with
  | ⟨0, _⟩ => rfl
  | ⟨1, _⟩ => rfl

/-- The column maximum: the maximum-reduction of the scores over the query axis, from −∞, at key m, is the
    largest score of key m. -/
theorem v2_at (h0 : ∀ (a : Fin 8192) (b : Fin 128), x0 (ix2 a b) = ((q a b : ℝ) : EReal))
    (h1 : ∀ (a : Fin 8192) (b : Fin 128), x1 (ix2 a b) = ((k a b : ℝ) : EReal)) (m : Fin 8192) :
    val_main_v2 (F := Ideal) x0 x1 (ix1 m) = ((Cert.Spec.mx q k m : ℝ) : EReal) := by
  unfold val_main_v2
  have hv : ∀ n m : Fin 8192, val_main_v1 (F := Ideal) x0 x1 (ix2 n m) = ((Cert.Spec.sc q k n m : ℝ) : EReal) :=
    v1_at x0 x1 q k h0 h1
  generalize val_main_v1 (F := Ideal) x0 x1 = y at hv ⊢
  have hred : S8192x8192.Reduces [0] S8192 := by decide
  refine (Host.reduce_eq_fold_single (FloatOps.maximumf (F := Ideal) (φ := .f32)) y (val_main_cst (F := Ideal))
    reducesTo_S8192x8192_S8192_d0 hred h_S_ (ix1 m)).trans ?_
  have hinit : (val_main_cst (F := Ideal) (Shape.Idx.first h_S_) : EReal) = (⊥ : EReal) := by
    rw [val_main_cst_apply]; exact ofBits_neg_inf
  have hf : ((y ∘ hred.lift (ix1 m) : Fin 8192 → EReal)) = fun n : Fin 8192 => ((Cert.Spec.sc q k n m : ℝ) : EReal) :=
    funext fun n => by
      show y (hred.lift (ix1 m) n) = _
      rw [lift_rows hred m n]; exact hv _ _
  have e := fold_max_bot_coe (fun n : Fin 8192 => Cert.Spec.sc q k n m)
  unfold Cert.Spec.mx
  refine Eq.trans ?_ e
  exact congrArg₂ (fun (b : EReal) (f : Fin 8192 → EReal) => Finset.fold max b f (Finset.univ : Finset (Fin 8192))) hinit hf

/-- The maximum with the broadcast −∞ changes nothing. -/
theorem v4_at (h0 : ∀ (a : Fin 8192) (b : Fin 128), x0 (ix2 a b) = ((q a b : ℝ) : EReal))
    (h1 : ∀ (a : Fin 8192) (b : Fin 128), x1 (ix2 a b) = ((k a b : ℝ) : EReal)) (m : Fin 8192) :
    val_main_v4 (F := Ideal) x0 x1 (ix1 m) = ((Cert.Spec.mx q k m : ℝ) : EReal) := by
  rw [val_main_v4_apply, v2_at x0 x1 q k h0 h1 m, val_main_v3_apply, val_main_cst_0_apply]
  show max (Ideal.ofBits .f32 0xFF800000#32) _ = _
  rw [ofBits_neg_inf]
  exact max_eq_right bot_le

/-- The column maximum broadcast over the rows, read at (n, m). -/
theorem v6_at (h0 : ∀ (a : Fin 8192) (b : Fin 128), x0 (ix2 a b) = ((q a b : ℝ) : EReal))
    (h1 : ∀ (a : Fin 8192) (b : Fin 128), x1 (ix2 a b) = ((k a b : ℝ) : EReal)) (n m : Fin 8192) :
    val_main_v6 (F := Ideal) x0 x1 (ix2 n m) = ((Cert.Spec.mx q k m : ℝ) : EReal) := by
  rw [val_main_v6_apply, val_main_v5_apply]
  have e : idx_main_v5 (idx_main_v6 (ix2 n m)) = ix1 m := funext fun a => match a with | ⟨0, _⟩ => rfl
  rw [e]
  exact v4_at x0 x1 q k h0 h1 m

/-- The shifted exponential, read at (n, m). -/
theorem v8_at (h0 : ∀ (a : Fin 8192) (b : Fin 128), x0 (ix2 a b) = ((q a b : ℝ) : EReal))
    (h1 : ∀ (a : Fin 8192) (b : Fin 128), x1 (ix2 a b) = ((k a b : ℝ) : EReal)) (n m : Fin 8192) :
    val_main_v8 (F := Ideal) x0 x1 (ix2 n m)
      = ((Real.exp (Cert.Spec.sc q k n m - Cert.Spec.mx q k m) : ℝ) : EReal) := by
  rw [val_main_v8_apply, val_main_v7_apply, v1_at x0 x1 q k h0 h1 n m, v6_at x0 x1 q k h0 h1 n m]
  show Ideal.exp (((Cert.Spec.sc q k n m : ℝ) : EReal) - ((Cert.Spec.mx q k m : ℝ) : EReal)) = _
  rw [← EReal.coe_sub, Ideal.exp_coe]

/-- The softmax denominator: the sum of the shifted exponentials over the query axis, at key m. -/
theorem v9_at (h0 : ∀ (a : Fin 8192) (b : Fin 128), x0 (ix2 a b) = ((q a b : ℝ) : EReal))
    (h1 : ∀ (a : Fin 8192) (b : Fin 128), x1 (ix2 a b) = ((k a b : ℝ) : EReal)) (m : Fin 8192) :
    val_main_v9 (F := Ideal) x0 x1 (ix1 m) = ((Cert.Spec.den q k m : ℝ) : EReal) := by
  rw [val_main_v9_apply, val_main_cst_1_apply]
  show Ideal.ofBits .f32 0x00000000#32 + _ = _
  rw [Ideal.ofBits_zero_f32, zero_add]
  unfold Cert.Spec.den
  rw [coe_sum]
  refine Finset.sum_congr rfl fun n _ => ?_
  have e : idx_main_v9 (ix1 m) n = ix2 n m := funext fun a => match a with | ⟨0, _⟩ => rfl | ⟨1, _⟩ => rfl
  rw [e]
  exact v8_at x0 x1 q k h0 h1 n m

/-- The denominator broadcast over the rows, read at (n, m). -/
theorem v11_at (h0 : ∀ (a : Fin 8192) (b : Fin 128), x0 (ix2 a b) = ((q a b : ℝ) : EReal))
    (h1 : ∀ (a : Fin 8192) (b : Fin 128), x1 (ix2 a b) = ((k a b : ℝ) : EReal)) (n m : Fin 8192) :
    val_main_v11 (F := Ideal) x0 x1 (ix2 n m) = ((Cert.Spec.den q k m : ℝ) : EReal) := by
  rw [val_main_v11_apply, val_main_v10_apply]
  have e : idx_main_v10 (idx_main_v11 (ix2 n m)) = ix1 m := funext fun a => match a with | ⟨0, _⟩ => rfl
  rw [e]
  exact v9_at x0 x1 q k h0 h1 m

/-- The normalised weight, read at (n, m): the denominator is a positive real, so the quotient is the real one. -/
theorem v12_at (h0 : ∀ (a : Fin 8192) (b : Fin 128), x0 (ix2 a b) = ((q a b : ℝ) : EReal))
    (h1 : ∀ (a : Fin 8192) (b : Fin 128), x1 (ix2 a b) = ((k a b : ℝ) : EReal)) (n m : Fin 8192) :
    val_main_v12 (F := Ideal) x0 x1 (ix2 n m)
      = ((Real.exp (Cert.Spec.sc q k n m - Cert.Spec.mx q k m) / Cert.Spec.den q k m : ℝ) : EReal) := by
  rw [val_main_v12_apply, v8_at x0 x1 q k h0 h1 n m, v11_at x0 x1 q k h0 h1 n m]
  show Ideal.div _ _ = _
  rw [Ideal.div_coe (ne_of_gt (Cert.Spec.den_pos q k m)), ← EReal.coe_mul, mul_one_div]

end Stages

/-- The reference computes the specification: its result at (a, b) is the softmax along the query axis applied to V. -/
theorem ref_is_spec (x0 x1 x2 : (⟨S8192x128, .f32⟩ : BufTy).Contents (Elt Ideal)) (q k v : Cert.Spec.Mat 8192 128)
    (h0 : ∀ (a : Fin 8192) (b : Fin 128), x0 (ix2 a b) = ((q a b : ℝ) : EReal))
    (h1 : ∀ (a : Fin 8192) (b : Fin 128), x1 (ix2 a b) = ((k a b : ℝ) : EReal))
    (h2 : ∀ (a : Fin 8192) (b : Fin 128), x2 (ix2 a b) = ((v a b : ℝ) : EReal)) :
    ∀ (a : Fin 8192) (b : Fin 128),
      Cert.ReferenceIdeal.Read.val_main_v13 (F := Ideal) x0 x1 x2 (ix2 a b) = ((Cert.Spec.outR q k v a b : ℝ) : EReal) := by
  intro a b
  rw [val_main_v13_apply]
  unfold Cert.Spec.outR
  rw [coe_sum]
  refine Finset.sum_congr rfl fun m _ => ?_
  have e1 : lidx_main_v13 (ix2 a b) m = ix2 a m := funext fun c => match c with | ⟨0, _⟩ => rfl | ⟨1, _⟩ => rfl
  have e2 : ridx_main_v13 (ix2 a b) m = ix2 m b := funext fun c => match c with | ⟨0, _⟩ => rfl | ⟨1, _⟩ => rfl
  rw [e1, e2, v12_at x0 x1 q k h0 h1 a m, h2]
  exact (EReal.coe_mul _ _).symm

end Cert.RefSide

end
-- ==== Proof.RefRun.lean ====
/-
  The reference's run, read through the specification.

  Every weakly fair execution of the reference terminates with its result array holding, at each index (a, b), the
  real number out(a, b) of the specification, whenever its three argument arrays hold the real matrices q, k and v;
  the argument arrays end as they began.  The run itself is the generated one (each result buffer ends at the
  composed term of the operations); that term at an index is the specification's value by the stage-by-stage reading.
-/
import proofs.«180234_j36386962931993_1_alg».proof.Proof.RefIsSpec
import proofs.«180234_j36386962931993_1_alg».proof.Proof.OutArr
import proofs.«180234_j36386962931993_1_alg».proof.Proof.Gen.ReferenceIdeal.Run
import proofs.«180234_j36386962931993_1_alg».proof.Proof.Gen.ReferenceIdeal.Read
import proofs.«180234_j36386962931993_1_alg».proof.Proof.Gen.ReferenceIdeal
import proofs.«180234_j36386962931993_1_alg».proof.Proof.Gen.Pre_finite_inputs
import proofs.«180234_j36386962931993_1_alg».proof.Defs

noncomputable section

namespace Cert.RefSide

open Idealize.ShloMosaic Idealize.ShloMosaic.TcCoe Idealize.SL.Sem Idealize.ShloMosaic.ValueIdx Cert.ReferenceIdeal

/-- From a memory whose argument arrays hold, on each device c, the real matrices q c, k c, v c, the reference ends with its result array
    equal to the specification's array and its arguments unchanged. -/
theorem ref_run [Cert.ReferenceIdeal.Facts] (m' : (ℓ : Loc Cert.ReferenceIdeal.nD Cert.ReferenceIdeal.τ Cert.ReferenceIdeal.sig) → Buf (Elt Ideal) ℓ)
    (ρ' : Dev Cert.ReferenceIdeal.nD → PrngReg) (q k v : Dev Cert.ReferenceIdeal.nD → Cert.Spec.Mat 8192 128)
    (h0 : ∀ (c : Dev Cert.ReferenceIdeal.nD) (a : Fin 8192) (b : Fin 128), (m' ((c.tc : Thread Cert.ReferenceIdeal.nD Cert.ReferenceIdeal.τ).loc Cert.ReferenceIdeal.main_arg0) : S8192x128.Idx → EReal) (ix2 a b) = ((q c a b : ℝ) : EReal))
    (h1 : ∀ (c : Dev Cert.ReferenceIdeal.nD) (a : Fin 8192) (b : Fin 128), (m' ((c.tc : Thread Cert.ReferenceIdeal.nD Cert.ReferenceIdeal.τ).loc Cert.ReferenceIdeal.main_arg1) : S8192x128.Idx → EReal) (ix2 a b) = ((k c a b : ℝ) : EReal))
    (h2 : ∀ (c : Dev Cert.ReferenceIdeal.nD) (a : Fin 8192) (b : Fin 128), (m' ((c.tc : Thread Cert.ReferenceIdeal.nD Cert.ReferenceIdeal.τ).loc Cert.ReferenceIdeal.main_arg2) : S8192x128.Idx → EReal) (ix2 a b) = ((v c a b : ℝ) : EReal)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v13) = Cert.Spec.outArr (q c) (k c) (v c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  exact Cert.Spec.eq_outArr (q c) (k c) (v c) _ (ref_is_spec _ _ _ (q c) (k c) (v c) (h0 c) (h1 c) (h2 c))

/-- The reference runs (terminates, nothing faulting) and its argument arrays end unchanged. -/
theorem ref_frame : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.RefSide

end
-- ==== Proof.Finite.lean ====
/-
  Finiteness of the three inputs, read off the precondition.

  The precondition is the conjunction, over the three arrays Q, K, V, of "every entry x has
  |x| < +∞", where |x| is max x (−x) on the extended reals and +∞ is the value of the pattern
  0x7F800000.  An extended real with max x (−x) < ⊤ is neither ⊤ nor ⊥ (for ⊥ the negation is ⊤),
  hence the coercion of a real number.  Choosing that real for every entry gives three real
  matrices whose coercions are the arrays.
-/
import proofs.«180234_j36386962931993_1_alg».proof.Pre_finite_inputs
import proofs.«180234_j36386962931993_1_alg».proof.Proof.Gen.Pre_finite_inputs
import proofs.«180234_j36386962931993_1_alg».proof.Proof.Spec
import Idealize.ShloMosaic.Lib.ValueIdx
import Idealize.ShloMosaic.Lib.ReduceAll
import Idealize.ShloMosaic.PureOps.Ideal

noncomputable section

namespace Cert.Finite

open Idealize.ShloMosaic Idealize.ShloMosaic.ValueIdx
open Cert.Pre_finite_inputs (S8192x128 S_)

/-- The rank-0 shape has exactly one index. -/
instance subsingleton_scalar_idx : Subsingleton S_.Idx := ⟨fun a b => funext fun d => d.elim0⟩

/-- An extended real x with max x (−x) < ⊤ is the coercion of a real. -/
theorem real_of_abs_lt_top (x : EReal) (h : max x (-x) < ⊤) : ∃ r : ℝ, x = (r : EReal) := by
  induction x using EReal.rec with
  | bot => simp at h
  | coe r => exact ⟨r, rfl⟩
  | top => simp at h

/-- One array: if "|x| < +∞" holds at every entry (the comparison's bit is 1 everywhere), every entry is real. -/
theorem entry_real [Cert.Pre_finite_inputs.Facts] (x : FVec Ideal S8192x128 .f32)
    (hb : S_.BroadcastsInDim S8192x128 (![] : Fin 0 → Fin S8192x128.rank))
    (i : S8192x128.Idx)
    (h : cmpf .olt (Host.absf x) (broadcastInDim S8192x128 ![] hb (constant S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  have e : Ideal.ofBits .f32 0x7F800000#32 = (⊤ : EReal) := by simp [Ideal.ofBits, Ideal.ieee]
  rw [e] at h'
  by_contra hc
  simp [hc] at h'

/-- All three arrays: under the precondition each of Q, K, V is the entrywise coercion of a real matrix. -/
theorem reals_of_pre [Cert.Pre_finite_inputs.Facts]
    (x0 x1 x2 : (⟨(⟨2, ![8192, 128]⟩ : Shape), .f32⟩ : BufTy).Contents (Elt Ideal))
    (h : Cert.Pre_finite_inputs.fn (F := Ideal) x0 x1 x2 = (fun _ => 1#1)) :
    ∃ q k v : Cert.Spec.Mat 8192 128,
      (∀ (a : Fin 8192) (b : Fin 128), x0 (ix2 a b) = ((q a b : ℝ) : EReal)) ∧
      (∀ (a : Fin 8192) (b : Fin 128), x1 (ix2 a b) = ((k a b : ℝ) : EReal)) ∧
      (∀ (a : Fin 8192) (b : Fin 128), x2 (ix2 a b) = ((v a b : ℝ) : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  have r0 : ∀ (a : Fin 8192) (b : Fin 128), ∃ r : ℝ, x0 (ix2 a b) = (r : EReal) := fun a b =>
    entry_real x0 _ (ix2 a b) (Host.reduce_andi_all _ _ _ _ _ h0' (ix2 a b))
  have r1 : ∀ (a : Fin 8192) (b : Fin 128), ∃ r : ℝ, x1 (ix2 a b) = (r : EReal) := fun a b =>
    entry_real x1 _ (ix2 a b) (Host.reduce_andi_all _ _ _ _ _ h1 (ix2 a b))
  have r2 : ∀ (a : Fin 8192) (b : Fin 128), ∃ r : ℝ, x2 (ix2 a b) = (r : EReal) := fun a b =>
    entry_real x2 _ (ix2 a b) (Host.reduce_andi_all _ _ _ _ _ h2 (ix2 a b))
  choose q hq using r0
  choose k hk using r1
  choose v hv using r2
  exact ⟨q, k, v, hq, hk, hv⟩

end Cert.Finite
-- ==== Proof.lean ====
/-
  The certificate of an attention kernel whose softmax runs along the QUERY axis, against its reference.

  Both programs compute, over the extended reals and for finite inputs,
      out(n, d) = Σ_m exp (s(n, m) − mx(m)) / den(m) · v(m, d),     s(n, m) = Σ_e q(n, e) · k(m, e),
      mx(m) = max_n s(n, m),     den(m) = Σ_n exp (s(n, m) − mx(m)).
  The reference does so directly.  The kernel runs two regions over a grid of 8 × 8 blocks of 1024 rows:
  the first keeps, per key, a running maximum and a running rescaled sum over the eight query blocks and
  writes the log-sum-exp lse(m) = mx(m) + log den(m); the second accumulates exp (s(n, m) − lse(m)) · v(m, d)
  over the eight key blocks.  Since den(m) > 0, exp (s − mx − log den) = exp (s − mx) / den, and the blocked
  sums regroup into the whole ones: the two results are one array (Spec.lean).

  The three frames: each program terminates on every weakly fair execution and leaves its arguments as
  launched.  For the two kernel programs this is the run of the program's three items (the host's format
  changes and the two regions), each region's body run case by case on the grid coordinates with its scratch
  carried from point to point; for the reference it is its run as a list of host operations.  The idealized
  kernel is the printed kernel read at the extended reals with no rewrite, so nothing is asked of that conjunct.
-/
import proofs.«180234_j36386962931993_1_alg».proof.Defs
import proofs.«180234_j36386962931993_1_alg».proof.Proof.Gen.Kernel
import proofs.«180234_j36386962931993_1_alg».proof.Proof.Gen.KernelIdeal
import proofs.«180234_j36386962931993_1_alg».proof.Proof.Gen.ReferenceIdeal
import proofs.«180234_j36386962931993_1_alg».proof.Proof.Gen.Pre_finite_inputs
import proofs.«180234_j36386962931993_1_alg».proof.Proof.K.Whole
import proofs.«180234_j36386962931993_1_alg».proof.Proof.KI.KernelValue
import proofs.«180234_j36386962931993_1_alg».proof.Proof.RefRun
import proofs.«180234_j36386962931993_1_alg».proof.Proof.Finite

noncomputable section

namespace Cert.Proof

open Idealize.ShloMosaic Idealize.SL.Sem

/-- The word-level kernel terminates and keeps its arguments. -/
theorem frame_kernel : Cert.frame_Kernel (hKernel := Cert.Kernel.Gen.facts) (hPre_finite_inputs := Cert.Pre_finite_inputs.Gen.facts) :=
  fun m ρ _ => Cert.Kernel.Whole.frame (F := Bits) m ρ

/-- The idealized kernel terminates and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- From memories that agree on finite arguments both idealized programs end with the specification's array:
    the precondition gives the arguments as real matrices, the kernel's two regions and the reference's
    operations each compute out of those. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose q k v hq hk hv using fun c : Dev Cert.KernelIdeal.nD => Cert.Finite.reals_of_pre _ _ _ (hpre c)
  refine ⟨fun c => Cert.Spec.outArr (q c) (k c) (v c), Cert.KernelIdeal.Whole.kernel_run m ρ q k v hq hk hv, ?_⟩
  exact Cert.RefSide.ref_run m' ρ' q k v
    (fun c a b => by rw [(hagree c).1]; exact hq c a b)
    (fun c a b => by rw [(hagree c).2.1]; exact hk c a b)
    (fun c a b => by rw [(hagree c).2.2]; exact hv c a b)

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefSide.ref_frame, trivial, algebraic⟩

end Cert.Proof

end
